-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1 : Shape := ⟨1, ![1]⟩
abbrev S1024x1024 : Shape := ⟨2, ![1024, 1024]⟩
abbrev S1024x64 : Shape := ⟨2, ![1024, 64]⟩
abbrev S2048x2048 : Shape := ⟨2, ![2048, 2048]⟩
abbrev S512x2048 : Shape := ⟨2, ![512, 2048]⟩
abbrev S64 : Shape := ⟨1, ![64]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1 : S_.BroadcastsInDim S1 (![] : Fin 0 → Fin S1.rank)
  reducesTo_S1_S_d0 : S1.ReducesTo [0] S_
  bcast_S_S1024x64 : S_.BroadcastsInDim S1024x64 (![] : Fin 0 → Fin S1024x64.rank)
  reducesTo_S1024x64_S_d0_1 : S1024x64.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S512x2048 .f32) (main_arg9 : FVec F S512x2048 .f32) (main_arg10 : FVec F S2048x2048 .f32) (main_arg11 : FVec F S64 .f32) (main_arg12 : FVec F S64 .f32) (main_v33 : IVec S_ 1) : IVec S_ 1 :=
  let main_v34 : FVec F S512x2048 .f32 := Host.absf main_arg8
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512x2048 .f32 := Host.absf main_arg9
  let main_cst_14 : FVec F S_ .f32 := constant S_ .f32 0x7F800000#32
  let main_v40 : FVec F S512x2048 .f32 := broadcastInDim S512x2048 ![] bcast_S_S512x2048 main_cst_14
  let main_v41 : IVec S512x2048 1 := cmpf .olt main_v39 main_v40
  let main_c_15 : IVec S_ 1 := constantI S_ 1 1#1
  let main_v42 : IVec S_ 1 := (fun x v => Host.reduce IntOp.andi x v reducesTo_S512x2048_S_d0_1 h_S_) main_v41 main_c_15
  let main_v43 : IVec S_ 1 := andi main_v38 main_v42
  let main_v44 : FVec F S2048x2048 .f32 := Host.absf main_arg10
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S1024x64 .f32) (main_arg6 : FVec F S1 .f32) (main_arg7 : FVec F S2048x2048 .f32) (main_arg8 : FVec F S512x2048 .f32) (main_arg9 : FVec F S512x2048 .f32) (main_arg10 : FVec F S2048x2048 .f32) (main_arg11 : FVec F S64 .f32) (main_arg12 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S2048x2048 .f32 := Host.absf main_arg7
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1024x2048 .f32) (main_arg1 : FVec F S1 .f32) (main_arg2 : IVec S1024x1024 1) (main_arg3 : FVec F S1024x64 .f32) (main_arg4 : FVec F S1 .f32) (main_arg5 : FVec F S1024x64 .f32) (main_arg6 : FVec F S1 .f32) (main_arg7 : FVec F S2048x2048 .f32) (main_arg8 : FVec F S512x2048 .f32) (main_arg9 : FVec F S512x2048 .f32) (main_arg10 : FVec F S2048x2048 .f32) (main_arg11 : FVec F S64 .f32) (main_arg12 : FVec F S64 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_v13 main_v16
-- ==== Kernel.lean ====
abbrev S1024x2048 : Shape := ⟨2, ![1024, 2048]⟩
abbrev S1 : Shape := ⟨1, ![1]⟩
abbrev S1024x1024 : Shape := ⟨2, ![1024, 1024]⟩
abbrev S1024x64 : Shape := ⟨2, ![1024, 64]⟩
abbrev S2048x2048 : Shape := ⟨2, ![2048, 2048]⟩
abbrev S512x2048 : Shape := ⟨2, ![512, 2048]⟩
abbrev S64 : Shape := ⟨1, ![64]⟩
abbrev S3072x2048 : Shape := ⟨2, ![3072, 2048]⟩
abbrev S1024x3072 : Shape := ⟨2, ![1024, 3072]⟩
abbrev S256x2048 : Shape := ⟨2, ![256, 2048]⟩
abbrev S1024x256 : Shape := ⟨2, ![1024, 256]⟩
abbrev S1024x512 : Shape := ⟨2, ![1024, 512]⟩
abbrev S1x64 : Shape := ⟨2, ![1, 64]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 23
  | .smem => 0
  | _ => 0

abbrev bufTy : (tb : Table) → Fin (tcTables nBuf tb) → BufTy
  | .hbm, ⟨0, _⟩ => ⟨S1024x2048, .f32⟩
  | .hbm, ⟨1, _⟩ => ⟨S1, .f32⟩
  | .hbm, ⟨2, _⟩ => ⟨S1024x1024, .i1⟩
  | .hbm, ⟨3, _⟩ => ⟨S1024x64, .f32⟩
  | .hbm, ⟨4, _⟩ => ⟨S1, .f32⟩
  | .hbm, ⟨5, _⟩ => ⟨S1024x64, .f32⟩
  | .hbm, ⟨6, _⟩ => ⟨S1, .f32⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S2048x2048, .f32⟩
  | .hbm, ⟨11, _⟩ => ⟨S64, .f32⟩
  | .hbm, ⟨12, _⟩ => ⟨S64, .f32⟩
  | .hbm, ⟨13, _⟩ => ⟨S3072x2048, .f32⟩
  | .hbm, ⟨14, _⟩ => ⟨S1024x3072, .f32⟩
  | .hbm, ⟨15, _⟩ => ⟨S1024x2048, .f32⟩
  | .hbm, ⟨16, _⟩ => ⟨S1024x512, .f32⟩
  | .hbm, ⟨17, _⟩ => ⟨S1024x512, .f32⟩
  | .hbm, ⟨18, _⟩ => ⟨S1x64, .f32⟩
  | .hbm, ⟨19, _⟩ => ⟨S1x64, .f32⟩
  | .hbm, ⟨20, _⟩ => ⟨S1024x1024, .i32⟩
  | .hbm, ⟨21, _⟩ => ⟨S1024x2048, .f32⟩
  | .hbm, ⟨22, _⟩ => ⟨S1024x2048, .f32⟩
  | .local _ .vmem, ⟨0, _⟩ => ⟨S1024x2048, .f32⟩
  | .local _ .vmem, ⟨1, _⟩ => ⟨S256x2048, .f32⟩
  | .local _ .vmem, ⟨2, _⟩ => ⟨S256x2048, .f32⟩
  | .local _ .vmem, ⟨3, _⟩ => ⟨S1024x256, .f32⟩
  | .local _ .vmem, ⟨4, _⟩ => ⟨S1024x256, .f32⟩
  | .local _ .vmem, ⟨5, _⟩ => ⟨S1024x512, .f32⟩
  | .local _ .vmem, ⟨6, _⟩ => ⟨S1024x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x64, .f32⟩
  | .local _ .vmem, ⟨12, _⟩ => ⟨S1024x64, .f32⟩
  | .local _ .vmem, ⟨13, _⟩ => ⟨S1024x1024, .i32⟩
  | .local _ .vmem, ⟨14, _⟩ => ⟨S1x64, .f32⟩
  | .local _ .vmem, ⟨15, _⟩ => ⟨S1x64, .f32⟩
  | .local _ .vmem, ⟨16, _⟩ => ⟨S1024x512, .f32⟩
  | .local _ .vmem, ⟨17, _⟩ => ⟨S1024x512, .f32⟩
  | .local _ .vmem, ⟨18, _⟩ => ⟨S1024x2048, .f32⟩
  | .local _ .vmem, ⟨19, _⟩ => ⟨S512x2048, .f32⟩
  | .local _ .vmem, ⟨20, _⟩ => ⟨S512x2048, .f32⟩
  | .local _ .vmem, ⟨21, _⟩ => ⟨S1024x512, .f32⟩
  | .local _ .vmem, ⟨22, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S2048x2048_S512x2048_S512x2048_S3072x2048_d0 : Shape.Concatenates [S2048x2048, S512x2048, S512x2048] S3072x2048 0
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x256_S1024x256_0_0 : ∀ a, (![0, 0] : Fin 2 → Nat) a + S1024x256.size a ≤ S1024x256.size a
  h_S1024x256 : 0 < S1024x256.numel
  slices_S1024x3072_S1024x2048_0_0 : S1024x3072.Slices ![0, 0] S1024x2048
  slices_S1024x3072_S1024x512_0_2048 : S1024x3072.Slices ![0, 2048] S1024x512
  slices_S1024x3072_S1024x512_0_2560 : S1024x3072.Slices ![0, 2560] S1024x512
  shapeCasts_S64_S1x64 : S64.ShapeCasts S1x64
  natLt_1_32 : 1 < 32
  inb_S1024x64_S1024x64_0_0 : ∀ a, (![0, 0] : Fin 2 → Nat) a + S1024x64.size a ≤ S1024x64.size a
  h_S1024x64 : 0 < S1024x64.numel
  inb_S1024x1024_S1024x1024_0_0 : ∀ a, (![0, 0] : Fin 2 → Nat) a + S1024x1024.size a ≤ S1024x1024.size a
  h_S1024x1024 : 0 < S1024x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S1x64_d1_w32 : S1x64.Iotas .tc 32 [1]
  inb_S1024x128_S1024x64_0_0 : ∀ a, (![0, 0] : Fin 2 → Nat) a + S1024x64.size a ≤ S1024x128.size a
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  broadcasts_S1x64_S1024x64 : S1x64.Broadcasts S1024x64
  rotates_S1024x64_d1 : S1024x64.Rotates 1 none
  inb_S1024x512_S1024x64_0_0 : ∀ a, (![0, 0] : Fin 2 → Nat) a + S1024x64.size a ≤ S1024x512.size a
  reduces_S1024x1024_S1024 : S1024x1024.Reduces [1] S1024
  broadcasts_S1024x1_S1024x1024 : S1024x1.Broadcasts S1024x1024
  inb_S1024x512_S1024x64_0_64 : ∀ a, (![0, 64] : Fin 2 → Nat) a + S1024x64.size a ≤ S1024x512.size a
  inb_S1024x512_S1024x64_0_128 : ∀ a, (![0, 128] : Fin 2 → Nat) a + S1024x64.size a ≤ S1024x512.size a
  inb_S1024x512_S1024x64_0_192 : ∀ a, (![0, 192] : Fin 2 → Nat) a + S1024x64.size a ≤ S1024x512.size a
  concatenates_S1024x64_S1024x64_S1024x64_S1024x64_S1024x256_d1 : Shape.Concatenates [S1024x64, S1024x64, S1024x64, S1024x64] S1024x256 1
  inb_S1024x128_S1024x64_0_64 : ∀ a, (![0, 64] : Fin 2 → Nat) a + S1024x64.size a ≤ S1024x128.size a
  inb_S1024x512_S1024x64_0_256 : ∀ a, (![0, 256] : Fin 2 → Nat) a + S1024x64.size a ≤ S1024x512.size a
  inb_S1024x512_S1024x64_0_320 : ∀ a, (![0, 320] : Fin 2 → Nat) a + S1024x64.size a ≤ S1024x512.size a
  inb_S1024x512_S1024x64_0_384 : ∀ a, (![0, 384] : Fin 2 → Nat) a + S1024x64.size a ≤ S1024x512.size a
  inb_S1024x512_S1024x64_0_448 : ∀ a, (![0, 448] : Fin 2 → Nat) a + S1024x64.size a ≤ S1024x512.size a
  concatenates_S1024x256_S1024x256_S1024x512_d1 : Shape.Concatenates [S1024x256, S1024x256] S1024x512 1
  inb_S1024x512_S1024x512_0_0 : ∀ a, (![0, 0] : Fin 2 → Nat) a + S1024x512.size a ≤ S1024x512.size a
  h_S1024x512 : 0 < S1024x512.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  dot_S1024x2048_S256x2048_S1024x256_1_1_0_0_n_n_wf : DotDims.WF S1024x2048 S256x2048 S1024x256 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S3072x2048.size a
  hwx0_1 : ∀ i : grid0.Coords, EltTy.bits .f32 = 32 ∨ (Rect.block (s := S3072x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x3072.size a
  hwx0_2 : ∀ i : grid0.Coords, EltTy.bits .f32 = 32 ∨ (Rect.block (s := S1024x3072) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x2048.size a
  hwx1_0 : ∀ i : grid1.Coords, EltTy.bits .f32 = 32 ∨ (Rect.block (s := S1024x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x512.size a
  hwx1_1 : ∀ i : grid1.Coords, EltTy.bits .f32 = 32 ∨ (Rect.block (s := S1024x512) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x512.size a
  hwx1_2 : ∀ i : grid1.Coords, EltTy.bits .f32 = 32 ∨ (Rect.block (s := S1024x512) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S1024x64.size a
  hwx1_4 : ∀ i : grid1.Coords, EltTy.bits .f32 = 32 ∨ (Rect.block (s := S1024x64) S1024x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .i32 = 32 ∨ (Rect.block (s := S1024x1024) S1024x1024.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x512.size a ≤ S1024x2048.size a
  hwx1_8 : ∀ i : grid1.Coords, EltTy.bits .f32 = 32 ∨ (Rect.block (s := S1024x2048) S1024x512.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S1024x2048.size a
  hwx2_0 : ∀ i : grid2.Coords, EltTy.bits .f32 = 32 ∨ (Rect.block (s := S1024x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .f32 = 32 ∨ (Rect.block (s := S2048x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x2048.size a
  hwx2_2 : ∀ i : grid2.Coords, EltTy.bits .f32 = 32 ∨ (Rect.block (s := S1024x2048) S1024x512.size (cc2_transform_2 i) (hinb2_2 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1024x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v8) S1024x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1024x2048 : Shape := ⟨2, ![1024, 2048]⟩
abbrev S1 : Shape := ⟨1, ![1]⟩
abbrev S1024x1024 : Shape := ⟨2, ![1024, 1024]⟩
abbrev S1024x64 : Shape := ⟨2, ![1024, 64]⟩
abbrev S2048x2048 : Shape := ⟨2, ![2048, 2048]⟩
abbrev S512x2048 : Shape := ⟨2, ![512, 2048]⟩
abbrev S64 : Shape := ⟨1, ![64]⟩
abbrev S1024x32x64 : Shape := ⟨3, ![1024, 32, 64]⟩
abbrev S32x1024x64 : Shape := ⟨3, ![32, 1024, 64]⟩
abbrev S2048x512 : Shape := ⟨2, ![2048, 512]⟩
abbrev S1024x512 : Shape := ⟨2, ![1024, 512]⟩
abbrev S1024x8x64 : Shape := ⟨3, ![1024, 8, 64]⟩
abbrev S8x1024x64 : Shape := ⟨3, ![8, 1024, 64]⟩
abbrev S_ : Shape := ⟨0, ![]⟩
abbrev S32x1024 : Shape := ⟨2, ![32, 1024]⟩
abbrev S32x1024x1 : Shape := ⟨3, ![32, 1024, 1]⟩
abbrev S1x1x64 : Shape := ⟨3, ![1, 1, 64]⟩
abbrev S8x1024 : Shape := ⟨2, ![8, 1024]⟩
abbrev S8x1024x1 : Shape := ⟨3, ![8, 1024, 1]⟩
abbrev S32x1024x32 : Shape := ⟨3, ![32, 1024, 32]⟩
abbrev S1x1024x64 : Shape := ⟨3, ![1, 1024, 64]⟩
abbrev S8x1024x32 : Shape := ⟨3, ![8, 1024, 32]⟩
abbrev S8x4x1024x64 : Shape := ⟨4, ![8, 4, 1024, 64]⟩
abbrev S32x1024x1024 : Shape := ⟨3, ![32, 1024, 1024]⟩
abbrev S1x1024x1024 : Shape := ⟨3, ![1, 1024, 1024]⟩

abbrev nBuf : Space → Nat
  | .hbm => 112
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1, .f32⟩
  | .hbm, ⟨2, _⟩ => ⟨S1024x1024, .i1⟩
  | .hbm, ⟨3, _⟩ => ⟨S1024x64, .f32⟩
  | .hbm, ⟨4, _⟩ => ⟨S1, .f32⟩
  | .hbm, ⟨5, _⟩ => ⟨S1024x64, .f32⟩
  | .hbm, ⟨6, _⟩ => ⟨S1, .f32⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S2048x2048, .f32⟩
  | .hbm, ⟨11, _⟩ => ⟨S64, .f32⟩
  | .hbm, ⟨12, _⟩ => ⟨S64, .f32⟩
  | .hbm, ⟨13, _⟩ => ⟨S2048x2048, .f32⟩
  | .hbm, ⟨14, _⟩ => ⟨S1024x2048, .f32⟩
  | .hbm, ⟨15, _⟩ => ⟨S1024x32x64, .f32⟩
  | .hbm, ⟨16, _⟩ => ⟨S32x1024x64, .f32⟩
  | .hbm, ⟨17, _⟩ => ⟨S2048x512, .f32⟩
  | .hbm, ⟨18, _⟩ => ⟨S1024x512, .f32⟩
  | .hbm, ⟨19, _⟩ => ⟨S1024x8x64, .f32⟩
  | .hbm, ⟨20, _⟩ => ⟨S8x1024x64, .f32⟩
  | .hbm, ⟨21, _⟩ => ⟨S2048x512, .f32⟩
  | .hbm, ⟨22, _⟩ => ⟨S1024x512, .f32⟩
  | .hbm, ⟨23, _⟩ => ⟨S1024x8x64, .f32⟩
  | .hbm, ⟨24, _⟩ => ⟨S8x1024x64, .f32⟩
  | .hbm, ⟨25, _⟩ => ⟨S32x1024x64, .f32⟩
  | .hbm, ⟨26, _⟩ => ⟨S_, .f32⟩
  | .hbm, ⟨27, _⟩ => ⟨S32x1024, .f32⟩
  | .hbm, ⟨28, _⟩ => ⟨S32x1024x1, .f32⟩
  | .hbm, ⟨29, _⟩ => ⟨S_, .f32⟩
  | .hbm, ⟨30, _⟩ => ⟨S32x1024x1, .f32⟩
  | .hbm, ⟨31, _⟩ => ⟨S32x1024x1, .f32⟩
  | .hbm, ⟨32, _⟩ => ⟨S_, .f32⟩
  | .hbm, ⟨33, _⟩ => ⟨S32x1024x1, .f32⟩
  | .hbm, ⟨34, _⟩ => ⟨S32x1024x1, .f32⟩
  | .hbm, ⟨35, _⟩ => ⟨S32x1024x1, .f32⟩
  | .hbm, ⟨36, _⟩ => ⟨S32x1024x64, .f32⟩
  | .hbm, ⟨37, _⟩ => ⟨S32x1024x64, .f32⟩
  | .hbm, ⟨38, _⟩ => ⟨S1x1x64, .f32⟩
  | .hbm, ⟨39, _⟩ => ⟨S32x1024x64, .f32⟩
  | .hbm, ⟨40, _⟩ => ⟨S32x1024x64, .f32⟩
  | .hbm, ⟨41, _⟩ => ⟨S8x1024x64, .f32⟩
  | .hbm, ⟨42, _⟩ => ⟨S_, .f32⟩
  | .hbm, ⟨43, _⟩ => ⟨S8x1024, .f32⟩
  | .hbm, ⟨44, _⟩ => ⟨S8x1024x1, .f32⟩
  | .hbm, ⟨45, _⟩ => ⟨S_, .f32⟩
  | .hbm, ⟨46, _⟩ => ⟨S8x1024x1, .f32⟩
  | .hbm, ⟨47, _⟩ => ⟨S8x1024x1, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S8x1024x1, .f32⟩
  | .hbm, ⟨52, _⟩ => ⟨S8x1024x64, .f32⟩
  | .hbm, ⟨53, _⟩ => ⟨S8x1024x64, .f32⟩
  | .hbm, ⟨54, _⟩ => ⟨S1x1x64, .f32⟩
  | .hbm, ⟨55, _⟩ => ⟨S8x1024x64, .f32⟩
  | .hbm, ⟨56, _⟩ => ⟨S8x1024x64, .f32⟩
  | .hbm, ⟨57, _⟩ => ⟨S32x1024x32, .f32⟩
  | .hbm, ⟨58, _⟩ => ⟨S32x1024x32, .f32⟩
  | .hbm, ⟨59, _⟩ => ⟨S32x1024x32, .f32⟩
  | .hbm, ⟨60, _⟩ => ⟨S32x1024x64, .f32⟩
  | .hbm, ⟨61, _⟩ => ⟨S1x1024x64, .f32⟩
  | .hbm, ⟨62, _⟩ => ⟨S32x1024x64, .f32⟩
  | .hbm, ⟨63, _⟩ => ⟨S32x1024x64, .f32⟩
  | .hbm, ⟨64, _⟩ => ⟨S1x1024x64, .f32⟩
  | .hbm, ⟨65, _⟩ => ⟨S32x1024x64, .f32⟩
  | .hbm, ⟨66, _⟩ => ⟨S32x1024x64, .f32⟩
  | .hbm, ⟨67, _⟩ => ⟨S32x1024x64, .f32⟩
  | .hbm, ⟨68, _⟩ => ⟨S8x1024x32, .f32⟩
  | .hbm, ⟨69, _⟩ => ⟨S8x1024x32, .f32⟩
  | .hbm, ⟨70, _⟩ => ⟨S8x1024x32, .f32⟩
  | .hbm, ⟨71, _⟩ => ⟨S8x1024x64, .f32⟩
  | .hbm, ⟨72, _⟩ => ⟨S1x1024x64, .f32⟩
  | .hbm, ⟨73, _⟩ => ⟨S8x1024x64, .f32⟩
  | .hbm, ⟨74, _⟩ => ⟨S8x1024x64, .f32⟩
  | .hbm, ⟨75, _⟩ => ⟨S1x1024x64, .f32⟩
  | .hbm, ⟨76, _⟩ => ⟨S8x1024x64, .f32⟩
  | .hbm, ⟨77, _⟩ => ⟨S8x1024x64, .f32⟩
  | .hbm, ⟨78, _⟩ => ⟨S8x1024x64, .f32⟩
  | .hbm, ⟨79, _⟩ => ⟨S8x4x1024x64, .f32⟩
  | .hbm, ⟨80, _⟩ => ⟨S32x1024x64, .f32⟩
  | .hbm, ⟨81, _⟩ => ⟨S8x4x1024x64, .f32⟩
  | .hbm, ⟨82, _⟩ => ⟨S32x1024x64, .f32⟩
  | .hbm, ⟨83, _⟩ => ⟨S32x1024x1024, .f32⟩
  | .hbm, ⟨84, _⟩ => ⟨S_, .f32⟩
  | .hbm, ⟨85, _⟩ => ⟨S32x1024x1024, .f32⟩
  | .hbm, ⟨86, _⟩ => ⟨S32x1024x1024, .f32⟩
  | .hbm, ⟨87, _⟩ => ⟨S1x1024x1024, .i1⟩
  | .hbm, ⟨88, _⟩ => ⟨S_, .f32⟩
  | .hbm, ⟨89, _⟩ => ⟨S_, .f32⟩
  | .hbm, ⟨90, _⟩ => ⟨S32x1024x1024, .i1⟩
  | .hbm, ⟨91, _⟩ => ⟨S32x1024x1024, .f32⟩
  | .hbm, ⟨92, _⟩ => ⟨S32x1024x1024, .f32⟩
  | .hbm, ⟨93, _⟩ => ⟨S_, .f32⟩
  | .hbm, ⟨94, _⟩ => ⟨S32x1024, .f32⟩
  | .hbm, ⟨95, _⟩ => ⟨S_, .f32⟩
  | .hbm, ⟨96, _⟩ => ⟨S32x1024, .f32⟩
  | .hbm, ⟨97, _⟩ => ⟨S32x1024, .f32⟩
  | .hbm, ⟨98, _⟩ => ⟨S32x1024x1, .f32⟩
  | .hbm, ⟨99, _⟩ => ⟨S32x1024x1024, .f32⟩
  | .hbm, ⟨100, _⟩ => ⟨S32x1024x1024, .f32⟩
  | .hbm, ⟨101, _⟩ => ⟨S32x1024x1024, .f32⟩
  | .hbm, ⟨102, _⟩ => ⟨S_, .f32⟩
  | .hbm, ⟨103, _⟩ => ⟨S32x1024, .f32⟩
  | .hbm, ⟨104, _⟩ => ⟨S32x1024x1, .f32⟩
  | .hbm, ⟨105, _⟩ => ⟨S32x1024x1024, .f32⟩
  | .hbm, ⟨106, _⟩ => ⟨S32x1024x1024, .f32⟩
  | .hbm, ⟨107, _⟩ => ⟨S32x1024x64, .f32⟩
  | .hbm, ⟨108, _⟩ => ⟨S1024x32x64, .f32⟩
  | .hbm, ⟨109, _⟩ => ⟨S1024x2048, .f32⟩
  | .hbm, ⟨110, _⟩ => ⟨S2048x2048, .f32⟩
  | .hbm, ⟨111, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_6 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_cst_8 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_9 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]

class Facts₀ : Prop where
  transposes_S2048x2048_S2048x2048_1_0 : S2048x2048.Transposes [1, 0] S2048x2048
  shapeCasts_S1024x2048_S1024x32x64 : S1024x2048.ShapeCasts S1024x32x64
  transposes_S1024x32x64_S32x1024x64_1_0_2 : S1024x32x64.Transposes [1, 0, 2] S32x1024x64
  transposes_S512x2048_S2048x512_1_0 : S512x2048.Transposes [1, 0] S2048x512
  shapeCasts_S1024x512_S1024x8x64 : S1024x512.ShapeCasts S1024x8x64
  transposes_S1024x8x64_S8x1024x64_1_0_2 : S1024x8x64.Transposes [1, 0, 2] S8x1024x64
  reducesTo_S32x1024x64_S32x1024_d2 : S32x1024x64.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x64_0_1_2 : S32x1024x1.BroadcastsInDim S32x1024x64 (![0, 1, 2] : Fin 3 → Fin S32x1024x64.rank)
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  reducesTo_S8x1024x64_S8x1024_d2 : S8x1024x64.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x64_0_1_2 : S8x1024x1.BroadcastsInDim S8x1024x64 (![0, 1, 2] : Fin 3 → Fin S8x1024x64.rank)
  bcast_S1x1x64_S8x1024x64_0_1_2 : S1x1x64.BroadcastsInDim S8x1024x64 (![0, 1, 2] : Fin 3 → Fin S8x1024x64.rank)
  slices_S32x1024x64_S32x1024x32_0_0_0 : S32x1024x64.Slices ![0, 0, 0] S32x1024x32
  slices_S32x1024x64_S32x1024x32_0_0_32 : S32x1024x64.Slices ![0, 0, 32] S32x1024x32
  concatenates_S32x1024x32_S32x1024x32_S32x1024x64_d2 : Shape.Concatenates [S32x1024x32, S32x1024x32] S32x1024x64 2
  bcast_S1024x64_S1x1024x64_1_2 : S1024x64.BroadcastsInDim S1x1024x64 (![1, 2] : Fin 2 → Fin S1x1024x64.rank)
  bcast_S1x1024x64_S32x1024x64_0_1_2 : S1x1024x64.BroadcastsInDim S32x1024x64 (![0, 1, 2] : Fin 3 → Fin S32x1024x64.rank)
  slices_S8x1024x64_S8x1024x32_0_0_0 : S8x1024x64.Slices ![0, 0, 0] S8x1024x32
  slices_S8x1024x64_S8x1024x32_0_0_32 : S8x1024x64.Slices ![0, 0, 32] S8x1024x32
  concatenates_S8x1024x32_S8x1024x32_S8x1024x64_d2 : Shape.Concatenates [S8x1024x32, S8x1024x32] S8x1024x64 2
  bcast_S1x1024x64_S8x1024x64_0_1_2 : S1x1024x64.BroadcastsInDim S8x1024x64 (![0, 1, 2] : Fin 3 → Fin S8x1024x64.rank)
  bcast_S8x1024x64_S8x4x1024x64_0_2_3 : S8x1024x64.BroadcastsInDim S8x4x1024x64 (![0, 2, 3] : Fin 3 → Fin S8x4x1024x64.rank)
  shapeCasts_S8x4x1024x64_S32x1024x64 : S8x4x1024x64.ShapeCasts S32x1024x64
  bcast_S_S32x1024x1024 : S_.BroadcastsInDim S32x1024x1024 (![] : Fin 0 → Fin S32x1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  bcast_S32x1024x1_S32x1024x1024_0_1_2 : S32x1024x1.BroadcastsInDim S32x1024x1024 (![0, 1, 2] : Fin 3 → Fin S32x1024x1024.rank)
  transposes_S32x1024x64_S1024x32x64_1_0_2 : S32x1024x64.Transposes [1, 0, 2] S1024x32x64
  shapeCasts_S1024x32x64_S1024x2048 : S1024x32x64.ShapeCasts S1024x2048
  dot_S1024x2048_S2048x2048_S1024x2048_1_0_0_1_n_n_wf : DotDims.WF S1024x2048 S2048x2048 S1024x2048 [1] [0] [0] [1] [] []
  dot_S1024x2048_S2048x512_S1024x512_1_0_0_1_n_n_wf : DotDims.WF S1024x2048 S2048x512 S1024x512 [1] [0] [0] [1] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.KReg0.lean ====
/-
  The first call of the printed program: the fused projection, 1024 x 2048 times the transpose of a 256-row block of the stacked weights, one block of output columns per grid point. What the body leaves, its triple and the pipeline's obligation, at any float instance.
-/
import proofs.«411685_j48395691491520_3_alg».proof.Proof.Gen.Kernel.Launch
import proofs.«411685_j48395691491520_3_alg».proof.Proof.Gen.Kernel.Skeleton
import proofs.«411685_j48395691491520_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its block at every point: it is fetched at the first point only, and its block
    index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's buffer holds the point's block of rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S1024x2048 := Rect.unit (s := S1024x2048) ![0, 0] S1024x2048.size inb_S1024x2048_S1024x2048_0_0
abbrev r0_1 : Rect S256x2048 := Rect.unit (s := S256x2048) ![0, 0] S256x2048.size inb_S256x2048_S256x2048_0_0
abbrev r0_2 : Rect S1024x256 := Rect.unit (s := S1024x256) ![0, 0] S1024x256.size inb_S1024x256_S1024x256_0_0

/-- What the body leaves in the output buffer: its one store, the product of the two operand blocks. -/
def out0_2 (x0 : Vec F S1024x2048 .f32) (x1 : Vec F S256x2048 .f32) : Vec F S1024x256 .f32 :=
  View.canon [⟨r0_2, k0_pay1 (View.ld x0 r0_0) (View.ld x1 r0_1)⟩]

/-- The one store covers the buffer. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

set_option maxHeartbeats 1000000 in
/-- The body on whole buffers: the operands' buffers are read and left as they were, the output's ends at `out0_2`. -/
theorem sound_kernel0 (c : Dev nD) (E : Set ℕ) (i : grid0.Coords) (arg1 : Memref sig .tc .vmem S1024x2048 .f32) (harg1 : arg1.IsWhole) (arg2 : Memref sig .tc .vmem S256x2048 .f32) (harg2 : arg2.IsWhole) (arg3 : Memref sig .tc .vmem S1024x256 .f32) (harg3 : arg3.IsWhole)
    (x0 : Vec F S1024x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this call on core `c`: the arrays as the call finds them; after the body each operand's buffer at
    its block, the output's at `out0_2` of the two blocks; nothing owed, full shares, the class's plain invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KAttn.lean ====
/-
  The second call of the printed program, as one pure function of its eight operand blocks: what the body stores
  into its 1024 x 512 output block.  A grid point holds two key/value heads (the two 64-column halves of the key and
  value blocks) and the eight query heads that read them (the eight 64-column slices of the query block); every head
  is normalised, rotated, scored against its key head, masked, soft-maxed and applied to its value head, and the eight
  results are laid side by side.  The function below composes the body's named payloads in the order the body does.
-/
import proofs.«411685_j48395691491520_3_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The rectangles the body loads through: the eight 64-column slices of the query block, the two halves of the key
    and value blocks, and the whole small operands. -/
abbrev rq0 : Rect S1024x512 := Rect.unit (s := S1024x512) ![0, 0] S1024x64.size inb_S1024x512_S1024x64_0_0
abbrev rq1 : Rect S1024x512 := Rect.unit (s := S1024x512) ![0, 64] S1024x64.size inb_S1024x512_S1024x64_0_64
abbrev rq2 : Rect S1024x512 := Rect.unit (s := S1024x512) ![0, 128] S1024x64.size inb_S1024x512_S1024x64_0_128
abbrev rq3 : Rect S1024x512 := Rect.unit (s := S1024x512) ![0, 192] S1024x64.size inb_S1024x512_S1024x64_0_192
abbrev rq4 : Rect S1024x512 := Rect.unit (s := S1024x512) ![0, 256] S1024x64.size inb_S1024x512_S1024x64_0_256
abbrev rq5 : Rect S1024x512 := Rect.unit (s := S1024x512) ![0, 320] S1024x64.size inb_S1024x512_S1024x64_0_320
abbrev rq6 : Rect S1024x512 := Rect.unit (s := S1024x512) ![0, 384] S1024x64.size inb_S1024x512_S1024x64_0_384
abbrev rq7 : Rect S1024x512 := Rect.unit (s := S1024x512) ![0, 448] S1024x64.size inb_S1024x512_S1024x64_0_448
abbrev rk0 : Rect S1024x128 := Rect.unit (s := S1024x128) ![0, 0] S1024x64.size inb_S1024x128_S1024x64_0_0
abbrev rk1 : Rect S1024x128 := Rect.unit (s := S1024x128) ![0, 64] S1024x64.size inb_S1024x128_S1024x64_0_64
abbrev rcs : Rect S1024x64 := Rect.unit (s := S1024x64) ![0, 0] S1024x64.size inb_S1024x64_S1024x64_0_0
abbrev rmk : Rect S1024x1024 := Rect.unit (s := S1024x1024) ![0, 0] S1024x1024.size inb_S1024x1024_S1024x1024_0_0
abbrev rw : Rect S1x64 := Rect.unit (s := S1x64) ![0, 0] S1x64.size inb_S1x64_S1x64_0_0
abbrev ro : Rect S1024x512 := Rect.unit (s := S1024x512) ![0, 0] S1024x512.size inb_S1024x512_S1024x512_0_0

/-- The stored value, from the operand buffers' contents: `x0` the query block, `x1` / `x2` the key / value blocks,
    `x3` / `x4` the cos / sin tables, `x5` the mask as words, `x6` / `x7` the query / key norm weights. -/
def blockOut (x0 : Vec F S1024x512 .f32) (x1 x2 : Vec F S1024x128 .f32) (x3 x4 : Vec F S1024x64 .f32)
    (x5 : Vec F S1024x1024 .i32) (x6 x7 : Vec F S1x64 .f32) : FVec F S1024x512 .f32 :=
  have v0 : Vec F S1024x64 .f32 := View.ld x3 rcs
  have v1 : Vec F S1024x64 .f32 := View.ld x4 rcs
  have v2 : Vec F S1024x1024 .i32 := View.ld x5 rmk
  have v4 : Vec F S1x64 .f32 := View.ld x6 rw
  have v6 : Vec F S1x64 .f32 := View.ld x7 rw
  have v14 : Vec F S1024x64 .f32 := View.ld x1 rk0
  have v16 : Vec F S1024x64 .f32 := View.ld x2 rk0
  have v3 := k1_pay2 v2
  have v5 := k1_pay3 v4
  have v7 := k1_pay4 v6
  have v13 : FVec F S1x64 .f32 := k1_pay5 (F := F)
  have v17 := k1_pay6 v16
  have v36 := k1_pay7 v0 v1 v6 v14
  have v38 : Vec F S1024x64 .f32 := View.ld x0 rq0
  have v75 : Vec F S1024x64 .f32 := View.ld x0 rq1
  have v37 := k1_pay8 v17
  have v74 := k1_pay9 v0 v1 v3 v5 v13 v17 v36 v38
  have v76 := k1_pay10 v75
  have v79 := k1_pay11 v75
  have v80 : FVec F S1024x1 .f32 := k1_pay12 (F := F)
  have v112 : Vec F S1024x64 .f32 := View.ld x0 rq2
  have v111 := k1_pay13 v0 v1 v3 v5 v13 v36 v37 v76 v79 v80
  have v125 := k1_pay14 v5 v112
  have v126 := k1_pay15 v5 v112
  have v149 : Vec F S1024x64 .f32 := View.ld x0 rq3
  have v148 := k1_pay16 v0 v1 v3 v13 v36 v37 v125 v126
  have v172 := k1_pay17 v0 v1 v5 v13 v36 v149
  have v187 : Vec F S1024x64 .f32 := View.ld x1 rk1
  have v189 : Vec F S1024x64 .f32 := View.ld x2 rk1
  have v211 : Vec F S1024x64 .f32 := View.ld x0 rq4
  have v186 := k1_pay18 v3 v37 v74 v111 v148 v172
  have v209 := k1_pay19 v0 v1 v7 v13 v187
  have v210 := k1_pay20 v189
  have v212 := k1_pay21 v211
  have v215 := k1_pay22 v211
  have v216 : FVec F S1024x1 .f32 := k1_pay23 (F := F)
  have v248 : Vec F S1024x64 .f32 := View.ld x0 rq5
  have v247 := k1_pay24 v0 v1 v3 v5 v13 v209 v210 v212 v215 v216
  have v261 := k1_pay25 v5 v248
  have v262 := k1_pay26 v5 v248
  have v285 : Vec F S1024x64 .f32 := View.ld x0 rq6
  have v284 := k1_pay27 v0 v1 v3 v13 v209 v210 v261 v262
  have v308 := k1_pay28 v0 v1 v5 v13 v209 v285
  have v322 : Vec F S1024x64 .f32 := View.ld x0 rq7
  have v321 := k1_pay29 v3 v210 v308
  have v352 := k1_pay30 v0 v1 v3 v5 v13 v209 v322
  have v353 := k1_pay31 v0 v1 v3 v5 v13 v209 v322
  k1_pay1 v186 v210 v247 v284 v321 v352 v353

end Cert.Kernel.Hand

end
-- ==== Proof.KReg1.lean ====
/-
  The second call of the printed program: one grid point per pair of key/value heads.  What the body leaves in its
  output buffer (the eight heads of the pair side by side, `blockOut` of the eight operand blocks), the body's triple
  through its eight printed parts, and the pipeline's obligation, at any float instance.
-/
import proofs.«411685_j48395691491520_3_alg».proof.Proof.Gen.Kernel.Launch
import proofs.«411685_j48395691491520_3_alg».proof.Proof.Gen.Kernel.Skeleton
import proofs.«411685_j48395691491520_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411685_j48395691491520_3_alg».proof.Proof.KAttn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0's buffer holds its block at every point, fetched there or not (an unfetched block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand 1's buffer holds its block at every point, fetched there or not (an unfetched block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand 2's buffer holds its block at every point, fetched there or not (an unfetched block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand 3's buffer holds its block at every point, fetched there or not (an unfetched block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand 4's buffer holds its block at every point, fetched there or not (an unfetched block's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand 5's buffer holds its block at every point, fetched there or not (an unfetched block's index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Operand 6's buffer holds its block at every point, fetched there or not (an unfetched block's index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Operand 7's buffer holds its block at every point, fetched there or not (an unfetched block's index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output buffer: its one store. -/
def out1_8 (x0 : Vec F S1024x512 .f32) (x1 : Vec F S1024x128 .f32) (x2 : Vec F S1024x128 .f32) (x3 : Vec F S1024x64 .f32) (x4 : Vec F S1024x64 .f32) (x5 : Vec F S1024x1024 .i32) (x6 : Vec F S1x64 .f32) (x7 : Vec F S1x64 .f32) : Vec F S1024x512 .f32 :=
  View.canon [⟨ro, blockOut x0 x1 x2 x3 x4 x5 x6 x7⟩]

/-- The one store covers the buffer. -/
theorem cover1_8 (p0 : Vec F S1024x512 .f32) (y : S1024x512.Idx) :
    ∃ pc ∈ ([⟨ro, p0⟩] : List (View.Piece (Elt F) S1024x512 .f32)), y ∈ pc.1.set :=
  View.cover_of_tiled [⟨ro, p0⟩] S1024x512.size (by rfl) y

set_option maxHeartbeats 4000000 in
/-- The body on whole buffers: the eight operands' buffers are read and left as they were, the output's ends at `out1_8`. -/
theorem sound_kernel1 (c : Dev nD) (E : Set ℕ) (i : grid1.Coords) (arg1 : Memref sig .tc .vmem S1024x512 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1024 .i32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x512 .f32) (harg9 : arg9.IsWhole)
    (x0 : Vec F S1024x512 .f32) (x1 : Vec F S1024x128 .f32) (x2 : Vec F S1024x128 .f32) (x3 : Vec F S1024x64 .f32) (x4 : Vec F S1024x64 .f32) (x5 : Vec F S1024x1024 .i32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- The proof data of this call on core `c`: the arrays as the call finds them; after the body each operand's buffer at
    its block, the output's at `out1_8` of the eight blocks; nothing owed, full shares, the class's plain invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the operands' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The third call of the printed program: the output projection, 1024 x 2048 times the transpose of a 512-row block of the output weights, one block of output columns per grid point. What the body leaves, its triple and the pipeline's obligation, at any float instance.
-/
import proofs.«411685_j48395691491520_3_alg».proof.Proof.Gen.Kernel.Launch
import proofs.«411685_j48395691491520_3_alg».proof.Proof.Gen.Kernel.Skeleton
import proofs.«411685_j48395691491520_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's buffer holds its block at every point: it is fetched at the first point only, and its block
    index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's buffer holds the point's block of rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-buffer rectangles the body reads and writes through. -/
abbrev r2_0 : Rect S1024x2048 := Rect.unit (s := S1024x2048) ![0, 0] S1024x2048.size inb_S1024x2048_S1024x2048_0_0
abbrev r2_1 : Rect S512x2048 := Rect.unit (s := S512x2048) ![0, 0] S512x2048.size inb_S512x2048_S512x2048_0_0
abbrev r2_2 : Rect S1024x512 := Rect.unit (s := S1024x512) ![0, 0] S1024x512.size inb_S1024x512_S1024x512_0_0

/-- What the body leaves in the output buffer: its one store, the product of the two operand blocks. -/
def out2_2 (x0 : Vec F S1024x2048 .f32) (x1 : Vec F S512x2048 .f32) : Vec F S1024x512 .f32 :=
  View.canon [⟨r2_2, k2_pay1 (View.ld x0 r2_0) (View.ld x1 r2_1)⟩]

/-- The one store covers the buffer. -/
theorem cover2_2 (p0 : Vec F S1024x512 .f32) (y : S1024x512.Idx) :
    ∃ pc ∈ ([⟨r2_2, p0⟩] : List (View.Piece (Elt F) S1024x512 .f32)), y ∈ pc.1.set :=
  View.cover_of_tiled [⟨r2_2, p0⟩] S1024x512.size (by rfl) y

set_option maxHeartbeats 1000000 in
/-- The body on whole buffers: the operands' buffers are read and left as they were, the output's ends at `out2_2`. -/
theorem sound_kernel2 (c : Dev nD) (E : Set ℕ) (i : grid2.Coords) (arg1 : Memref sig .tc .vmem S1024x2048 .f32) (harg1 : arg1.IsWhole) (arg2 : Memref sig .tc .vmem S512x2048 .f32) (harg2 : arg2.IsWhole) (arg3 : Memref sig .tc .vmem S1024x512 .f32) (harg3 : arg3.IsWhole)
    (x0 : Vec F S1024x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this call on core `c`: the arrays as the call finds them; after the body each operand's buffer at
    its block, the output's at `out2_2` of the two blocks; nothing owed, full shares, the class's plain invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the printed program: a host stretch (the weights stacked), the fused projection, a host stretch (the
  three slices, the two weight reshapes, the mask widened), the attention call, the output projection.  The buffer
  contents at each boundary are a fold from the launch memory; each call is entered with every unscoped buffer at the
  boundary's contents and left with its output array at what its write-backs leave.  Every weakly fair execution
  terminates with every unscoped buffer at the last boundary's contents: the arguments as launched, the result array at
  the last call's write-backs.
-/
import proofs.«411685_j48395691491520_3_alg».proof.Proof.KReg0
import proofs.«411685_j48395691491520_3_alg».proof.Proof.KReg1
import proofs.«411685_j48395691491520_3_alg».proof.Proof.KReg2
import proofs.«411685_j48395691491520_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the first host stretch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After call 0: its arrays at what the pipeline leaves (the operands as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An operand array of call 0 is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After call 1: its arrays at what the pipeline leaves (the operands as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An operand array of call 1 is left as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After call 2: its arrays at what the pipeline leaves (the operands as entered, the output's write-backs folded), every
    other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An operand array of call 2 is left as entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! The arguments end as launched: no host operation writes one, and a call leaves its operands as entered. -/

theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (StableHlo.after_of_writes_sub hostOps1 _ hostOps1_writes (r := main_arg0) (by decide)).trans <|
    (W2_in m ρ c 0 rfl).trans <| (StableHlo.after_of_writes_sub hostOps0 _ hostOps0_writes (r := main_arg0) (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (StableHlo.after_of_writes_sub hostOps1 _ hostOps1_writes (r := main_arg1) (by decide)).trans <|
    (W2_of_ne m ρ c main_arg1 (by decide)).trans <| (StableHlo.after_of_writes_sub hostOps0 _ hostOps0_writes (r := main_arg1) (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (StableHlo.after_of_writes_sub hostOps1 _ hostOps1_writes (r := main_arg2) (by decide)).trans <|
    (W2_of_ne m ρ c main_arg2 (by decide)).trans <| (StableHlo.after_of_writes_sub hostOps0 _ hostOps0_writes (r := main_arg2) (by decide)).trans rfl
theorem W5_main_arg3 (c : Dev nD) : W5 m ρ c (Proc.devRef .tc main_arg3) = m ((c : Thread nD τ).loc main_arg3) :=
  (W5_of_ne m ρ c main_arg3 (by decide)).trans <| (W4_in m ρ c 3 rfl).trans <| (StableHlo.after_of_writes_sub hostOps1 _ hostOps1_writes (r := main_arg3) (by decide)).trans <|
    (W2_of_ne m ρ c main_arg3 (by decide)).trans <| (StableHlo.after_of_writes_sub hostOps0 _ hostOps0_writes (r := main_arg3) (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (StableHlo.after_of_writes_sub hostOps1 _ hostOps1_writes (r := main_arg4) (by decide)).trans <|
    (W2_of_ne m ρ c main_arg4 (by decide)).trans <| (StableHlo.after_of_writes_sub hostOps0 _ hostOps0_writes (r := main_arg4) (by decide)).trans rfl
theorem W5_main_arg5 (c : Dev nD) : W5 m ρ c (Proc.devRef .tc main_arg5) = m ((c : Thread nD τ).loc main_arg5) :=
  (W5_of_ne m ρ c main_arg5 (by decide)).trans <| (W4_in m ρ c 4 rfl).trans <| (StableHlo.after_of_writes_sub hostOps1 _ hostOps1_writes (r := main_arg5) (by decide)).trans <|
    (W2_of_ne m ρ c main_arg5 (by decide)).trans <| (StableHlo.after_of_writes_sub hostOps0 _ hostOps0_writes (r := main_arg5) (by decide)).trans rfl
theorem W5_main_arg6 (c : Dev nD) : W5 m ρ c (Proc.devRef .tc main_arg6) = m ((c : Thread nD τ).loc main_arg6) :=
  (W5_of_ne m ρ c main_arg6 (by decide)).trans <| (W4_of_ne m ρ c main_arg6 (by decide)).trans <| (StableHlo.after_of_writes_sub hostOps1 _ hostOps1_writes (r := main_arg6) (by decide)).trans <|
    (W2_of_ne m ρ c main_arg6 (by decide)).trans <| (StableHlo.after_of_writes_sub hostOps0 _ hostOps0_writes (r := main_arg6) (by decide)).trans rfl
theorem W5_main_arg7 (c : Dev nD) : W5 m ρ c (Proc.devRef .tc main_arg7) = m ((c : Thread nD τ).loc main_arg7) :=
  (W5_of_ne m ρ c main_arg7 (by decide)).trans <| (W4_of_ne m ρ c main_arg7 (by decide)).trans <| (StableHlo.after_of_writes_sub hostOps1 _ hostOps1_writes (r := main_arg7) (by decide)).trans <|
    (W2_of_ne m ρ c main_arg7 (by decide)).trans <| (StableHlo.after_of_writes_sub hostOps0 _ hostOps0_writes (r := main_arg7) (by decide)).trans rfl
theorem W5_main_arg8 (c : Dev nD) : W5 m ρ c (Proc.devRef .tc main_arg8) = m ((c : Thread nD τ).loc main_arg8) :=
  (W5_of_ne m ρ c main_arg8 (by decide)).trans <| (W4_of_ne m ρ c main_arg8 (by decide)).trans <| (StableHlo.after_of_writes_sub hostOps1 _ hostOps1_writes (r := main_arg8) (by decide)).trans <|
    (W2_of_ne m ρ c main_arg8 (by decide)).trans <| (StableHlo.after_of_writes_sub hostOps0 _ hostOps0_writes (r := main_arg8) (by decide)).trans rfl
theorem W5_main_arg9 (c : Dev nD) : W5 m ρ c (Proc.devRef .tc main_arg9) = m ((c : Thread nD τ).loc main_arg9) :=
  (W5_of_ne m ρ c main_arg9 (by decide)).trans <| (W4_of_ne m ρ c main_arg9 (by decide)).trans <| (StableHlo.after_of_writes_sub hostOps1 _ hostOps1_writes (r := main_arg9) (by decide)).trans <|
    (W2_of_ne m ρ c main_arg9 (by decide)).trans <| (StableHlo.after_of_writes_sub hostOps0 _ hostOps0_writes (r := main_arg9) (by decide)).trans rfl
theorem W5_main_arg10 (c : Dev nD) : W5 m ρ c (Proc.devRef .tc main_arg10) = m ((c : Thread nD τ).loc main_arg10) :=
  (W5_in m ρ c 1 rfl).trans <| (W4_of_ne m ρ c main_arg10 (by decide)).trans <| (StableHlo.after_of_writes_sub hostOps1 _ hostOps1_writes (r := main_arg10) (by decide)).trans <|
    (W2_of_ne m ρ c main_arg10 (by decide)).trans <| (StableHlo.after_of_writes_sub hostOps0 _ hostOps0_writes (r := main_arg10) (by decide)).trans rfl
theorem W5_main_arg11 (c : Dev nD) : W5 m ρ c (Proc.devRef .tc main_arg11) = m ((c : Thread nD τ).loc main_arg11) :=
  (W5_of_ne m ρ c main_arg11 (by decide)).trans <| (W4_of_ne m ρ c main_arg11 (by decide)).trans <| (StableHlo.after_of_writes_sub hostOps1 _ hostOps1_writes (r := main_arg11) (by decide)).trans <|
    (W2_of_ne m ρ c main_arg11 (by decide)).trans <| (StableHlo.after_of_writes_sub hostOps0 _ hostOps0_writes (r := main_arg11) (by decide)).trans rfl
theorem W5_main_arg12 (c : Dev nD) : W5 m ρ c (Proc.devRef .tc main_arg12) = m ((c : Thread nD τ).loc main_arg12) :=
  (W5_of_ne m ρ c main_arg12 (by decide)).trans <| (W4_of_ne m ρ c main_arg12 (by decide)).trans <| (StableHlo.after_of_writes_sub hostOps1 _ hostOps1_writes (r := main_arg12) (by decide)).trans <|
    (W2_of_ne m ρ c main_arg12 (by decide)).trans <| (StableHlo.after_of_writes_sub hostOps0 _ hostOps0_writes (r := main_arg12) (by decide)).trans rfl

/-- The prefetched tables' admissible contents: no call has a table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Call 0 over the thread state: entered with every unscoped buffer at `W1`, left at `W2`. Its arrays are split out
    of the unscoped buffers and put back at what the write-backs leave; the generator register goes into the plain
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left at `W4`. Its arrays are split out
    of the unscoped buffers and put back at what the write-backs leave; the generator register goes into the plain
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W4`, left at `W5`. Its arrays are split out
    of the unscoped buffers and put back at what the write-backs leave; the generator register goes into the plain
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

/-- The result array ends at what the last call's write-backs leave, the arguments as launched. -/
theorem run_value : θ_run defs (onTc (τ := τ) (main (F := F))) ⟨m, fun _ => 0, ρ⟩ (fun r => ∀ c : Dev nD,
      r.2.mem ((c.tc : Thread nD τ).loc main_v9) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v9 (by decide))).trans (W5_arr m ρ c 2),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

end Cert.Kernel.Hand

end
-- ==== Proof.IReg0.lean ====
/-
  The first call of the idealized program: the fused projection, 1024 x 2048 times the transpose of a 256-row block of the stacked weights, one block of output columns per grid point. What the body leaves, its triple and the pipeline's obligation, at any float instance.
-/
import proofs.«411685_j48395691491520_3_alg».proof.Proof.Gen.KernelIdeal.Launch
import proofs.«411685_j48395691491520_3_alg».proof.Proof.Gen.KernelIdeal.Skeleton
import proofs.«411685_j48395691491520_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's buffer holds its block at every point: it is fetched at the first point only, and its block
    index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's buffer holds the point's block of rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S1024x2048 := Rect.unit (s := S1024x2048) ![0, 0] S1024x2048.size inb_S1024x2048_S1024x2048_0_0
abbrev r0_1 : Rect S256x2048 := Rect.unit (s := S256x2048) ![0, 0] S256x2048.size inb_S256x2048_S256x2048_0_0
abbrev r0_2 : Rect S1024x256 := Rect.unit (s := S1024x256) ![0, 0] S1024x256.size inb_S1024x256_S1024x256_0_0

/-- What the body leaves in the output buffer: its one store, the product of the two operand blocks. -/
def out0_2 (x0 : Vec F S1024x2048 .f32) (x1 : Vec F S256x2048 .f32) : Vec F S1024x256 .f32 :=
  View.canon [⟨r0_2, k0_pay1 (View.ld x0 r0_0) (View.ld x1 r0_1)⟩]

/-- The one store covers the buffer. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

set_option maxHeartbeats 1000000 in
/-- The body on whole buffers: the operands' buffers are read and left as they were, the output's ends at `out0_2`. -/
theorem sound_kernel0 (c : Dev nD) (E : Set ℕ) (i : grid0.Coords) (arg1 : Memref sig .tc .vmem S1024x2048 .f32) (harg1 : arg1.IsWhole) (arg2 : Memref sig .tc .vmem S256x2048 .f32) (harg2 : arg2.IsWhole) (arg3 : Memref sig .tc .vmem S1024x256 .f32) (harg3 : arg3.IsWhole)
    (x0 : Vec F S1024x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this call on core `c`: the arrays as the call finds them; after the body each operand's buffer at
    its block, the output's at `out0_2` of the two blocks; nothing owed, full shares, the class's plain invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IAttn.lean ====
/-
  The second call of the idealized program, as one pure function of its eight operand blocks: what the body stores
  into its 1024 x 512 output block.  A grid point holds two key/value heads (the two 64-column halves of the key and
  value blocks) and the eight query heads that read them (the eight 64-column slices of the query block); every head
  is normalised, rotated, scored against its key head, masked, soft-maxed and applied to its value head, and the eight
  results are laid side by side.  The function below composes the body's named payloads in the order the body does.
-/
import proofs.«411685_j48395691491520_3_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The rectangles the body loads through: the eight 64-column slices of the query block, the two halves of the key
    and value blocks, and the whole small operands. -/
abbrev rq0 : Rect S1024x512 := Rect.unit (s := S1024x512) ![0, 0] S1024x64.size inb_S1024x512_S1024x64_0_0
abbrev rq1 : Rect S1024x512 := Rect.unit (s := S1024x512) ![0, 64] S1024x64.size inb_S1024x512_S1024x64_0_64
abbrev rq2 : Rect S1024x512 := Rect.unit (s := S1024x512) ![0, 128] S1024x64.size inb_S1024x512_S1024x64_0_128
abbrev rq3 : Rect S1024x512 := Rect.unit (s := S1024x512) ![0, 192] S1024x64.size inb_S1024x512_S1024x64_0_192
abbrev rq4 : Rect S1024x512 := Rect.unit (s := S1024x512) ![0, 256] S1024x64.size inb_S1024x512_S1024x64_0_256
abbrev rq5 : Rect S1024x512 := Rect.unit (s := S1024x512) ![0, 320] S1024x64.size inb_S1024x512_S1024x64_0_320
abbrev rq6 : Rect S1024x512 := Rect.unit (s := S1024x512) ![0, 384] S1024x64.size inb_S1024x512_S1024x64_0_384
abbrev rq7 : Rect S1024x512 := Rect.unit (s := S1024x512) ![0, 448] S1024x64.size inb_S1024x512_S1024x64_0_448
abbrev rk0 : Rect S1024x128 := Rect.unit (s := S1024x128) ![0, 0] S1024x64.size inb_S1024x128_S1024x64_0_0
abbrev rk1 : Rect S1024x128 := Rect.unit (s := S1024x128) ![0, 64] S1024x64.size inb_S1024x128_S1024x64_0_64
abbrev rcs : Rect S1024x64 := Rect.unit (s := S1024x64) ![0, 0] S1024x64.size inb_S1024x64_S1024x64_0_0
abbrev rmk : Rect S1024x1024 := Rect.unit (s := S1024x1024) ![0, 0] S1024x1024.size inb_S1024x1024_S1024x1024_0_0
abbrev rw : Rect S1x64 := Rect.unit (s := S1x64) ![0, 0] S1x64.size inb_S1x64_S1x64_0_0
abbrev ro : Rect S1024x512 := Rect.unit (s := S1024x512) ![0, 0] S1024x512.size inb_S1024x512_S1024x512_0_0

/-- The stored value, from the operand buffers' contents: `x0` the query block, `x1` / `x2` the key / value blocks,
    `x3` / `x4` the cos / sin tables, `x5` the mask as words, `x6` / `x7` the query / key norm weights. -/
def blockOut (x0 : Vec F S1024x512 .f32) (x1 x2 : Vec F S1024x128 .f32) (x3 x4 : Vec F S1024x64 .f32)
    (x5 : Vec F S1024x1024 .i32) (x6 x7 : Vec F S1x64 .f32) : FVec F S1024x512 .f32 :=
  have v0 : Vec F S1024x64 .f32 := View.ld x3 rcs
  have v1 : Vec F S1024x64 .f32 := View.ld x4 rcs
  have v2 : Vec F S1024x1024 .i32 := View.ld x5 rmk
  have v4 : Vec F S1x64 .f32 := View.ld x6 rw
  have v6 : Vec F S1x64 .f32 := View.ld x7 rw
  have v14 : Vec F S1024x64 .f32 := View.ld x1 rk0
  have v16 : Vec F S1024x64 .f32 := View.ld x2 rk0
  have v3 := k1_pay2 v2
  have v5 := k1_pay3 v4
  have v7 := k1_pay4 v6
  have v13 : FVec F S1x64 .f32 := k1_pay5 (F := F)
  have v17 := k1_pay6 v16
  have v36 := k1_pay7 v0 v1 v6 v14
  have v38 : Vec F S1024x64 .f32 := View.ld x0 rq0
  have v75 : Vec F S1024x64 .f32 := View.ld x0 rq1
  have v37 := k1_pay8 v17
  have v74 := k1_pay9 v0 v1 v3 v5 v13 v17 v36 v38
  have v76 := k1_pay10 v75
  have v79 := k1_pay11 v75
  have v80 : FVec F S1024x1 .f32 := k1_pay12 (F := F)
  have v112 : Vec F S1024x64 .f32 := View.ld x0 rq2
  have v111 := k1_pay13 v0 v1 v3 v5 v13 v36 v37 v76 v79 v80
  have v125 := k1_pay14 v5 v112
  have v126 := k1_pay15 v5 v112
  have v149 : Vec F S1024x64 .f32 := View.ld x0 rq3
  have v148 := k1_pay16 v0 v1 v3 v13 v36 v37 v125 v126
  have v172 := k1_pay17 v0 v1 v5 v13 v36 v149
  have v187 : Vec F S1024x64 .f32 := View.ld x1 rk1
  have v189 : Vec F S1024x64 .f32 := View.ld x2 rk1
  have v211 : Vec F S1024x64 .f32 := View.ld x0 rq4
  have v186 := k1_pay18 v3 v37 v74 v111 v148 v172
  have v209 := k1_pay19 v0 v1 v7 v13 v187
  have v210 := k1_pay20 v189
  have v212 := k1_pay21 v211
  have v215 := k1_pay22 v211
  have v216 : FVec F S1024x1 .f32 := k1_pay23 (F := F)
  have v248 : Vec F S1024x64 .f32 := View.ld x0 rq5
  have v247 := k1_pay24 v0 v1 v3 v5 v13 v209 v210 v212 v215 v216
  have v261 := k1_pay25 v5 v248
  have v262 := k1_pay26 v5 v248
  have v285 : Vec F S1024x64 .f32 := View.ld x0 rq6
  have v284 := k1_pay27 v0 v1 v3 v13 v209 v210 v261 v262
  have v308 := k1_pay28 v0 v1 v5 v13 v209 v285
  have v322 : Vec F S1024x64 .f32 := View.ld x0 rq7
  have v321 := k1_pay29 v3 v210 v308
  have v352 := k1_pay30 v0 v1 v3 v5 v13 v209 v322
  have v353 := k1_pay31 v0 v1 v3 v5 v13 v209 v322
  k1_pay1 v186 v210 v247 v284 v321 v352 v353

end Cert.KernelIdeal.Hand

end
-- ==== Proof.IReg1.lean ====
/-
  The second call of the idealized program: one grid point per pair of key/value heads.  What the body leaves in its
  output buffer (the eight heads of the pair side by side, `blockOut` of the eight operand blocks), the body's triple
  through its eight printed parts, and the pipeline's obligation, at any float instance.
-/
import proofs.«411685_j48395691491520_3_alg».proof.Proof.Gen.KernelIdeal.Launch
import proofs.«411685_j48395691491520_3_alg».proof.Proof.Gen.KernelIdeal.Skeleton
import proofs.«411685_j48395691491520_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411685_j48395691491520_3_alg».proof.Proof.IAttn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0's buffer holds its block at every point, fetched there or not (an unfetched block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand 1's buffer holds its block at every point, fetched there or not (an unfetched block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand 2's buffer holds its block at every point, fetched there or not (an unfetched block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand 3's buffer holds its block at every point, fetched there or not (an unfetched block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand 4's buffer holds its block at every point, fetched there or not (an unfetched block's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand 5's buffer holds its block at every point, fetched there or not (an unfetched block's index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Operand 6's buffer holds its block at every point, fetched there or not (an unfetched block's index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Operand 7's buffer holds its block at every point, fetched there or not (an unfetched block's index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output buffer: its one store. -/
def out1_8 (x0 : Vec F S1024x512 .f32) (x1 : Vec F S1024x128 .f32) (x2 : Vec F S1024x128 .f32) (x3 : Vec F S1024x64 .f32) (x4 : Vec F S1024x64 .f32) (x5 : Vec F S1024x1024 .i32) (x6 : Vec F S1x64 .f32) (x7 : Vec F S1x64 .f32) : Vec F S1024x512 .f32 :=
  View.canon [⟨ro, blockOut x0 x1 x2 x3 x4 x5 x6 x7⟩]

/-- The one store covers the buffer. -/
theorem cover1_8 (p0 : Vec F S1024x512 .f32) (y : S1024x512.Idx) :
    ∃ pc ∈ ([⟨ro, p0⟩] : List (View.Piece (Elt F) S1024x512 .f32)), y ∈ pc.1.set :=
  View.cover_of_tiled [⟨ro, p0⟩] S1024x512.size (by rfl) y

set_option maxHeartbeats 4000000 in
/-- The body on whole buffers: the eight operands' buffers are read and left as they were, the output's ends at `out1_8`. -/
theorem sound_kernel1 (c : Dev nD) (E : Set ℕ) (i : grid1.Coords) (arg1 : Memref sig .tc .vmem S1024x512 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x1024 .i32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x512 .f32) (harg9 : arg9.IsWhole)
    (x0 : Vec F S1024x512 .f32) (x1 : Vec F S1024x128 .f32) (x2 : Vec F S1024x128 .f32) (x3 : Vec F S1024x64 .f32) (x4 : Vec F S1024x64 .f32) (x5 : Vec F S1024x1024 .i32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  simp only [cc1_kernel_eq_skeleton]; unfold cc1_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- The proof data of this call on core `c`: the arrays as the call finds them; after the body each operand's buffer at
    its block, the output's at `out1_8` of the eight blocks; nothing owed, full shares, the class's plain invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the operands' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IReg2.lean ====
/-
  The third call of the idealized program: the output projection, 1024 x 2048 times the transpose of a 512-row block of the output weights, one block of output columns per grid point. What the body leaves, its triple and the pipeline's obligation, at any float instance.
-/
import proofs.«411685_j48395691491520_3_alg».proof.Proof.Gen.KernelIdeal.Launch
import proofs.«411685_j48395691491520_3_alg».proof.Proof.Gen.KernelIdeal.Skeleton
import proofs.«411685_j48395691491520_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter, fixed by the run
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's buffer holds its block at every point: it is fetched at the first point only, and its block
    index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's buffer holds the point's block of rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-buffer rectangles the body reads and writes through. -/
abbrev r2_0 : Rect S1024x2048 := Rect.unit (s := S1024x2048) ![0, 0] S1024x2048.size inb_S1024x2048_S1024x2048_0_0
abbrev r2_1 : Rect S512x2048 := Rect.unit (s := S512x2048) ![0, 0] S512x2048.size inb_S512x2048_S512x2048_0_0
abbrev r2_2 : Rect S1024x512 := Rect.unit (s := S1024x512) ![0, 0] S1024x512.size inb_S1024x512_S1024x512_0_0

/-- What the body leaves in the output buffer: its one store, the product of the two operand blocks. -/
def out2_2 (x0 : Vec F S1024x2048 .f32) (x1 : Vec F S512x2048 .f32) : Vec F S1024x512 .f32 :=
  View.canon [⟨r2_2, k2_pay1 (View.ld x0 r2_0) (View.ld x1 r2_1)⟩]

/-- The one store covers the buffer. -/
theorem cover2_2 (p0 : Vec F S1024x512 .f32) (y : S1024x512.Idx) :
    ∃ pc ∈ ([⟨r2_2, p0⟩] : List (View.Piece (Elt F) S1024x512 .f32)), y ∈ pc.1.set :=
  View.cover_of_tiled [⟨r2_2, p0⟩] S1024x512.size (by rfl) y

set_option maxHeartbeats 1000000 in
/-- The body on whole buffers: the operands' buffers are read and left as they were, the output's ends at `out2_2`. -/
theorem sound_kernel2 (c : Dev nD) (E : Set ℕ) (i : grid2.Coords) (arg1 : Memref sig .tc .vmem S1024x2048 .f32) (harg1 : arg1.IsWhole) (arg2 : Memref sig .tc .vmem S512x2048 .f32) (harg2 : arg2.IsWhole) (arg3 : Memref sig .tc .vmem S1024x512 .f32) (harg3 : arg3.IsWhole)
    (x0 : Vec F S1024x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this call on core `c`: the arrays as the call finds them; after the body each operand's buffer at
    its block, the output's at `out2_2` of the two blocks; nothing owed, full shares, the class's plain invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IRun.lean ====
/-
  The run of the idealized program: a host stretch (the weights stacked), the fused projection, a host stretch (the
  three slices, the two weight reshapes, the mask widened), the attention call, the output projection.  The buffer
  contents at each boundary are a fold from the launch memory; each call is entered with every unscoped buffer at the
  boundary's contents and left with its output array at what its write-backs leave.  Every weakly fair execution
  terminates with every unscoped buffer at the last boundary's contents: the arguments as launched, the result array at
  the last call's write-backs.
-/
import proofs.«411685_j48395691491520_3_alg».proof.Proof.IReg0
import proofs.«411685_j48395691491520_3_alg».proof.Proof.IReg1
import proofs.«411685_j48395691491520_3_alg».proof.Proof.IReg2
import proofs.«411685_j48395691491520_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the first host stretch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After call 0: its arrays at what the pipeline leaves (the operands as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An operand array of call 0 is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After call 1: its arrays at what the pipeline leaves (the operands as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An operand array of call 1 is left as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After call 2: its arrays at what the pipeline leaves (the operands as entered, the output's write-backs folded), every
    other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An operand array of call 2 is left as entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! The arguments end as launched: no host operation writes one, and a call leaves its operands as entered. -/

theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (StableHlo.after_of_writes_sub hostOps1 _ hostOps1_writes (r := main_arg0) (by decide)).trans <|
    (W2_in m ρ c 0 rfl).trans <| (StableHlo.after_of_writes_sub hostOps0 _ hostOps0_writes (r := main_arg0) (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (StableHlo.after_of_writes_sub hostOps1 _ hostOps1_writes (r := main_arg1) (by decide)).trans <|
    (W2_of_ne m ρ c main_arg1 (by decide)).trans <| (StableHlo.after_of_writes_sub hostOps0 _ hostOps0_writes (r := main_arg1) (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (StableHlo.after_of_writes_sub hostOps1 _ hostOps1_writes (r := main_arg2) (by decide)).trans <|
    (W2_of_ne m ρ c main_arg2 (by decide)).trans <| (StableHlo.after_of_writes_sub hostOps0 _ hostOps0_writes (r := main_arg2) (by decide)).trans rfl
theorem W5_main_arg3 (c : Dev nD) : W5 m ρ c (Proc.devRef .tc main_arg3) = m ((c : Thread nD τ).loc main_arg3) :=
  (W5_of_ne m ρ c main_arg3 (by decide)).trans <| (W4_in m ρ c 3 rfl).trans <| (StableHlo.after_of_writes_sub hostOps1 _ hostOps1_writes (r := main_arg3) (by decide)).trans <|
    (W2_of_ne m ρ c main_arg3 (by decide)).trans <| (StableHlo.after_of_writes_sub hostOps0 _ hostOps0_writes (r := main_arg3) (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (StableHlo.after_of_writes_sub hostOps1 _ hostOps1_writes (r := main_arg4) (by decide)).trans <|
    (W2_of_ne m ρ c main_arg4 (by decide)).trans <| (StableHlo.after_of_writes_sub hostOps0 _ hostOps0_writes (r := main_arg4) (by decide)).trans rfl
theorem W5_main_arg5 (c : Dev nD) : W5 m ρ c (Proc.devRef .tc main_arg5) = m ((c : Thread nD τ).loc main_arg5) :=
  (W5_of_ne m ρ c main_arg5 (by decide)).trans <| (W4_in m ρ c 4 rfl).trans <| (StableHlo.after_of_writes_sub hostOps1 _ hostOps1_writes (r := main_arg5) (by decide)).trans <|
    (W2_of_ne m ρ c main_arg5 (by decide)).trans <| (StableHlo.after_of_writes_sub hostOps0 _ hostOps0_writes (r := main_arg5) (by decide)).trans rfl
theorem W5_main_arg6 (c : Dev nD) : W5 m ρ c (Proc.devRef .tc main_arg6) = m ((c : Thread nD τ).loc main_arg6) :=
  (W5_of_ne m ρ c main_arg6 (by decide)).trans <| (W4_of_ne m ρ c main_arg6 (by decide)).trans <| (StableHlo.after_of_writes_sub hostOps1 _ hostOps1_writes (r := main_arg6) (by decide)).trans <|
    (W2_of_ne m ρ c main_arg6 (by decide)).trans <| (StableHlo.after_of_writes_sub hostOps0 _ hostOps0_writes (r := main_arg6) (by decide)).trans rfl
theorem W5_main_arg7 (c : Dev nD) : W5 m ρ c (Proc.devRef .tc main_arg7) = m ((c : Thread nD τ).loc main_arg7) :=
  (W5_of_ne m ρ c main_arg7 (by decide)).trans <| (W4_of_ne m ρ c main_arg7 (by decide)).trans <| (StableHlo.after_of_writes_sub hostOps1 _ hostOps1_writes (r := main_arg7) (by decide)).trans <|
    (W2_of_ne m ρ c main_arg7 (by decide)).trans <| (StableHlo.after_of_writes_sub hostOps0 _ hostOps0_writes (r := main_arg7) (by decide)).trans rfl
theorem W5_main_arg8 (c : Dev nD) : W5 m ρ c (Proc.devRef .tc main_arg8) = m ((c : Thread nD τ).loc main_arg8) :=
  (W5_of_ne m ρ c main_arg8 (by decide)).trans <| (W4_of_ne m ρ c main_arg8 (by decide)).trans <| (StableHlo.after_of_writes_sub hostOps1 _ hostOps1_writes (r := main_arg8) (by decide)).trans <|
    (W2_of_ne m ρ c main_arg8 (by decide)).trans <| (StableHlo.after_of_writes_sub hostOps0 _ hostOps0_writes (r := main_arg8) (by decide)).trans rfl
theorem W5_main_arg9 (c : Dev nD) : W5 m ρ c (Proc.devRef .tc main_arg9) = m ((c : Thread nD τ).loc main_arg9) :=
  (W5_of_ne m ρ c main_arg9 (by decide)).trans <| (W4_of_ne m ρ c main_arg9 (by decide)).trans <| (StableHlo.after_of_writes_sub hostOps1 _ hostOps1_writes (r := main_arg9) (by decide)).trans <|
    (W2_of_ne m ρ c main_arg9 (by decide)).trans <| (StableHlo.after_of_writes_sub hostOps0 _ hostOps0_writes (r := main_arg9) (by decide)).trans rfl
theorem W5_main_arg10 (c : Dev nD) : W5 m ρ c (Proc.devRef .tc main_arg10) = m ((c : Thread nD τ).loc main_arg10) :=
  (W5_in m ρ c 1 rfl).trans <| (W4_of_ne m ρ c main_arg10 (by decide)).trans <| (StableHlo.after_of_writes_sub hostOps1 _ hostOps1_writes (r := main_arg10) (by decide)).trans <|
    (W2_of_ne m ρ c main_arg10 (by decide)).trans <| (StableHlo.after_of_writes_sub hostOps0 _ hostOps0_writes (r := main_arg10) (by decide)).trans rfl
theorem W5_main_arg11 (c : Dev nD) : W5 m ρ c (Proc.devRef .tc main_arg11) = m ((c : Thread nD τ).loc main_arg11) :=
  (W5_of_ne m ρ c main_arg11 (by decide)).trans <| (W4_of_ne m ρ c main_arg11 (by decide)).trans <| (StableHlo.after_of_writes_sub hostOps1 _ hostOps1_writes (r := main_arg11) (by decide)).trans <|
    (W2_of_ne m ρ c main_arg11 (by decide)).trans <| (StableHlo.after_of_writes_sub hostOps0 _ hostOps0_writes (r := main_arg11) (by decide)).trans rfl
theorem W5_main_arg12 (c : Dev nD) : W5 m ρ c (Proc.devRef .tc main_arg12) = m ((c : Thread nD τ).loc main_arg12) :=
  (W5_of_ne m ρ c main_arg12 (by decide)).trans <| (W4_of_ne m ρ c main_arg12 (by decide)).trans <| (StableHlo.after_of_writes_sub hostOps1 _ hostOps1_writes (r := main_arg12) (by decide)).trans <|
    (W2_of_ne m ρ c main_arg12 (by decide)).trans <| (StableHlo.after_of_writes_sub hostOps0 _ hostOps0_writes (r := main_arg12) (by decide)).trans rfl

/-- The prefetched tables' admissible contents: no call has a table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Call 0 over the thread state: entered with every unscoped buffer at `W1`, left at `W2`. Its arrays are split out
    of the unscoped buffers and put back at what the write-backs leave; the generator register goes into the plain
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left at `W4`. Its arrays are split out
    of the unscoped buffers and put back at what the write-backs leave; the generator register goes into the plain
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W4`, left at `W5`. Its arrays are split out
    of the unscoped buffers and put back at what the write-backs leave; the generator register goes into the plain
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

/-- The result array ends at what the last call's write-backs leave, the arguments as launched. -/
theorem run_value : θ_run defs (onTc (τ := τ) (main (F := F))) ⟨m, fun _ => 0, ρ⟩ (fun r => ∀ c : Dev nD,
      r.2.mem ((c.tc : Thread nD τ).loc main_v9) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v9 (by decide))).trans (W5_arr m ρ c 2),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

end Cert.KernelIdeal.Hand

end
-- ==== Proof.HostRead.lean ====
/-
  What the kernel's program holds in its intermediate arrays, read off the host operations between the calls: the
  stacked weights are the three weight matrices one above the other; the three projections are column ranges of the
  first call's result; the two norm weights are reshaped to one row; the mask is widened to words, and the body's test
  of a word against zero gives the mask bit back; the tables and the output weights reach their calls as launched.
-/
import proofs.«411685_j48395691491520_3_alg».proof.Proof.IRun
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx
variable (m : (ℓ : Loc nD τ sig) → Buf (Elt F) ℓ) (ρ : Dev nD → PrngReg)

/-- A buffer that no host operation of the first stretch writes and that is no array of the first call holds its launch
    contents when the second stretch runs. -/
theorem W2_launch (c : Dev nD) (r : Ref sig .tc) (h1 : ∀ w, Pipeline.arrRef spec0 w ≠ r) (h0 : r ∉ hostOps0_W) :
    W2 m ρ c (Proc.devRef .tc r) = m ((c : Thread nD τ).loc r) :=
  (W2_of_ne m ρ c r h1).trans ((StableHlo.after_of_writes_sub hostOps0 _ hostOps0_writes h0).trans rfl)

theorem V1_arg0 (c : Dev nD) : V1 m ρ c main_arg0 = m ((c : Thread nD τ).loc main_arg0) :=
  (StableHlo.after_of_writes_sub hostOps0 _ hostOps0_writes (r := main_arg0) (by decide)).trans rfl

/-- The stacked weights. -/
theorem V1_v0 (c : Dev nD) : (V1 m ρ c main_v0 : S3072x2048.Idx → Elt F .f32)
    = concatenate S3072x2048 0 [⟨S2048x2048, m ((c : Thread nD τ).loc main_arg7)⟩, ⟨S512x2048, m ((c : Thread nD τ).loc main_arg8)⟩, ⟨S512x2048, m ((c : Thread nD τ).loc main_arg9)⟩]
        Facts₀.concatenates_S2048x2048_S512x2048_S512x2048_S3072x2048_d0 := by
  show StableHlo.after hostOps0 (W0 m ρ c) (Proc.devRef .tc main_v0) = _
  after_results
  rfl

/-- The three projections: column ranges of the first call's result. -/
theorem V3_v2 (c : Dev nD) : (V3 m ρ c main_v2 : S1024x2048.Idx → Elt F .f32)
    = extractStridedSlice S1024x2048 ![0, 0] ((dat0 (V1 m ρ) c).arrAt 2 cfg0.N : S1024x3072.Idx → Elt F .f32) Facts₀.slices_S1024x3072_S1024x2048_0_0 := by
  show StableHlo.after hostOps1 (W2 m ρ c) (Proc.devRef .tc main_v2) = _
  after_results
  rw [W2_arr m ρ c 2]
theorem V3_v3 (c : Dev nD) : (V3 m ρ c main_v3 : S1024x512.Idx → Elt F .f32)
    = extractStridedSlice S1024x512 ![0, 2048] ((dat0 (V1 m ρ) c).arrAt 2 cfg0.N : S1024x3072.Idx → Elt F .f32) Facts₀.slices_S1024x3072_S1024x512_0_2048 := by
  show StableHlo.after hostOps1 (W2 m ρ c) (Proc.devRef .tc main_v3) = _
  after_results
  rw [W2_arr m ρ c 2]
theorem V3_v4 (c : Dev nD) : (V3 m ρ c main_v4 : S1024x512.Idx → Elt F .f32)
    = extractStridedSlice S1024x512 ![0, 2560] ((dat0 (V1 m ρ) c).arrAt 2 cfg0.N : S1024x3072.Idx → Elt F .f32) Facts₀.slices_S1024x3072_S1024x512_0_2560 := by
  show StableHlo.after hostOps1 (W2 m ρ c) (Proc.devRef .tc main_v4) = _
  after_results
  rw [W2_arr m ρ c 2]

/-- The two norm weights as one row each, the mask as words. -/
theorem V3_v5 (c : Dev nD) : (V3 m ρ c main_v5 : S1x64.Idx → Elt F .f32)
    = shapeCast S1x64 (m ((c : Thread nD τ).loc main_arg11) : S64.Idx → Elt F .f32) Facts₀.shapeCasts_S64_S1x64 := by
  show StableHlo.after hostOps1 (W2 m ρ c) (Proc.devRef .tc main_v5) = _
  after_results
  rw [W2_launch m ρ c main_arg11 (by decide) (by decide)]
  rfl
theorem V3_v6 (c : Dev nD) : (V3 m ρ c main_v6 : S1x64.Idx → Elt F .f32)
    = shapeCast S1x64 (m ((c : Thread nD τ).loc main_arg12) : S64.Idx → Elt F .f32) Facts₀.shapeCasts_S64_S1x64 := by
  show StableHlo.after hostOps1 (W2 m ρ c) (Proc.devRef .tc main_v6) = _
  after_results
  rw [W2_launch m ρ c main_arg12 (by decide) (by decide)]
  rfl
theorem V3_v7 (c : Dev nD) : (V3 m ρ c main_v7 : S1024x1024.Idx → BitVec 32)
    = extui 32 (m ((c : Thread nD τ).loc main_arg2) : S1024x1024.Idx → BitVec 1) Facts₀.natLt_1_32 := by
  show StableHlo.after hostOps1 (W2 m ρ c) (Proc.devRef .tc main_v7) = _
  after_results
  rw [W2_launch m ρ c main_arg2 (by decide) (by decide)]

/-- The tables reach the second call as launched, the output weights the third. -/
theorem V3_arg3 (c : Dev nD) : V3 m ρ c main_arg3 = m ((c : Thread nD τ).loc main_arg3) :=
  (StableHlo.after_of_writes_sub hostOps1 _ hostOps1_writes (r := main_arg3) (by decide)).trans (W2_launch m ρ c main_arg3 (by decide) (by decide))
theorem V3_arg5 (c : Dev nD) : V3 m ρ c main_arg5 = m ((c : Thread nD τ).loc main_arg5) :=
  (StableHlo.after_of_writes_sub hostOps1 _ hostOps1_writes (r := main_arg5) (by decide)).trans (W2_launch m ρ c main_arg5 (by decide) (by decide))
theorem V4_arg10 (c : Dev nD) : V4 m ρ c main_arg10 = m ((c : Thread nD τ).loc main_arg10) :=
  (W4_of_ne m ρ c main_arg10 (by decide)).trans ((StableHlo.after_of_writes_sub hostOps1 _ hostOps1_writes (r := main_arg10) (by decide)).trans (W2_launch m ρ c main_arg10 (by decide) (by decide)))
/-- The attention output the third call reads is what the second call's write-backs left. -/
theorem V4_v8 (c : Dev nD) : V4 m ρ c main_v8 = (dat1 (V3 m ρ) c).arrAt 8 cfg1.N := W4_arr m ρ c 8

/-- A mask bit widened to a word and tested against zero is the bit. -/
theorem ne_zero_extui (b : BitVec 1) : IntOp.cmpi .ne (b.setWidth 32) 0#32 = b := by
  revert b; decide

/-- The body's mask from the widened words is the mask. -/
theorem k1_pay2_extui (x : S1024x1024.Idx → BitVec 1) (i : S1024x1024.Idx) :
    k1_pay2 (F := F) (extui 32 x Facts₀.natLt_1_32) i = x i := by
  show IntOp.cmpi .ne ((x i).setWidth 32) 0#32 = x i
  exact ne_zero_extui (x i)

/-- A 64-vector reshaped to one row, read at lane `d`. -/
theorem row_of_vec {α : Type} (w : S64.Idx → α) (d : Fin 64) :
    shapeCast S1x64 w Facts₀.shapeCasts_S64_S1x64 (ix2 (0 : Fin 1) d) = w (ix1 d) := by
  refine (shapeCast_addUnit_apply ![64] w Facts₀.shapeCasts_S64_S1x64 (ix2 (0 : Fin 1) d)).trans (congrArg w ?_)
  funext a; match a with | ⟨0, _⟩ => rfl

end Cert.KernelIdeal.Hand

end
-- ==== Proof.Spec.lean ====
/-
  The mathematics both programs compute, stated once over plain index families on the extended reals.

  Grouped-query attention on 1024 tokens: the 2048-wide input is projected to 32 query heads and 8 key/value heads of
  width 64 (query head h reads key/value head h / 4); queries and keys are RMS-normalised per token and head, scaled by a
  learned weight, and rotated (rotary embedding: the half-swapped, half-negated vector times sin, plus the vector times
  cos); the scores are the scaled inner products, sent to -∞ where the mask is set; each row is soft-maxed (shifted by its
  maximum, exponentiated, divided by its sum) and applied to the values; the heads are laid side by side and projected
  back.  Nothing here is evaluated: the float literals stay as their words.
-/
import Idealize.ShloMosaic.PureOps.Ideal
import Idealize.ShloMosaic.PureOps.Ideal.Laws
import Idealize.ShloMosaic.Lib.ValueIdx

noncomputable section

namespace Cert.Spec

open Idealize.ShloMosaic

/-- `x · Wᵀ` at row `t`, column `n`: the sum over the shared axis. -/
def proj {M N K : ℕ} (x : Fin M → Fin K → EReal) (W : Fin N → Fin K → EReal) (t : Fin M) (n : Fin N) : EReal :=
  ∑ k : Fin K, x t k * W n k

/-- The words of 64, of 10⁻⁶ (as f32), of 1/8, of -∞, of -1 and of 1. -/
abbrev c64 : EReal := Ideal.ofBits .f32 0x42800000#32
abbrev ceps : EReal := Ideal.ofBits .f32 0x358637BD#32
abbrev cEighth : EReal := Ideal.ofBits .f32 0x3E000000#32
abbrev cNegInf : EReal := Ideal.ofBits .f32 0xFF800000#32

/-- RMS normalisation of one 64-vector `u` with weight `w`: `u d · rsqrt(mean(u²) + ε) · w d`. -/
def rms (u w : Fin 64 → EReal) (d : Fin 64) : EReal :=
  u d * Ideal.rsqrt (Ideal.div (∑ j : Fin 64, u j * u j) c64 + ceps) * w d

/-- The half-swapped, half-negated vector of the rotary embedding: `-u (d + 32)` on the first half, `u (d - 32)` on
    the second. -/
def rot (u : Fin 64 → EReal) (d : Fin 64) : EReal :=
  if h : d.val < 32 then -(u ⟨d.val + 32, by omega⟩) else u ⟨d.val - 32, by omega⟩

/-- The rotary embedding of one 64-vector at one position (its `cos` and `sin` rows). -/
def rope (u c s : Fin 64 → EReal) (d : Fin 64) : EReal :=
  u d * c d + rot u d * s d

/-- A normalised, rotated head: row `t` is `rope (rms (x t) w) (cos t) (sin t)`. -/
def normed (x cos sin : Fin 1024 → Fin 64 → EReal) (w : Fin 64 → EReal) (t : Fin 1024) (d : Fin 64) : EReal :=
  rope (rms (x t) w) (cos t) (sin t) d

/-- The masked, scaled scores of one head. -/
def score (q k : Fin 1024 → Fin 64 → EReal) (msk : Fin 1024 → Fin 1024 → BitVec 1) (t s : Fin 1024) : EReal :=
  Scalar.select (msk t s) cNegInf ((∑ d : Fin 64, q t d * k s d) * cEighth)

/-- The soft-max of one row: shifted by the row's maximum (a fold of `max` from -∞), exponentiated, divided by the
    sum. -/
def smax (row : Fin 1024 → EReal) (s : Fin 1024) : EReal :=
  Ideal.div (Ideal.exp (row s - (Finset.univ : Finset (Fin 1024)).fold max cNegInf row))
    (∑ s' : Fin 1024, Ideal.exp (row s' - (Finset.univ : Finset (Fin 1024)).fold max cNegInf row))

/-- One attention head from normalised queries and keys `qn`, `kn` and raw values `xv` (each 1024 × 64): row `t` of the
    soft-maxed scores applied to column `d` of the values. -/
def headN (qn kn xv : Fin 1024 → Fin 64 → EReal) (msk : Fin 1024 → Fin 1024 → BitVec 1) (t : Fin 1024) (d : Fin 64) : EReal :=
  ∑ s : Fin 1024, smax (score qn kn msk t) s * xv s d

/-- One attention head from its raw projections `xq`, `xk`, `xv` (each 1024 × 64). -/
def head (xq xk xv cos sin : Fin 1024 → Fin 64 → EReal) (msk : Fin 1024 → Fin 1024 → BitVec 1)
    (qw kw : Fin 64 → EReal) (t : Fin 1024) (d : Fin 64) : EReal :=
  headN (normed xq cos sin qw) (normed xk cos sin kw) xv msk t d

/-- A rank-2 array as a family over its two coordinates, a rank-1 array over its one. -/
abbrev mat {α : Type} {a b : ℕ} (x : (⟨2, ![a, b]⟩ : Shape).Idx → α) (i : Fin a) (j : Fin b) : α := x (ValueIdx.ix2 i j)
abbrev vec {α : Type} {a : ℕ} (x : (⟨1, ![a]⟩ : Shape).Idx → α) (i : Fin a) : α := x (ValueIdx.ix1 i)
/-- Key / value head of query head `h`: four query heads share one. -/
def kvOf (h : Fin 32) : Fin 8 := ⟨h.val / 4, by have := h.isLt; omega⟩

/-- Column `c` of a 64·H-wide matrix as (head, lane). -/
def hd {H : ℕ} (c : Fin (H * 64)) : Fin H := ⟨c.val / 64, by have := c.isLt; omega⟩
def ln {H : ℕ} (c : Fin (H * 64)) : Fin 64 := ⟨c.val % 64, Nat.mod_lt _ (by decide)⟩
/-- Head `h` of a 64·H-wide matrix, as a 1024 × 64 matrix. -/
def headOf {H : ℕ} (y : Fin 1024 → Fin (H * 64) → EReal) (h : Fin H) (t : Fin 1024) (d : Fin 64) : EReal :=
  y t ⟨h.val * 64 + d.val, by have := h.isLt; have := d.isLt; nlinarith⟩

/-- The attention output before the last projection, 1024 × 2048, from the three projections `q` (32 heads) and
    `k`, `v` (8 heads): column `c` belongs to query head `c / 64`, which reads key/value head `c / 64 / 4`. -/
def attn (q : Fin 1024 → Fin (32 * 64) → EReal) (k v : Fin 1024 → Fin (8 * 64) → EReal)
    (cos sin : Fin 1024 → Fin 64 → EReal) (msk : Fin 1024 → Fin 1024 → BitVec 1) (qw kw : Fin 64 → EReal)
    (t : Fin 1024) (c : Fin (32 * 64)) : EReal :=
  head (headOf q (hd c)) (headOf k (kvOf (hd c))) (headOf v (kvOf (hd c))) cos sin msk qw kw t (ln c)

/-- The whole layer. -/
def layer (x : Fin 1024 → Fin 2048 → EReal) (Wq : Fin (32 * 64) → Fin 2048 → EReal) (Wk Wv : Fin (8 * 64) → Fin 2048 → EReal)
    (Wo : Fin 2048 → Fin (32 * 64) → EReal) (cos sin : Fin 1024 → Fin 64 → EReal) (msk : Fin 1024 → Fin 1024 → BitVec 1)
    (qw kw : Fin 64 → EReal) (t : Fin 1024) (n : Fin 2048) : EReal :=
  proj (attn (proj x Wq) (proj x Wk) (proj x Wv) cos sin msk qw kw) Wo t n

end Cert.Spec

end
-- ==== Proof.FinalProj.lean ====
/-
  The first and the third call of the idealized program are each a product x · Wᵀ computed one block of output columns
  per grid point: the left array (1024 × 2048) is held whole, the point's block of rows of the right array is read, and
  their product (rounding to bf16 is the identity on the extended reals, the accumulator starts at zero) is the point's
  block of output columns.  Here: that product at a row and a column is the sum over the 2048 shared columns; each
  block read is the array read at the block's offset; what a point writes back is its block of the one matrix
  `proj x W`; the blocks cover the output array (column n lies in block n / width); so after the call the output
  array is `proj x W`, entry by entry.  Done for the first call (256 columns a point, 12 points) and, with the other
  sizes, for the third (512 columns a point, 4 points).
-/
import proofs.«411685_j48395691491520_3_alg».proof.Proof.Spec
import proofs.«411685_j48395691491520_3_alg».proof.Proof.IReg0
import proofs.«411685_j48395691491520_3_alg».proof.Proof.IReg2
import Idealize.ShloMosaic.Lib.ValueIdx
import Idealize.ShloMosaic.Lib.Pipeline.Value
import Idealize.ShloMosaic.PureOps.Ideal.Laws

set_option maxRecDepth 16384

noncomputable section

namespace Cert.KernelIdeal.FinalProj

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (mat)

variable (V : (c : Dev nD) → (b : Ref sig .tc) → Buf (Elt Ideal) ((c : Thread nD τ).loc b))

/-! ## Call 0's product at an index -/

/-- The left operand is read at the output's row, -/
theorem lhs0_0 (i : S1024x256.Idx) (q : dot_S1024x2048_S256x2048_S1024x256_1_1_0_0_n_n.contr.Idx) : (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
/-- and at the summed column; -/
theorem lhs0_1 (i : S1024x256.Idx) (q : dot_S1024x2048_S256x2048_S1024x256_1_1_0_0_n_n.contr.Idx) : (dot_S1024x2048_S256x2048_S1024x256_1_1_0_0_n_n.lhsIdx i q 1).val = (q ⟨0, by decide⟩).val :=
  dot_S1024x2048_S256x2048_S1024x256_1_1_0_0_n_n.lhsIdx_val_of_single rfl i q
/-- the right operand at the output's column, which is its row, -/
theorem rhs0_0 (i : S1024x256.Idx) (q : dot_S1024x2048_S256x2048_S1024x256_1_1_0_0_n_n.contr.Idx) : (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
/-- and at the summed column. -/
theorem rhs0_1 (i : S1024x256.Idx) (q : dot_S1024x2048_S256x2048_S1024x256_1_1_0_0_n_n.contr.Idx) : (dot_S1024x2048_S256x2048_S1024x256_1_1_0_0_n_n.rhsIdx i q 1).val = (q ⟨0, by decide⟩).val :=
  dot_S1024x2048_S256x2048_S1024x256_1_1_0_0_n_n.rhsIdx_val_of_single rfl i q

/-- The product of two blocks read at row `t`, column `n`: the sum over the 2048 shared columns. -/
theorem k0_pay1_apply (a : Vec Ideal S1024x2048 .f32) (b : Vec Ideal S256x2048 .f32) (t : Fin 1024) (n : Fin 256) :
    k0_pay1 (F := Ideal) a b (ix2 t n) = ∑ k : Fin 2048, a (ix2 t k) * b (ix2 n k) := by
  unfold k0_pay1
  rw [shapeCast_self]
  refine (Ideal.matmul_constant_zero_apply dot_S1024x2048_S256x2048_S1024x256_1_1_0_0_n_n none _ _ (ix2 t n)).trans ?_
  rw [← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 t n) ((contrEquiv1 dot_S1024x2048_S256x2048_S1024x256_1_1_0_0_n_n 2048 rfl rfl).symm k) = ix2 t k := funext fun x => Fin.ext (by
    match x with
    | ⟨0, _⟩ => exact lhs0_0 _ _
    | ⟨1, _⟩ => exact (lhs0_1 _ _).trans hk)
  have er : dot_S1024x2048_S256x2048_S1024x256_1_1_0_0_n_n.rhsIdx (ix2 t n) ((contrEquiv1 dot_S1024x2048_S256x2048_S1024x256_1_1_0_0_n_n 2048 rfl rfl).symm k) = ix2 n k := funext fun x => Fin.ext (by
    match x with
    | ⟨0, _⟩ => exact rhs0_0 _ _
    | ⟨1, _⟩ => exact (rhs0_1 _ _).trans hk)
  rw [el, er, truncf_apply, truncf_apply]

/-! ## Call 2's product at an index -/

/-- The left operand is read at the output's row, -/
theorem lhs2_0 (i : S1024x512.Idx) (q : dot_S1024x2048_S512x2048_S1024x512_1_1_0_0_n_n.contr.Idx) : (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- and at the summed column; -/
theorem lhs2_1 (i : S1024x512.Idx) (q : dot_S1024x2048_S512x2048_S1024x512_1_1_0_0_n_n.contr.Idx) : (dot_S1024x2048_S512x2048_S1024x512_1_1_0_0_n_n.lhsIdx i q 1).val = (q ⟨0, by decide⟩).val :=
  dot_S1024x2048_S512x2048_S1024x512_1_1_0_0_n_n.lhsIdx_val_of_single rfl i q
/-- the right operand at the output's column, which is its row, -/
theorem rhs2_0 (i : S1024x512.Idx) (q : dot_S1024x2048_S512x2048_S1024x512_1_1_0_0_n_n.contr.Idx) : (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- and at the summed column. -/
theorem rhs2_1 (i : S1024x512.Idx) (q : dot_S1024x2048_S512x2048_S1024x512_1_1_0_0_n_n.contr.Idx) : (dot_S1024x2048_S512x2048_S1024x512_1_1_0_0_n_n.rhsIdx i q 1).val = (q ⟨0, by decide⟩).val :=
  dot_S1024x2048_S512x2048_S1024x512_1_1_0_0_n_n.rhsIdx_val_of_single rfl i q

/-- The product of two blocks read at row `t`, column `n`: the sum over the 2048 shared columns. -/
theorem k2_pay1_apply (a : Vec Ideal S1024x2048 .f32) (b : Vec Ideal S512x2048 .f32) (t : Fin 1024) (n : Fin 512) :
    k2_pay1 (F := Ideal) a b (ix2 t n) = ∑ k : Fin 2048, a (ix2 t k) * b (ix2 n k) := by
  unfold k2_pay1
  rw [shapeCast_self]
  refine (Ideal.matmul_constant_zero_apply dot_S1024x2048_S512x2048_S1024x512_1_1_0_0_n_n none _ _ (ix2 t n)).trans ?_
  rw [← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 t n) ((contrEquiv1 dot_S1024x2048_S512x2048_S1024x512_1_1_0_0_n_n 2048 rfl rfl).symm k) = ix2 t k := funext fun x => Fin.ext (by
    match x with
    | ⟨0, _⟩ => exact lhs2_0 _ _
    | ⟨1, _⟩ => exact (lhs2_1 _ _).trans hk)
  have er : dot_S1024x2048_S512x2048_S1024x512_1_1_0_0_n_n.rhsIdx (ix2 t n) ((contrEquiv1 dot_S1024x2048_S512x2048_S1024x512_1_1_0_0_n_n 2048 rfl rfl).symm k) = ix2 n k := funext fun x => Fin.ext (by
    match x with
    | ⟨0, _⟩ => exact rhs2_0 _ _
    | ⟨1, _⟩ => exact (rhs2_1 _ _).trans hk)
  rw [el, er, truncf_apply, truncf_apply]

/-- The zero offset, as the constant family. -/
private theorem hz : (![0, 0] : Fin 2 → Nat) = fun _ => 0 := funext fun a => by fin_cases a <;> rfl

/-! ## Call 0: from the blocks to the array -/

/-- The whole result of call 0 as the call's entry contents give it: entry (row, column) is the row of the left
    array against the row of the right array that has the column's number. -/
def G0 (c : Dev nD) : S1024x3072.Idx → EReal := fun i =>
  Cert.Spec.proj (mat (V c main_arg0 : S1024x2048.Idx → EReal)) (mat (V c main_v0 : S3072x2048.Idx → EReal)) ⟨(i 0).val, (i 0).isLt⟩ ⟨(i 1).val, (i 1).isLt⟩

/-- `G0` at an index whose coordinates are known. -/
theorem G0_apply (c : Dev nD) (i : S1024x3072.Idx) (p : Fin 1024) (r : Fin 3072) (h0 : (i 0).val = p.val) (h1 : (i 1).val = r.val) :
    G0 V c i = Cert.Spec.proj (mat (V c main_arg0 : S1024x2048.Idx → EReal)) (mat (V c main_v0 : S3072x2048.Idx → EReal)) p r := by
  unfold G0
  exact congrArg₂ (Cert.Spec.proj _ _) (Fin.ext h0) (Fin.ext h1)

/-- The block indices over the grid: the left operand's block never moves, the right operand's moves down its rows
    and the output's along its columns with the point. -/
theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The left operand's block is the whole left array. -/
theorem iblk0_0_apply (c : Dev nD) (t : Fin cfg0.N) (p : Fin 1024) (k : Fin 2048) :
    (iblk0 V c 0 t : Vec Ideal S1024x2048 .f32) (ix2 p k) = (V c main_arg0 : S1024x2048.Idx → EReal) (ix2 p k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 1024 + 1 * p.val = p.val; rw [e0]; omega
  | ⟨1, _⟩ => show win0_0.index t 1 * 2048 + 1 * k.val = k.val; rw [e1]; omega

/-- The right operand's block at point `t` is rows `256 t … 256 t + 255` of the right array. -/
theorem iblk0_1_apply (c : Dev nD) (t : Fin cfg0.N) (n : Fin 256) (k : Fin 2048) (r : Fin 3072) (hr : r.val = t.val * 256 + n.val) :
    (iblk0 V c 1 t : Vec Ideal S256x2048 .f32) (ix2 n k) = (V c main_v0 : S3072x2048.Idx → EReal) (ix2 r k) := by
  obtain ⟨-, -, e0, e1, -⟩ := idx0 t
  unfold iblk0
  rw [View.read_apply]
  show V c main_v0 _ = V c main_v0 _
  congr 1
  funext a
  apply Fin.ext
  match a with
  | ⟨0, _⟩ => show win0_1.index t 0 * 256 + 1 * n.val = r.val; rw [e0, hr]; omega
  | ⟨1, _⟩ => show win0_1.index t 1 * 2048 + 1 * k.val = k.val; rw [e1]; omega

/-- The body's product of the two blocks at point `t`, read at a row and a column of the block: the row of the left
    array against row `256 t + n` of the right array. -/
theorem pay0_at (c : Dev nD) (t : Fin cfg0.N) (p : Fin 1024) (n : Fin 256) (r : Fin 3072) (hr : r.val = t.val * 256 + n.val) :
    k0_pay1 (F := Ideal) (iblk0 V c 0 t) (iblk0 V c 1 t) (ix2 p n)
      = Cert.Spec.proj (mat (V c main_arg0 : S1024x2048.Idx → EReal)) (mat (V c main_v0 : S3072x2048.Idx → EReal)) p r := by
  refine (k0_pay1_apply (iblk0 V c 0 t) (iblk0 V c 1 t) p n).trans ?_
  unfold Cert.Spec.proj
  refine Finset.sum_congr rfl fun k _ => ?_
  rw [iblk0_0_apply V c t p k, iblk0_1_apply V c t n k r hr]

/-- What point `t` writes back is block `t` of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S1024x2048) hz, View.ld_unit_zero (S := S256x2048) hz]
  obtain ⟨-, -, -, -, e0, e1⟩ := idx0 t
  have hN : cfg0.N = 12 := N_0
  funext j
  obtain ⟨p, n, rfl⟩ : ∃ (p : Fin 1024) (n : Fin 256), j = ix2 p n := ⟨j 0, j 1, eq_ix2 j⟩
  have ht : t.val < 12 := hN ▸ t.isLt
  show k0_pay1 (F := Ideal) (iblk0 V c 0 t) (iblk0 V c 1 t) (ix2 p n) = G0 V c (((cfg0.win 2).blk t).view.emb (ix2 p n))
  rw [pay0_at V c t p n ⟨t.val * 256 + n.val, by have := n.isLt; omega⟩ rfl]
  refine (G0_apply V c _ p ⟨t.val * 256 + n.val, by have := n.isLt; omega⟩ ?_ ?_).symm
  · show win0_2.index t 0 * 1024 + 1 * p.val = p.val; rw [e0]; omega
  · show win0_2.index t 1 * 256 + 1 * n.val = t.val * 256 + n.val; rw [e1]; omega

/-- Every index of the result array is in the block of the point its column names. -/
theorem cover0 (i : S1024x3072.Idx) :
    ∃ t : Fin cfg0.N, (cfg0.win 2).flush t = true ∧ i ∈ ((cfg0.win 2).blk t).view.set := by
  have hN : cfg0.N = 12 := N_0
  have h0 : (i 0).val < 1024 := (i 0).isLt
  have h1 : (i 1).val < 3072 := (i 1).isLt
  have hlt : (i 1).val / 256 < cfg0.N := by rw [hN]; omega
  refine ⟨⟨(i 1).val / 256, hlt⟩, flush0_2 _, ?_⟩
  obtain ⟨-, -, -, -, e0, e1⟩ := idx0 ⟨(i 1).val / 256, hlt⟩
  show i ∈ ((View.whole main_v1).slice (win0_2.rect ⟨(i 1).val / 256, hlt⟩)).set
  rw [View.set_slice_whole, Rect.mem_set_unit]
  intro a
  match a with
  | ⟨0, _⟩ => show win0_2.index ⟨(i 1).val / 256, hlt⟩ 0 * 1024 ≤ (i 0).val ∧ (i 0).val < win0_2.index ⟨(i 1).val / 256, hlt⟩ 0 * 1024 + 1024; rw [e0]; omega
  | ⟨1, _⟩ => show win0_2.index ⟨(i 1).val / 256, hlt⟩ 1 * 256 ≤ (i 1).val ∧ (i 1).val < win0_2.index ⟨(i 1).val / 256, hlt⟩ 1 * 256 + 256; rw [e1]; show (i 1).val / 256 * 256 ≤ (i 1).val ∧ (i 1).val < (i 1).val / 256 * 256 + 256; omega

/-- So the result array of call 0 ends holding `G0`. -/
theorem arr0_eq (c : Dev nD) : (dat0 V c).arrAt 2 cfg0.N = G0 V c :=
  (dat0 V c).arrAt_eq_of_cover 2 (G0 V c) (fun t _ => flushed0_eq V c t) (cover0)

/-- After the first call its result array is the input times the transposed stacked weights. -/
theorem final0 (c : Dev nD) (t : Fin 1024) (n : Fin 3072) :
    ((dat0 V c).arrAt 2 cfg0.N : S1024x3072.Idx → EReal) (ix2 t n)
      = Cert.Spec.proj (mat (V c main_arg0 : S1024x2048.Idx → EReal)) (mat (V c main_v0 : S3072x2048.Idx → EReal)) t n :=
  (congrFun (arr0_eq V c) (ix2 t n)).trans (G0_apply V c (ix2 t n) t n rfl rfl)

/-! ## Call 2: from the blocks to the array -/

/-- The whole result of call 2 as the call's entry contents give it: entry (row, column) is the row of the left
    array against the row of the right array that has the column's number. -/
def G2 (c : Dev nD) : S1024x2048.Idx → EReal := fun i =>
  Cert.Spec.proj (mat (V c main_v8 : S1024x2048.Idx → EReal)) (mat (V c main_arg10 : S2048x2048.Idx → EReal)) ⟨(i 0).val, (i 0).isLt⟩ ⟨(i 1).val, (i 1).isLt⟩

/-- `G2` at an index whose coordinates are known. -/
theorem G2_apply (c : Dev nD) (i : S1024x2048.Idx) (p : Fin 1024) (r : Fin 2048) (h0 : (i 0).val = p.val) (h1 : (i 1).val = r.val) :
    G2 V c i = Cert.Spec.proj (mat (V c main_v8 : S1024x2048.Idx → EReal)) (mat (V c main_arg10 : S2048x2048.Idx → EReal)) p r := by
  unfold G2
  exact congrArg₂ (Cert.Spec.proj _ _) (Fin.ext h0) (Fin.ext h1)

/-- The block indices over the grid: the left operand's block never moves, the right operand's moves down its rows
    and the output's along its columns with the point. -/
theorem idx2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- The left operand's block is the whole left array. -/
theorem iblk2_0_apply (c : Dev nD) (t : Fin cfg2.N) (p : Fin 1024) (k : Fin 2048) :
    (iblk2 V c 0 t : Vec Ideal S1024x2048 .f32) (ix2 p k) = (V c main_v8 : S1024x2048.Idx → EReal) (ix2 p k) := by
  obtain ⟨e0, e1, -⟩ := idx2 t
  unfold iblk2
  rw [View.read_apply]
  show V c main_v8 _ = V c main_v8 _
  congr 1
  funext a
  apply Fin.ext
  match a with
  | ⟨0, _⟩ => show win2_0.index t 0 * 1024 + 1 * p.val = p.val; rw [e0]; omega
  | ⟨1, _⟩ => show win2_0.index t 1 * 2048 + 1 * k.val = k.val; rw [e1]; omega

/-- The right operand's block at point `t` is rows `512 t … 512 t + 511` of the right array. -/
theorem iblk2_1_apply (c : Dev nD) (t : Fin cfg2.N) (n : Fin 512) (k : Fin 2048) (r : Fin 2048) (hr : r.val = t.val * 512 + n.val) :
    (iblk2 V c 1 t : Vec Ideal S512x2048 .f32) (ix2 n k) = (V c main_arg10 : S2048x2048.Idx → EReal) (ix2 r k) := by
  obtain ⟨-, -, e0, e1, -⟩ := idx2 t
  unfold iblk2
  rw [View.read_apply]
  show V c main_arg10 _ = V c main_arg10 _
  congr 1
  funext a
  apply Fin.ext
  match a with
  | ⟨0, _⟩ => show win2_1.index t 0 * 512 + 1 * n.val = r.val; rw [e0, hr]; omega
  | ⟨1, _⟩ => show win2_1.index t 1 * 2048 + 1 * k.val = k.val; rw [e1]; omega

/-- The body's product of the two blocks at point `t`, read at a row and a column of the block: the row of the left
    array against row `512 t + n` of the right array. -/
theorem pay2_at (c : Dev nD) (t : Fin cfg2.N) (p : Fin 1024) (n : Fin 512) (r : Fin 2048) (hr : r.val = t.val * 512 + n.val) :
    k2_pay1 (F := Ideal) (iblk2 V c 0 t) (iblk2 V c 1 t) (ix2 p n)
      = Cert.Spec.proj (mat (V c main_v8 : S1024x2048.Idx → EReal)) (mat (V c main_arg10 : S2048x2048.Idx → EReal)) p r := by
  refine (k2_pay1_apply (iblk2 V c 0 t) (iblk2 V c 1 t) p n).trans ?_
  unfold Cert.Spec.proj
  refine Finset.sum_congr rfl fun k _ => ?_
  rw [iblk2_0_apply V c t p k, iblk2_1_apply V c t n k r hr]

/-- What point `t` writes back is block `t` of `G2`. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S1024x2048) hz, View.ld_unit_zero (S := S512x2048) hz]
  obtain ⟨-, -, -, -, e0, e1⟩ := idx2 t
  have hN : cfg2.N = 4 := N_2
  funext j
  obtain ⟨p, n, rfl⟩ : ∃ (p : Fin 1024) (n : Fin 512), j = ix2 p n := ⟨j 0, j 1, eq_ix2 j⟩
  have ht : t.val < 4 := hN ▸ t.isLt
  show k2_pay1 (F := Ideal) (iblk2 V c 0 t) (iblk2 V c 1 t) (ix2 p n) = G2 V c (((cfg2.win 2).blk t).view.emb (ix2 p n))
  rw [pay2_at V c t p n ⟨t.val * 512 + n.val, by have := n.isLt; omega⟩ rfl]
  refine (G2_apply V c _ p ⟨t.val * 512 + n.val, by have := n.isLt; omega⟩ ?_ ?_).symm
  · show win2_2.index t 0 * 1024 + 1 * p.val = p.val; rw [e0]; omega
  · show win2_2.index t 1 * 512 + 1 * n.val = t.val * 512 + n.val; rw [e1]; omega

/-- Every index of the result array is in the block of the point its column names. -/
theorem cover2 (i : S1024x2048.Idx) :
    ∃ t : Fin cfg2.N, (cfg2.win 2).flush t = true ∧ i ∈ ((cfg2.win 2).blk t).view.set := by
  have hN : cfg2.N = 4 := N_2
  have h0 : (i 0).val < 1024 := (i 0).isLt
  have h1 : (i 1).val < 2048 := (i 1).isLt
  have hlt : (i 1).val / 512 < cfg2.N := by rw [hN]; omega
  refine ⟨⟨(i 1).val / 512, hlt⟩, flush2_2 _, ?_⟩
  obtain ⟨-, -, -, -, e0, e1⟩ := idx2 ⟨(i 1).val / 512, hlt⟩
  show i ∈ ((View.whole main_v9).slice (win2_2.rect ⟨(i 1).val / 512, hlt⟩)).set
  rw [View.set_slice_whole, Rect.mem_set_unit]
  intro a
  match a with
  | ⟨0, _⟩ => show win2_2.index ⟨(i 1).val / 512, hlt⟩ 0 * 1024 ≤ (i 0).val ∧ (i 0).val < win2_2.index ⟨(i 1).val / 512, hlt⟩ 0 * 1024 + 1024; rw [e0]; omega
  | ⟨1, _⟩ => show win2_2.index ⟨(i 1).val / 512, hlt⟩ 1 * 512 ≤ (i 1).val ∧ (i 1).val < win2_2.index ⟨(i 1).val / 512, hlt⟩ 1 * 512 + 512; rw [e1]; show (i 1).val / 512 * 512 ≤ (i 1).val ∧ (i 1).val < (i 1).val / 512 * 512 + 512; omega

/-- So the result array of call 2 ends holding `G2`. -/
theorem arr2_eq (c : Dev nD) : (dat2 V c).arrAt 2 cfg2.N = G2 V c :=
  (dat2 V c).arrAt_eq_of_cover 2 (G2 V c) (fun t _ => flushed2_eq V c t) (cover2)

/-- After the third call its result array is the attention output times the transposed output weights. -/
theorem final2 (c : Dev nD) (t : Fin 1024) (n : Fin 2048) :
    ((dat2 V c).arrAt 2 cfg2.N : S1024x2048.Idx → EReal) (ix2 t n)
      = Cert.Spec.proj (mat (V c main_v8 : S1024x2048.Idx → EReal)) (mat (V c main_arg10 : S2048x2048.Idx → EReal)) t n :=
  (congrFun (arr2_eq V c) (ix2 t n)).trans (G2_apply V c (ix2 t n) t n rfl rfl)

end Cert.KernelIdeal.FinalProj

end
-- ==== Proof.FinalAttn.lean ====
/-
  The second call's result array, index by index.  Each of the four grid points reads column blocks of the query, key and
  value arrays (block `i` of width 512, 128, 128) and the five other operands whole, and stores one 1024 x 512 block into
  columns `512 i …` of the result; the blocks tile the result array, so after the call column `512 i + cc` holds what
  point `i` stored at column `cc`.
-/
import proofs.«411685_j48395691491520_3_alg».proof.Proof.IReg1
import Idealize.ShloMosaic.Lib.ValueIdx
import Idealize.ShloMosaic.Lib.Pipeline.Value

set_option maxRecDepth 16384

noncomputable section

namespace Cert.KernelIdeal.FinalAttn

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Grid point `i` of the second call. -/
abbrev pt (i : Fin 4) : Fin cfg1.N := ⟨i.val, by rw [show cfg1.N = 4 from N_1]; exact i.isLt⟩
/-- Column `512 i + cc` of a 2048-wide array, column `128 i + cc` of a 512-wide array. -/
abbrev colQ (i : Fin 4) (cc : Fin 512) : Fin 2048 := ⟨512 * i.val + cc.val, by have := i.isLt; have := cc.isLt; omega⟩
abbrev colK (i : Fin 4) (cc : Fin 128) : Fin 512 := ⟨128 * i.val + cc.val, by have := i.isLt; have := cc.isLt; omega⟩

/-- The block indices over the grid: the query, key, value and result windows sit at block `(0, t)`, the other five at `(0, 0)`. -/
theorem idx_moving : ∀ t : Fin cfg1.N,
    (win1_0.index t (0 : Fin 2) = 0 ∧ win1_0.index t (1 : Fin 2) = t.val)
    ∧ (win1_1.index t (0 : Fin 2) = 0 ∧ win1_1.index t (1 : Fin 2) = t.val)
    ∧ (win1_2.index t (0 : Fin 2) = 0 ∧ win1_2.index t (1 : Fin 2) = t.val)
    ∧ (win1_8.index t (0 : Fin 2) = 0 ∧ win1_8.index t (1 : Fin 2) = t.val) :=
  (by decide +kernel : ∀ t : Fin grid1.N, _)

theorem idx_fixed : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- The query block at point `i` is columns `512 i …` of the query array; the key and value blocks columns `128 i …` of
    theirs; the other five operands' blocks are their whole arrays. -/
theorem iblk1_0_apply (c : Dev nD) (i : Fin 4) (t : Fin 1024) (cc : Fin 512) :
    (iblk1 V c 0 (pt i) : S1024x512.Idx → Elt F .f32) (ix2 t cc) = (V c main_v2 : S1024x2048.Idx → Elt F .f32) (ix2 t (colQ i cc)) := by
  obtain ⟨⟨e0, e1⟩, -⟩ := idx_moving (pt i)
  unfold iblk1
  rw [View.read_apply]
  show V c main_v2 _ = V c main_v2 _
  congr 1
  funext a
  apply Fin.ext
  match a with
  | ⟨0, _⟩ => show win1_0.index (pt i) 0 * 1024 + 1 * t.val = t.val; rw [e0]; omega
  | ⟨1, _⟩ => show win1_0.index (pt i) 1 * 512 + 1 * cc.val = 512 * i.val + cc.val; rw [e1]; show i.val * 512 + 1 * cc.val = _; omega
theorem iblk1_1_apply (c : Dev nD) (i : Fin 4) (t : Fin 1024) (cc : Fin 128) :
    (iblk1 V c 1 (pt i) : S1024x128.Idx → Elt F .f32) (ix2 t cc) = (V c main_v3 : S1024x512.Idx → Elt F .f32) (ix2 t (colK i cc)) := by
  obtain ⟨-, ⟨e0, e1⟩, -⟩ := idx_moving (pt i)
  unfold iblk1
  rw [View.read_apply]
  show V c main_v3 _ = V c main_v3 _
  congr 1
  funext a
  apply Fin.ext
  match a with
  | ⟨0, _⟩ => show win1_1.index (pt i) 0 * 1024 + 1 * t.val = t.val; rw [e0]; omega
  | ⟨1, _⟩ => show win1_1.index (pt i) 1 * 128 + 1 * cc.val = 128 * i.val + cc.val; rw [e1]; show i.val * 128 + 1 * cc.val = _; omega
theorem iblk1_2_apply (c : Dev nD) (i : Fin 4) (t : Fin 1024) (cc : Fin 128) :
    (iblk1 V c 2 (pt i) : S1024x128.Idx → Elt F .f32) (ix2 t cc) = (V c main_v4 : S1024x512.Idx → Elt F .f32) (ix2 t (colK i cc)) := by
  obtain ⟨-, -, ⟨e0, e1⟩, -⟩ := idx_moving (pt i)
  unfold iblk1
  rw [View.read_apply]
  show V c main_v4 _ = V c main_v4 _
  congr 1
  funext a
  apply Fin.ext
  match a with
  | ⟨0, _⟩ => show win1_2.index (pt i) 0 * 1024 + 1 * t.val = t.val; rw [e0]; omega
  | ⟨1, _⟩ => show win1_2.index (pt i) 1 * 128 + 1 * cc.val = 128 * i.val + cc.val; rw [e1]; show i.val * 128 + 1 * cc.val = _; omega
theorem iblk1_3_eq (c : Dev nD) (t : Fin cfg1.N) : (iblk1 V c 3 t : S1024x64.Idx → Elt F .f32) = V c main_arg3 := by
  obtain ⟨⟨e0, e1⟩, -⟩ := idx_fixed t
  funext x
  unfold iblk1
  rw [View.read_apply]
  show V c main_arg3 _ = V c main_arg3 _
  congr 1
  funext a
  apply Fin.ext
  match a with
  | ⟨0, _⟩ => show win1_3.index t 0 * 1024 + 1 * (x 0).val = (x 0).val; rw [e0]; omega
  | ⟨1, _⟩ => show win1_3.index t 1 * 64 + 1 * (x 1).val = (x 1).val; rw [e1]; omega
theorem iblk1_4_eq (c : Dev nD) (t : Fin cfg1.N) : (iblk1 V c 4 t : S1024x64.Idx → Elt F .f32) = V c main_arg5 := by
  obtain ⟨-, ⟨e0, e1⟩, -⟩ := idx_fixed t
  funext x
  unfold iblk1
  rw [View.read_apply]
  show V c main_arg5 _ = V c main_arg5 _
  congr 1
  funext a
  apply Fin.ext
  match a with
  | ⟨0, _⟩ => show win1_4.index t 0 * 1024 + 1 * (x 0).val = (x 0).val; rw [e0]; omega
  | ⟨1, _⟩ => show win1_4.index t 1 * 64 + 1 * (x 1).val = (x 1).val; rw [e1]; omega
theorem iblk1_5_eq (c : Dev nD) (t : Fin cfg1.N) : (iblk1 V c 5 t : S1024x1024.Idx → Elt F .i32) = V c main_v7 := by
  obtain ⟨-, -, ⟨e0, e1⟩, -⟩ := idx_fixed t
  funext x
  unfold iblk1
  rw [View.read_apply]
  show V c main_v7 _ = V c main_v7 _
  congr 1
  funext a
  apply Fin.ext
  match a with
  | ⟨0, _⟩ => show win1_5.index t 0 * 1024 + 1 * (x 0).val = (x 0).val; rw [e0]; omega
  | ⟨1, _⟩ => show win1_5.index t 1 * 1024 + 1 * (x 1).val = (x 1).val; rw [e1]; omega
theorem iblk1_6_eq (c : Dev nD) (t : Fin cfg1.N) : (iblk1 V c 6 t : S1x64.Idx → Elt F .f32) = V c main_v5 := by
  obtain ⟨-, -, -, ⟨e0, e1⟩, -⟩ := idx_fixed t
  funext x
  unfold iblk1
  rw [View.read_apply]
  show V c main_v5 _ = V c main_v5 _
  congr 1
  funext a
  apply Fin.ext
  match a with
  | ⟨0, _⟩ => show win1_6.index t 0 * 1 + 1 * (x 0).val = (x 0).val; rw [e0]; omega
  | ⟨1, _⟩ => show win1_6.index t 1 * 64 + 1 * (x 1).val = (x 1).val; rw [e1]; omega
theorem iblk1_7_eq (c : Dev nD) (t : Fin cfg1.N) : (iblk1 V c 7 t : S1x64.Idx → Elt F .f32) = V c main_v6 := by
  obtain ⟨-, -, -, -, ⟨e0, e1⟩⟩ := idx_fixed t
  funext x
  unfold iblk1
  rw [View.read_apply]
  show V c main_v6 _ = V c main_v6 _
  congr 1
  funext a
  apply Fin.ext
  match a with
  | ⟨0, _⟩ => show win1_7.index t 0 * 1 + 1 * (x 0).val = (x 0).val; rw [e0]; omega
  | ⟨1, _⟩ => show win1_7.index t 1 * 64 + 1 * (x 1).val = (x 1).val; rw [e1]; omega

theorem hz : (![0, 0] : Fin 2 → Nat) = fun _ => 0 := funext fun a => by fin_cases a <;> rfl

/-- What grid point `t'` stores at row `p`, column `q` of its block. -/
def stored (c : Dev nD) (t' : Fin cfg1.N) (p : Fin 1024) (q : Fin 512) : Elt F .f32 :=
  blockOut (iblk1 V c 0 t') (iblk1 V c 1 t') (iblk1 V c 2 t') (iblk1 V c 3 t') (iblk1 V c 4 t')
    (iblk1 V c 5 t') (iblk1 V c 6 t') (iblk1 V c 7 t') (ix2 p q)

theorem stored_congr (c : Dev nD) {t t' : Fin cfg1.N} (ht : t' = t) {p p' : Fin 1024} (hp : p' = p)
    {q q' : Fin 512} (hq : q' = q) : stored V c t' p' q' = stored V c t p q := by
  subst ht; subst hp; subst hq; rfl

/-- The result array as one function of its index: column `n` holds what point `n / 512` stores at column `n % 512`. -/
def G (c : Dev nD) : S1024x2048.Idx → Elt F .f32 := fun j =>
  stored V c (pt ⟨(j 1).val / 512, by have : (j 1).val < 2048 := (j 1).isLt; omega⟩) ⟨(j 0).val, (j 0).isLt⟩
    ⟨(j 1).val % 512, Nat.mod_lt _ (by decide)⟩

/-- What point `t` writes back is its block of `G`. -/
theorem flushed_eq (c : Dev nD) (t : Fin cfg1.N) :
    (dat1 V c).flushed 8 t = ((cfg1.win 8).blk t).view.read (Elt F) (G V c) := by
  obtain ⟨-, -, -, e0, e1⟩ := idx_moving t
  show (cfg1.win 8).cut (grid1.coords t) ((dat1 V c).after 8 t) = _
  rw [after1_8]
  unfold out1_8
  rw [View.canon_unit_zero hz]
  funext y
  obtain ⟨p, q, rfl⟩ : ∃ (p : Fin 1024) (q : Fin 512), y = ix2 p q := ⟨y 0, y 1, eq_ix2 y⟩
  rw [View.read_apply]
  show stored V c t p q = G V c _
  unfold G
  refine (stored_congr V c ?_ ?_ ?_).symm
  · apply Fin.ext
    show (win1_8.index t 1 * 512 + 1 * q.val) / 512 = t.val
    rw [e1]; have := q.isLt; omega
  · apply Fin.ext
    show win1_8.index t 0 * 1024 + 1 * p.val = p.val
    rw [e0]; omega
  · apply Fin.ext
    show (win1_8.index t 1 * 512 + 1 * q.val) % 512 = q.val
    rw [e1]; have := q.isLt; omega

/-- After the second call, columns `512 i …` of its result array are what grid point `i` stored: the stored block of
    the eight operand blocks at that point. -/
theorem final1 (c : Dev nD) (i : Fin 4) (t : Fin 1024) (cc : Fin 512) :
    ((dat1 V c).arrAt 8 cfg1.N : S1024x2048.Idx → Elt F .f32) (ix2 t (colQ i cc))
      = blockOut (iblk1 V c 0 (pt i)) (iblk1 V c 1 (pt i)) (iblk1 V c 2 (pt i)) (iblk1 V c 3 (pt i)) (iblk1 V c 4 (pt i))
          (iblk1 V c 5 (pt i)) (iblk1 V c 6 (pt i)) (iblk1 V c 7 (pt i)) (ix2 t cc) := by
  obtain ⟨-, -, -, e0, e1⟩ := idx_moving (pt i)
  have hmem : (ix2 t (colQ i cc) : S1024x2048.Idx) ∈ ((cfg1.win 8).blk (pt i)).view.set := by
    show _ ∈ ((View.whole main_v8).slice (win1_8.rect (pt i))).set
    rw [View.set_slice_whole, Rect.mem_set_unit]
    intro a
    match a with
    | ⟨0, _⟩ =>
      show win1_8.index (pt i) 0 * 1024 ≤ t.val ∧ t.val < win1_8.index (pt i) 0 * 1024 + 1024
      rw [e0]; have := t.isLt; omega
    | ⟨1, _⟩ =>
      show win1_8.index (pt i) 1 * 512 ≤ 512 * i.val + cc.val ∧ 512 * i.val + cc.val < win1_8.index (pt i) 1 * 512 + 512
      rw [e1]; show i.val * 512 ≤ _ ∧ _ < i.val * 512 + 512; have := cc.isLt; omega
  refine ((dat1 V c).arrAt_apply_of_mem 8 (G V c) (fun t' _ => flushed_eq V c t') cfg1.N (pt i) _ (pt i).isLt
    (flush1_8 (pt i)) hmem).trans ?_
  show stored V c _ _ _ = stored V c (pt i) t cc
  refine stored_congr V c ?_ ?_ ?_
  · apply Fin.ext
    show (512 * i.val + cc.val) / 512 = i.val
    have := cc.isLt; omega
  · rfl
  · apply Fin.ext
    show (512 * i.val + cc.val) % 512 = cc.val
    have := cc.isLt; omega

end Cert.KernelIdeal.FinalAttn

end
-- ==== Proof.IHead.lean ====
/-
  One attention head of the second call as two pure functions of blocks, at any float instance, and the stored block
  as the eight heads side by side.

  `normRope`: a 1024 x 64 block is RMS-normalised row by row (the row's mean square plus a small constant, inverse
  square root), scaled by a 64-wide weight, and rotated: the row swapped half for half (a rotation of the 64 lanes by
  32) times the sign vector (-1 on the first half, 1 on the second) times sin, plus the row times cos.
  `headF`: the scores of a normalised query block against a normalised key block (contracting the 64 lanes), scaled by
  1/8, sent to -∞ where the mask bit is set, soft-maxed along each row (row maximum subtracted, exponential, divided by
  the row sum) and applied to the value block.
-/
import proofs.«411685_j48395691491520_3_alg».proof.Proof.IAttn

set_option maxRecDepth 65536

noncomputable section

namespace Cert.KernelIdeal.Hand

open Cert.KernelIdeal Cert.KernelIdeal.Gen
open Idealize.ShloMosaic Idealize.ShloMosaic.TcCoe Idealize.SL.Sem

variable {F : FTy → Type} [FloatOps F]

/-- The sign vector of the rotation: -1 on lanes below 32, 1 on the others. -/
def sgn : FVec F S1x64 .f32 :=
  select (cmpi .slt (iota .tc S1x64 32 [1] iota_S1x64_d1_w32) (broadcast S1x64 32#32))
    (broadcast S1x64 (Scalar.ofBits .f32 0xBF800000#32)) (broadcast S1x64 (Scalar.ofBits .f32 0x3F800000#32))

/-- Normalise, weight and rotate a 1024 x 64 block. -/
def normRope (cos sin : Vec F S1024x64 .f32) (w : FVec F S1x64 .f32) (x : FVec F S1024x64 .f32) : FVec F S1024x64 .f32 :=
  have ss : FVec F S1024 .f32 := multiReduction .add [1] S1024 (mulf x x) 0x00000000#32 reduces_S1024x64_S1024 (.inl rfl) rfl
  have ms : FVec F S1024x1 .f32 := divf (shapeCast S1024x1 ss shapeCasts_S1024_S1024x1) (broadcast S1024x1 (Scalar.ofBits .f32 0x42800000#32))
  have inv : FVec F S1024x1 .f32 := rsqrt (addf ms (broadcast S1024x1 (Scalar.ofBits .f32 0x358637BD#32)))
  have xn : FVec F S1024x64 .f32 := mulf (mulf x (broadcastTo S1024x64 inv broadcasts_S1024x1_S1024x64)) (broadcastTo S1024x64 w broadcasts_S1x64_S1024x64)
  have rt : FVec F S1024x64 .f32 := mulf (dynamicRotate 1 32#32 none xn rotates_S1024x64_d1) (broadcastTo S1024x64 (sgn (F := F)) broadcasts_S1x64_S1024x64)
  addf (mulf xn cos) (mulf rt sin)

/-- The soft-maxed, masked scores of a query block against a key block. -/
def probs (msk : IVec S1024x1024 1) (qn kn : FVec F S1024x64 .f32) : FVec F S1024x1024 .f32 :=
  have sc : FVec F S1024x1024 .f32 := mulf (matmul dot_S1024x64_S1024x64_S1024x1024_1_1_0_0_n_n none (truncf .bf16 qn bitsLt_bf16_f32) (truncf .bf16 kn bitsLt_bf16_f32) (constant S1024x1024 .f32 0x00000000#32))
    (broadcast S1024x1024 (Scalar.ofBits .f32 0x3E000000#32))
  have sm : FVec F S1024x1024 .f32 := select msk (broadcast S1024x1024 (Scalar.ofBits .f32 0xFF800000#32)) sc
  have mx : FVec F S1024 .f32 := multiReduction .maximumf [1] S1024 sm 0xFF800000#32 reduces_S1024x1024_S1024 (.inl rfl) rfl
  have ex : FVec F S1024x1024 .f32 := exp (subf sm (broadcastTo S1024x1024 (shapeCast S1024x1 mx shapeCasts_S1024_S1024x1) broadcasts_S1024x1_S1024x1024))
  have sx : FVec F S1024 .f32 := multiReduction .add [1] S1024 ex 0x00000000#32 reduces_S1024x1024_S1024 (.inl rfl) rfl
  divf ex (broadcastTo S1024x1024 (shapeCast S1024x1 sx shapeCasts_S1024_S1024x1) broadcasts_S1024x1_S1024x1024)

/-- One head: the probabilities applied to the value block. -/
def headF (msk : IVec S1024x1024 1) (qn kn v : FVec F S1024x64 .f32) : FVec F S1024x64 .f32 :=
  matmul dot_S1024x1024_S1024x64_S1024x64_1_0_0_1_n_n none (truncf .bf16 (probs msk qn kn) bitsLt_bf16_f32) (truncf .bf16 v bitsLt_bf16_f32) (constant S1024x64 .f32 0x00000000#32)

/-- One head from the loaded slices: `q` a 64-column slice of the query block, `k` / `v` a half of the key / value blocks. -/
def headOfSlices (x3 x4 : Vec F S1024x64 .f32) (x5 : Vec F S1024x1024 .i32) (x6 x7 : Vec F S1x64 .f32)
    (q k v : Vec F S1024x64 .f32) : FVec F S1024x64 .f32 :=
  headF (k1_pay2 (View.ld x5 rmk))
    (normRope (View.ld x3 rcs) (View.ld x4 rcs) (shapeCast S1x64 (View.ld x6 rw) shapeCasts_S1x64_S1x64) (shapeCast S1024x64 q shapeCasts_S1024x64_S1024x64))
    (normRope (View.ld x3 rcs) (View.ld x4 rcs) (shapeCast S1x64 (View.ld x7 rw) shapeCasts_S1x64_S1x64) (shapeCast S1024x64 k shapeCasts_S1024x64_S1024x64))
    (shapeCast S1024x64 v shapeCasts_S1024x64_S1024x64)

/-- The stored block is the eight heads side by side: four query slices against the first key / value half, four against
    the second. -/
theorem blockOut_eq (x0 : Vec F S1024x512 .f32) (x1 x2 : Vec F S1024x128 .f32) (x3 x4 : Vec F S1024x64 .f32)
    (x5 : Vec F S1024x1024 .i32) (x6 x7 : Vec F S1x64 .f32) :
    blockOut x0 x1 x2 x3 x4 x5 x6 x7 =
      concatenate S1024x512 1
        [⟨S1024x256, concatenate S1024x256 1
            [⟨S1024x64, headOfSlices x3 x4 x5 x6 x7 (View.ld x0 rq0) (View.ld x1 rk0) (View.ld x2 rk0)⟩,
             ⟨S1024x64, headOfSlices x3 x4 x5 x6 x7 (View.ld x0 rq1) (View.ld x1 rk0) (View.ld x2 rk0)⟩,
             ⟨S1024x64, headOfSlices x3 x4 x5 x6 x7 (View.ld x0 rq2) (View.ld x1 rk0) (View.ld x2 rk0)⟩,
             ⟨S1024x64, headOfSlices x3 x4 x5 x6 x7 (View.ld x0 rq3) (View.ld x1 rk0) (View.ld x2 rk0)⟩]
            concatenates_S1024x64_S1024x64_S1024x64_S1024x64_S1024x256_d1⟩,
         ⟨S1024x256, concatenate S1024x256 1
            [⟨S1024x64, headOfSlices x3 x4 x5 x6 x7 (View.ld x0 rq4) (View.ld x1 rk1) (View.ld x2 rk1)⟩,
             ⟨S1024x64, headOfSlices x3 x4 x5 x6 x7 (View.ld x0 rq5) (View.ld x1 rk1) (View.ld x2 rk1)⟩,
             ⟨S1024x64, headOfSlices x3 x4 x5 x6 x7 (View.ld x0 rq6) (View.ld x1 rk1) (View.ld x2 rk1)⟩,
             ⟨S1024x64, headOfSlices x3 x4 x5 x6 x7 (View.ld x0 rq7) (View.ld x1 rk1) (View.ld x2 rk1)⟩]
            concatenates_S1024x64_S1024x64_S1024x64_S1024x64_S1024x256_d1⟩]
        concatenates_S1024x256_S1024x256_S1024x512_d1 := rfl

end Cert.KernelIdeal.Hand

end
-- ==== Proof.AttnConcat.lean ====
/-
  The second call's stored 1024 x 512 block, read column by column.

  The body loads the query block through eight unit-stride 1024 x 64 windows at column offsets 0, 64, ..., 448 and the
  key and value blocks through two such windows at offsets 0 and 64.  A unit-stride window at offset c read at row t,
  lane d is the block at row t, column c + d, since the placement of a window's index is offset plus one times the
  coordinate on each axis; so query slice j at (t, d) is the query block at (t, 64 j + d), and half g of a key or value
  block at (t, d) is that block at (t, 64 g + d).

  The stored block is two 256-column blocks side by side, each of them four 64-column heads side by side.  A
  concatenation along the column axis, read at a column, is the piece whose span holds that column, at the column less
  the widths of the pieces before it.  Column 64 j + d therefore lies in the first 256-column block for j < 4 and in the
  second for j ≥ 4 (at column 64 (j % 4) + d of it), and inside that block in the 64-column piece j % 4 at lane d: head j,
  which is query slice j against key / value half j / 4.  The eight values of j are taken one at a time.
-/
import proofs.«411685_j48395691491520_3_alg».proof.Proof.IHead
import Idealize.ShloMosaic.Lib.ValueIdx
import Idealize.ShloMosaic.Lib.ValueLayout
import Idealize.ShloMosaic.Lib.Pipeline.Value

set_option maxRecDepth 16384

noncomputable section

namespace Cert.KernelIdeal.AttnConcat

open Cert.KernelIdeal Cert.KernelIdeal.Gen Cert.KernelIdeal.Hand
open Idealize.ShloMosaic Idealize.ShloMosaic.TcCoe Idealize.ShloMosaic.ValueIdx

variable {F : FTy → Type} [FloatOps F]

/-- Column `64 * j + d` of a 512-wide block, and of a 128-wide block. -/
abbrev col512 (j : Fin 8) (d : Fin 64) : Fin 512 := ⟨64 * j.val + d.val, by have := j.isLt; have := d.isLt; omega⟩
abbrev col128 (g : Fin 2) (d : Fin 64) : Fin 128 := ⟨64 * g.val + d.val, by have := g.isLt; have := d.isLt; omega⟩

/-- The eight query slices and the two key / value halves as the body loads them, by number. -/
def qSlice (x0 : Vec F S1024x512 .f32) : Fin 8 → Vec F S1024x64 .f32
  | 0 => View.ld x0 rq0 | 1 => View.ld x0 rq1 | 2 => View.ld x0 rq2 | 3 => View.ld x0 rq3
  | 4 => View.ld x0 rq4 | 5 => View.ld x0 rq5 | 6 => View.ld x0 rq6 | 7 => View.ld x0 rq7
def kSlice (x1 : Vec F S1024x128 .f32) : Fin 2 → Vec F S1024x64 .f32
  | 0 => View.ld x1 rk0 | 1 => View.ld x1 rk1

/-- A load through a rectangle reads the buffer at the index whose coordinates are those of the rectangle's placement. -/
theorem ld_eq_of_coords {S : Shape} (X : Vec F S .f32) (r : Rect S) (x : r.shape.Idx) (i : S.Idx)
    (h : ∀ a, (r.idx x a).val = (i a).val) : View.ld X r x = X i :=
  congrArg X (funext fun a => Fin.ext (h a))

/-- A 1024 x 64 unit-stride window at column offset `c` of a 1024 x `n` block, read at row `t`, lane `d`: the block at
    row `t`, column `c + d` (offset plus stride one times the coordinate, on each axis). -/
theorem ld_window_apply {n : Nat} (X : Vec F (⟨2, ![1024, n]⟩ : Shape) .f32) (c : Nat)
    (inb : ∀ a, (![0, c] : Fin 2 → Nat) a + S1024x64.size a ≤ (⟨2, ![1024, n]⟩ : Shape).size a)
    (t : Fin 1024) (d : Fin 64) (hc : c + d.val < n) :
    View.ld X (Rect.unit (s := (⟨2, ![1024, n]⟩ : Shape)) ![0, c] S1024x64.size inb) (ix2 t d) = X (ix2 t ⟨c + d.val, hc⟩) := by
  refine ld_eq_of_coords X _ _ _ fun a => ?_
  match a with
  | ⟨0, _⟩ =>
    simp only [LoadRect.idx_apply, Rect.off_unit, Rect.stride_unit, Nat.one_mul]
    show 0 + t.val = t.val
    omega
  | ⟨1, _⟩ =>
    simp only [LoadRect.idx_apply, Rect.off_unit, Rect.stride_unit, Nat.one_mul]
    rfl

/-- Query slice `j` reads columns `64 j …` of the block; key / value half `g`, columns `64 g …`. -/
theorem qSlice_apply (x0 : Vec F S1024x512 .f32) (j : Fin 8) (t : Fin 1024) (d : Fin 64) :
    qSlice x0 j (ix2 t d) = x0 (ix2 t (col512 j d)) := by
  have hd := d.isLt
  match j with
  | ⟨0, _⟩ => exact (ld_window_apply x0 0 _ t d (by omega)).trans (congrArg (fun c => x0 (ix2 t c)) (Fin.ext (by show 0 + d.val = 64 * 0 + d.val; omega)))
  | ⟨1, _⟩ => exact (ld_window_apply x0 64 _ t d (by omega)).trans (congrArg (fun c => x0 (ix2 t c)) (Fin.ext (by show 64 + d.val = 64 * 1 + d.val; omega)))
  | ⟨2, _⟩ => exact (ld_window_apply x0 128 _ t d (by omega)).trans (congrArg (fun c => x0 (ix2 t c)) (Fin.ext (by show 128 + d.val = 64 * 2 + d.val; omega)))
  | ⟨3, _⟩ => exact (ld_window_apply x0 192 _ t d (by omega)).trans (congrArg (fun c => x0 (ix2 t c)) (Fin.ext (by show 192 + d.val = 64 * 3 + d.val; omega)))
  | ⟨4, _⟩ => exact (ld_window_apply x0 256 _ t d (by omega)).trans (congrArg (fun c => x0 (ix2 t c)) (Fin.ext (by show 256 + d.val = 64 * 4 + d.val; omega)))
  | ⟨5, _⟩ => exact (ld_window_apply x0 320 _ t d (by omega)).trans (congrArg (fun c => x0 (ix2 t c)) (Fin.ext (by show 320 + d.val = 64 * 5 + d.val; omega)))
  | ⟨6, _⟩ => exact (ld_window_apply x0 384 _ t d (by omega)).trans (congrArg (fun c => x0 (ix2 t c)) (Fin.ext (by show 384 + d.val = 64 * 6 + d.val; omega)))
  | ⟨7, _⟩ => exact (ld_window_apply x0 448 _ t d (by omega)).trans (congrArg (fun c => x0 (ix2 t c)) (Fin.ext (by show 448 + d.val = 64 * 7 + d.val; omega)))
theorem kSlice_apply (x1 : Vec F S1024x128 .f32) (g : Fin 2) (t : Fin 1024) (d : Fin 64) :
    kSlice x1 g (ix2 t d) = x1 (ix2 t (col128 g d)) := by
  have hd := d.isLt
  match g with
  | ⟨0, _⟩ => exact (ld_window_apply x1 0 _ t d (by omega)).trans (congrArg (fun c => x1 (ix2 t c)) (Fin.ext (by show 0 + d.val = 64 * 0 + d.val; omega)))
  | ⟨1, _⟩ => exact (ld_window_apply x1 64 _ t d (by omega)).trans (congrArg (fun c => x1 (ix2 t c)) (Fin.ext (by show 64 + d.val = 64 * 1 + d.val; omega)))

/-- Two 256-column blocks side by side, read in the first block. -/
theorem concat2_left (A B : FVec F S1024x256 .f32) (t : Fin 1024) (c : Fin 256) (c' : Fin 512) (h : c'.val = c.val) :
    concatenate S1024x512 1 [⟨S1024x256, A⟩, ⟨S1024x256, B⟩] concatenates_S1024x256_S1024x256_S1024x512_d1 (ix2 t c')
      = A (ix2 t c) := by
  refine concatenate_pair_apply_left 1 A B _ (ix2 t c') rfl (ix2 t c) fun b => ?_
  match b with
  | ⟨0, _⟩ => rfl
  | ⟨1, _⟩ => exact h.symm

/-- Two 256-column blocks side by side, read in the second block: column `256 + c` is the second block's column `c`. -/
theorem concat2_right (A B : FVec F S1024x256 .f32) (t : Fin 1024) (c : Fin 256) (c' : Fin 512) (h : c'.val = c.val + 256) :
    concatenate S1024x512 1 [⟨S1024x256, A⟩, ⟨S1024x256, B⟩] concatenates_S1024x256_S1024x256_S1024x512_d1 (ix2 t c')
      = B (ix2 t c) := by
  refine concatenate_pair_apply_right 1 A B _ (ix2 t c') rfl rfl (ix2 t c) (fun b => ?_) ?_
  · match b with
    | ⟨0, _⟩ => exact fun _ => rfl
    | ⟨1, _⟩ => exact fun hne => absurd rfl hne
  · exact h.symm

/-- Off the column axis an index of a 64-column piece and an index of the 256-column block with the same row agree. -/
theorem off_axis_256 (t : Fin 1024) (d : Fin 64) (c : Fin 256) :
    ∀ b : Fin S1024x64.rank, b.cast (rfl : S1024x64.rank = S1024x256.rank) ≠ (1 : Fin S1024x256.rank) →
      ((ix2 t d : S1024x64.Idx) b).val = ((ix2 t c : S1024x256.Idx) (b.cast rfl)).val := fun b =>
  match b with
  | ⟨0, _⟩ => fun _ => rfl
  | ⟨1, _⟩ => fun hne => absurd rfl hne

/-- Four 64-column blocks side by side, read in block 0: column `0 + d` is that block's column `d` (the blocks
    before it take up 0 columns). -/
theorem concat4_0 (h0 h1 h2 h3 : FVec F S1024x64 .f32) (t : Fin 1024) (d : Fin 64) (c : Fin 256)
    (h : c.val = 0 + d.val) :
    concatenate S1024x256 1 [⟨S1024x64, h0⟩, ⟨S1024x64, h1⟩, ⟨S1024x64, h2⟩, ⟨S1024x64, h3⟩]
        concatenates_S1024x64_S1024x64_S1024x64_S1024x64_S1024x256_d1 (ix2 t c)
      = h0 (ix2 t d) :=
  concatenate_apply_piece 1 _ _ (ix2 t c) 0 (by show 0 < 4; omega) S1024x64 h0 rfl rfl 0 rfl (ix2 t d)
    (off_axis_256 t d c) (by show 0 + d.val = c.val; omega)

/-- Four 64-column blocks side by side, read in block 1: column `64 + d` is that block's column `d` (the blocks
    before it take up 64 columns). -/
theorem concat4_1 (h0 h1 h2 h3 : FVec F S1024x64 .f32) (t : Fin 1024) (d : Fin 64) (c : Fin 256)
    (h : c.val = 64 + d.val) :
    concatenate S1024x256 1 [⟨S1024x64, h0⟩, ⟨S1024x64, h1⟩, ⟨S1024x64, h2⟩, ⟨S1024x64, h3⟩]
        concatenates_S1024x64_S1024x64_S1024x64_S1024x64_S1024x256_d1 (ix2 t c)
      = h1 (ix2 t d) :=
  concatenate_apply_piece 1 _ _ (ix2 t c) 1 (by show 1 < 4; omega) S1024x64 h1 rfl rfl 64 rfl (ix2 t d)
    (off_axis_256 t d c) (by show 64 + d.val = c.val; omega)

/-- Four 64-column blocks side by side, read in block 2: column `128 + d` is that block's column `d` (the blocks
    before it take up 128 columns). -/
theorem concat4_2 (h0 h1 h2 h3 : FVec F S1024x64 .f32) (t : Fin 1024) (d : Fin 64) (c : Fin 256)
    (h : c.val = 128 + d.val) :
    concatenate S1024x256 1 [⟨S1024x64, h0⟩, ⟨S1024x64, h1⟩, ⟨S1024x64, h2⟩, ⟨S1024x64, h3⟩]
        concatenates_S1024x64_S1024x64_S1024x64_S1024x64_S1024x256_d1 (ix2 t c)
      = h2 (ix2 t d) :=
  concatenate_apply_piece 1 _ _ (ix2 t c) 2 (by show 2 < 4; omega) S1024x64 h2 rfl rfl 128 rfl (ix2 t d)
    (off_axis_256 t d c) (by show 128 + d.val = c.val; omega)

/-- Four 64-column blocks side by side, read in block 3: column `192 + d` is that block's column `d` (the blocks
    before it take up 192 columns). -/
theorem concat4_3 (h0 h1 h2 h3 : FVec F S1024x64 .f32) (t : Fin 1024) (d : Fin 64) (c : Fin 256)
    (h : c.val = 192 + d.val) :
    concatenate S1024x256 1 [⟨S1024x64, h0⟩, ⟨S1024x64, h1⟩, ⟨S1024x64, h2⟩, ⟨S1024x64, h3⟩]
        concatenates_S1024x64_S1024x64_S1024x64_S1024x64_S1024x256_d1 (ix2 t c)
      = h3 (ix2 t d) :=
  concatenate_apply_piece 1 _ _ (ix2 t c) 3 (by show 3 < 4; omega) S1024x64 h3 rfl rfl 192 rfl (ix2 t d)
    (off_axis_256 t d c) (by show 192 + d.val = c.val; omega)

/-- The stored block at row `t`, column `64 j + d`, with the key / value half named by its number `g = j / 4`: the outer
    pair of 256-column blocks is read in its first block for `j < 4` and in its second for `j ≥ 4`, and the inner four
    64-column blocks in block `j % 4`. -/
theorem blockOut_col_half (x0 : Vec F S1024x512 .f32) (x1 x2 : Vec F S1024x128 .f32) (x3 x4 : Vec F S1024x64 .f32)
    (x5 : Vec F S1024x1024 .i32) (x6 x7 : Vec F S1x64 .f32) (t : Fin 1024) (j : Fin 8) (g : Fin 2)
    (hg : g.val = j.val / 4) (d : Fin 64) :
    blockOut x0 x1 x2 x3 x4 x5 x6 x7 (ix2 t (col512 j d))
      = headOfSlices x3 x4 x5 x6 x7 (qSlice x0 j) (kSlice x1 g) (kSlice x2 g) (ix2 t d) := by
  have hd := d.isLt
  refine (congrFun (blockOut_eq x0 x1 x2 x3 x4 x5 x6 x7) _).trans ?_
  match j, hg with
  | ⟨0, _⟩, hg =>
    obtain rfl : g = ⟨0, Nat.zero_lt_two⟩ := Fin.ext (hg.trans (by show 0 / 4 = 0; omega))
    exact (concat2_left _ _ t ⟨0 + d.val, by omega⟩ _ (by show 64 * 0 + d.val = 0 + d.val; omega)).trans
      (concat4_0 _ _ _ _ t d _ rfl)
  | ⟨1, _⟩, hg =>
    obtain rfl : g = ⟨0, Nat.zero_lt_two⟩ := Fin.ext (hg.trans (by show 1 / 4 = 0; omega))
    exact (concat2_left _ _ t ⟨64 + d.val, by omega⟩ _ (by show 64 * 1 + d.val = 64 + d.val; omega)).trans
      (concat4_1 _ _ _ _ t d _ rfl)
  | ⟨2, _⟩, hg =>
    obtain rfl : g = ⟨0, Nat.zero_lt_two⟩ := Fin.ext (hg.trans (by show 2 / 4 = 0; omega))
    exact (concat2_left _ _ t ⟨128 + d.val, by omega⟩ _ (by show 64 * 2 + d.val = 128 + d.val; omega)).trans
      (concat4_2 _ _ _ _ t d _ rfl)
  | ⟨3, _⟩, hg =>
    obtain rfl : g = ⟨0, Nat.zero_lt_two⟩ := Fin.ext (hg.trans (by show 3 / 4 = 0; omega))
    exact (concat2_left _ _ t ⟨192 + d.val, by omega⟩ _ (by show 64 * 3 + d.val = 192 + d.val; omega)).trans
      (concat4_3 _ _ _ _ t d _ rfl)
  | ⟨4, _⟩, hg =>
    obtain rfl : g = ⟨1, Nat.one_lt_two⟩ := Fin.ext (hg.trans (by show 4 / 4 = 1; omega))
    exact (concat2_right _ _ t ⟨0 + d.val, by omega⟩ _ (by show 64 * 4 + d.val = 0 + d.val + 256; omega)).trans
      (concat4_0 _ _ _ _ t d _ rfl)
  | ⟨5, _⟩, hg =>
    obtain rfl : g = ⟨1, Nat.one_lt_two⟩ := Fin.ext (hg.trans (by show 5 / 4 = 1; omega))
    exact (concat2_right _ _ t ⟨64 + d.val, by omega⟩ _ (by show 64 * 5 + d.val = 64 + d.val + 256; omega)).trans
      (concat4_1 _ _ _ _ t d _ rfl)
  | ⟨6, _⟩, hg =>
    obtain rfl : g = ⟨1, Nat.one_lt_two⟩ := Fin.ext (hg.trans (by show 6 / 4 = 1; omega))
    exact (concat2_right _ _ t ⟨128 + d.val, by omega⟩ _ (by show 64 * 6 + d.val = 128 + d.val + 256; omega)).trans
      (concat4_2 _ _ _ _ t d _ rfl)
  | ⟨7, _⟩, hg =>
    obtain rfl : g = ⟨1, Nat.one_lt_two⟩ := Fin.ext (hg.trans (by show 7 / 4 = 1; omega))
    exact (concat2_right _ _ t ⟨192 + d.val, by omega⟩ _ (by show 64 * 7 + d.val = 192 + d.val + 256; omega)).trans
      (concat4_3 _ _ _ _ t d _ rfl)

/-- The stored block at row `t`, column `64 j + d` is head `j` (query slice `j` against key / value half `j / 4`) at row `t`, lane `d`. -/
theorem blockOut_col (x0 : Vec F S1024x512 .f32) (x1 x2 : Vec F S1024x128 .f32) (x3 x4 : Vec F S1024x64 .f32)
    (x5 : Vec F S1024x1024 .i32) (x6 x7 : Vec F S1x64 .f32) (t : Fin 1024) (j : Fin 8) (d : Fin 64) :
    blockOut x0 x1 x2 x3 x4 x5 x6 x7 (ix2 t (col512 j d))
      = headOfSlices x3 x4 x5 x6 x7 (qSlice x0 j) (kSlice x1 ⟨j.val / 4, by have := j.isLt; omega⟩)
          (kSlice x2 ⟨j.val / 4, by have := j.isLt; omega⟩) (ix2 t d) := by
  exact blockOut_col_half x0 x1 x2 x3 x4 x5 x6 x7 t j _ rfl d

end Cert.KernelIdeal.AttnConcat

end
-- ==== Proof.HeadValue.lean ====
/-
  One attention head of the idealized second call, read element by element on the extended reals.

  Every vector operation of a head is either pointwise or one of a few index moves: a sum or a maximum along a row, a
  1024-vector viewed as a column, a column or a row repeated across a block, a rotation of the 64 lanes by 32, and two
  contractions over one axis.  Each index move gets one lemma at explicit coordinates `(t, d)`; with them the
  normalised, weighted, rotated block at `(t, d)` is `rope (rms (x t) w) (cos t) (sin t) d` (the rotated lane is lane
  `d + 32` negated below lane 32 and lane `d - 32` from lane 32 on, because the sign vector is -1 on the first half and
  1 on the second), the masked scaled scores at `(t, s)` are `score q k msk t s`, their row-wise soft-max is `smax`, and
  the head at `(t, d)` is the sum over `s` of the soft-maxed scores of row `t` times column `d` of the values.
-/
import proofs.«411685_j48395691491520_3_alg».proof.Proof.Spec
import proofs.«411685_j48395691491520_3_alg».proof.Proof.IHead
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.HeadValue

open Cert.KernelIdeal Cert.KernelIdeal.Gen Cert.KernelIdeal.Hand
open Idealize.ShloMosaic Idealize.ShloMosaic.TcCoe Idealize.ShloMosaic.ValueIdx

/-- The lane sum of a 1024 x 64 block at row `t`. -/
theorem rowSum64 (src : FVec Ideal S1024x64 .f32) (t : Fin 1024) :
    multiReduction .add [1] S1024 src 0x00000000#32 reduces_S1024x64_S1024 (.inl rfl) rfl (ix1 t)
      = ∑ k : Fin 64, src (ix2 t k) := by
  refine (Ideal.multiReduction_add_single src 0x00000000#32 reduces_S1024x64_S1024 (.inl rfl) rfl (ix1 t)).trans ?_
  refine Finset.sum_congr rfl fun k _ => congrArg src ?_
  funext a; apply Fin.ext
  match a with
  | ⟨0, _⟩ => rfl
  | ⟨1, _⟩ => rfl

/-- The row sum of a 1024 x 1024 block at row `t`. -/
theorem rowSum1024 (src : FVec Ideal S1024x1024 .f32) (t : Fin 1024) :
    multiReduction .add [1] S1024 src 0x00000000#32 reduces_S1024x1024_S1024 (.inl rfl) rfl (ix1 t)
      = ∑ k : Fin 1024, src (ix2 t k) := by
  refine (Ideal.multiReduction_add_single src 0x00000000#32 reduces_S1024x1024_S1024 (.inl rfl) rfl (ix1 t)).trans ?_
  refine Finset.sum_congr rfl fun k _ => congrArg src ?_
  funext a; apply Fin.ext
  match a with
  | ⟨0, _⟩ => rfl
  | ⟨1, _⟩ => rfl

/-- The row maximum of a 1024 x 1024 block at row `t`: the fold of `max` from -∞ over the row. -/
theorem rowMax1024 (src : FVec Ideal S1024x1024 .f32) (t : Fin 1024) :
    multiReduction .maximumf [1] S1024 src 0xFF800000#32 reduces_S1024x1024_S1024 (.inl rfl) rfl (ix1 t)
      = (Finset.univ : Finset (Fin 1024)).fold max Cert.Spec.cNegInf (fun s => src (ix2 t s)) := by
  refine (Ideal.multiReduction_maximumf_single src 0xFF800000#32 reduces_S1024x1024_S1024 (.inl rfl) rfl (ix1 t)).trans ?_
  have e : (src ∘ (reduces_S1024x1024_S1024).lift (ix1 t)) = fun s : Fin 1024 => src (ix2 t s) := by
    funext k
    refine congrArg src ?_
    funext a; apply Fin.ext
    match a with
    | ⟨0, _⟩ => rfl
    | ⟨1, _⟩ => rfl
  rw [e]
  rfl

/-- A 1024-vector viewed as a 1024 x 1 column reads its row. -/
theorem col_apply {α : Type} (v : S1024.Idx → α) (t : Fin 1024) (z : Fin 1) :
    shapeCast S1024x1 v shapeCasts_S1024_S1024x1 (ix2 t z) = v (ix1 t) := by
  refine shapeCast_apply v shapeCasts_S1024_S1024x1 (ix2 t z) (ix1 t) ?_
  rw [Shape.rowMajor_val_one, Shape.rowMajor_val_two]
  have hz : z.val = 0 := by omega
  show t.val = t.val * 1 + z.val
  omega

/-- A column broadcast along 64 lanes reads its row. -/
theorem bcol64_apply {α : Type} (v : S1024x1.Idx → α) (t : Fin 1024) (d : Fin 64) :
    broadcastTo S1024x64 v broadcasts_S1024x1_S1024x64 (ix2 t d) = v (ix2 t (0 : Fin 1)) :=
  broadcastTo_apply v broadcasts_S1024x1_S1024x64 (ix2 t d) (ix2 t (0 : Fin 1)) (fun a => match a with
    | ⟨0, _⟩ => rfl
    | ⟨1, _⟩ => rfl)

/-- A column broadcast along 1024 lanes reads its row. -/
theorem bcol1024_apply {α : Type} (v : S1024x1.Idx → α) (t : Fin 1024) (s : Fin 1024) :
    broadcastTo S1024x1024 v broadcasts_S1024x1_S1024x1024 (ix2 t s) = v (ix2 t (0 : Fin 1)) :=
  broadcastTo_apply v broadcasts_S1024x1_S1024x1024 (ix2 t s) (ix2 t (0 : Fin 1)) (fun a => match a with
    | ⟨0, _⟩ => rfl
    | ⟨1, _⟩ => rfl)

/-- A 64-wide row broadcast down 1024 rows reads its lane. -/
theorem brow_apply {α : Type} (w : S1x64.Idx → α) (t : Fin 1024) (d : Fin 64) :
    broadcastTo S1024x64 w broadcasts_S1x64_S1024x64 (ix2 t d) = w (ix2 (0 : Fin 1) d) :=
  broadcastTo_apply w broadcasts_S1x64_S1024x64 (ix2 t d) (ix2 (0 : Fin 1) d) (fun a => match a with
    | ⟨0, _⟩ => rfl
    | ⟨1, _⟩ => rfl)

/-- The rotation of the 64 lanes by 32 reads lane `(d + 32) mod 64`. -/
theorem rot_apply {α : Type} (x : S1024x64.Idx → α) (t : Fin 1024) (d : Fin 64) :
    dynamicRotate 1 32#32 none x rotates_S1024x64_d1 (ix2 t d)
      = x (ix2 t (⟨(d.val + 32) % 64, Nat.mod_lt _ (by decide)⟩ : Fin 64)) :=
  dynamicRotate_apply (1 : Fin 2) 32#32 x rotates_S1024x64_d1 (ix2 t d) (ix2 t (⟨(d.val + 32) % 64, Nat.mod_lt _ (by decide)⟩ : Fin 64))
    (fun b => match b with
      | ⟨0, _⟩ => rfl
      | ⟨1, _⟩ => by
        show (d.val + 32) % 64 = (d.val + 64 - (32#32 : BitVec 32).toNat % 64) % 64
        have : (32#32 : BitVec 32).toNat = 32 := rfl
        rw [this]; omega)

/-- The words of -1 and of 1. -/
theorem negOne_word : Ideal.ofBits .f32 0xBF800000#32 = -1 := IdealRules.sign_bit.ideal_negOnePat .f32
theorem one_word : Ideal.ofBits .f32 0x3F800000#32 = 1 := IdealRules.sign_bit.ideal_onePat .f32

/-- A lane number below 64, as a 32-bit word, compared (signed) with 32. -/
theorem lane_slt_32 : ∀ d : Fin 64, IntOp.cmpi .slt (BitVec.ofNat 32 d.val) 32#32 = if d.val < 32 then 1#1 else 0#1 := by
  decide

/-- The sign vector at lane `d`: -1 below lane 32, 1 from lane 32 on. -/
theorem sgn_apply (r : Fin 1) (d : Fin 64) :
    sgn (F := Ideal) (ix2 r d) = if d.val < 32 then (-1 : EReal) else 1 := by
  unfold sgn
  rw [select_apply]
  simp only [broadcast_apply]
  have hi : iota .tc S1x64 32 [1] iota_S1x64_d1_w32 (ix2 r d) = BitVec.ofNat 32 d.val :=
    iota_single_apply .tc S1x64 32 1 iota_S1x64_d1_w32 (ix2 r d)
  have hc : cmpi .slt (iota .tc S1x64 32 [1] iota_S1x64_d1_w32) (broadcast S1x64 32#32) (ix2 r d)
      = IntOp.cmpi .slt (BitVec.ofNat 32 d.val) 32#32 := by
    show IntOp.cmpi .slt (iota .tc S1x64 32 [1] iota_S1x64_d1_w32 (ix2 r d)) 32#32 = _
    rw [hi]
  rw [hc, lane_slt_32 d]
  by_cases h : d.val < 32
  · rw [if_pos h, if_pos h, select_one]; exact negOne_word
  · rw [if_neg h, if_neg h, select_zero]; exact one_word

/-! ### The two contractions read at an index -/

/-- Query times key transposed: the left operand's row is the result's row … -/
theorem qk_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- … its lane the contraction's coordinate … -/
theorem qk_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- … the right operand's row is the result's column … -/
theorem qk_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
/-- … and its lane the contraction's coordinate. -/
theorem qk_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The score product at `(t, s)`: the inner product of row `t` of the left block with row `s` of the right. -/
theorem qk_apply (a b : FVec Ideal S1024x64 .bf16) (t s : Fin 1024) :
    matmul dot_S1024x64_S1024x64_S1024x1024_1_1_0_0_n_n none a b (constant S1024x1024 .f32 0x00000000#32) (ix2 t s)
      = ∑ d : Fin 64, a (ix2 t d) * b (ix2 s d) := by
  simp only [matmul]
  rw [Ideal.matmul_constant_zero_apply,
    ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 t s)
      ((contrEquiv1 dot_S1024x64_S1024x64_S1024x1024_1_1_0_0_n_n 64 rfl rfl).symm k) = ix2 t k := funext fun c => Fin.ext (by
    match c with
    | ⟨0, _⟩ => exact qk_lhs_0 _ _
    | ⟨1, _⟩ => exact (qk_lhs_1 _ _).trans hk)
  have er : dot_S1024x64_S1024x64_S1024x1024_1_1_0_0_n_n.rhsIdx (ix2 t s)
      ((contrEquiv1 dot_S1024x64_S1024x64_S1024x1024_1_1_0_0_n_n 64 rfl rfl).symm k) = ix2 s k := funext fun c => Fin.ext (by
    match c with
    | ⟨0, _⟩ => exact qk_rhs_0 _ _
    | ⟨1, _⟩ => exact (qk_rhs_1 _ _).trans hk)
  rw [el, er]

/-- Probabilities times values: the left operand's row is the result's row … -/
theorem pv_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- … its column the contraction's coordinate … -/
theorem pv_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- … the right operand's row the contraction's coordinate … -/
theorem pv_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- … and its lane the result's lane. -/
theorem pv_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The value product at `(t, d)`: row `t` of the left block against column `d` of the right. -/
theorem pv_apply (p : FVec Ideal S1024x1024 .bf16) (v : FVec Ideal S1024x64 .bf16) (t : Fin 1024) (d : Fin 64) :
    matmul dot_S1024x1024_S1024x64_S1024x64_1_0_0_1_n_n none p v (constant S1024x64 .f32 0x00000000#32) (ix2 t d)
      = ∑ s : Fin 1024, p (ix2 t s) * v (ix2 s d) := by
  simp only [matmul]
  rw [Ideal.matmul_constant_zero_apply,
    ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 t d)
      ((contrEquiv1 dot_S1024x1024_S1024x64_S1024x64_1_0_0_1_n_n 1024 rfl rfl).symm k) = ix2 t k := funext fun c => Fin.ext (by
    match c with
    | ⟨0, _⟩ => exact pv_lhs_0 _ _
    | ⟨1, _⟩ => exact (pv_lhs_1 _ _).trans hk)
  have er : dot_S1024x1024_S1024x64_S1024x64_1_0_0_1_n_n.rhsIdx (ix2 t d)
      ((contrEquiv1 dot_S1024x1024_S1024x64_S1024x64_1_0_0_1_n_n 1024 rfl rfl).symm k) = ix2 k d := funext fun c => Fin.ext (by
    match c with
    | ⟨0, _⟩ => exact (pv_rhs_0 _ _).trans hk
    | ⟨1, _⟩ => exact pv_rhs_1 _ _)
  rw [el, er]

/-! ### Normalise, weight, rotate -/

/-- The normalised, weighted block (before the rotation). -/
def xnF (w : FVec Ideal S1x64 .f32) (x : FVec Ideal S1024x64 .f32) : FVec Ideal S1024x64 .f32 :=
  mulf (mulf x (broadcastTo S1024x64
      (rsqrt (addf (divf (shapeCast S1024x1 (multiReduction .add [1] S1024 (mulf x x) 0x00000000#32 reduces_S1024x64_S1024 (.inl rfl) rfl) shapeCasts_S1024_S1024x1)
          (broadcast S1024x1 (Scalar.ofBits .f32 0x42800000#32)))
        (broadcast S1024x1 (Scalar.ofBits .f32 0x358637BD#32))))
      broadcasts_S1024x1_S1024x64))
    (broadcastTo S1024x64 w broadcasts_S1x64_S1024x64)

theorem normRope_eq (cos sin : Vec Ideal S1024x64 .f32) (w : FVec Ideal S1x64 .f32) (x : FVec Ideal S1024x64 .f32) :
    normRope (F := Ideal) cos sin w x
      = addf (mulf (xnF w x) cos)
          (mulf (mulf (dynamicRotate 1 32#32 none (xnF w x) rotates_S1024x64_d1)
            (broadcastTo S1024x64 (sgn (F := Ideal)) broadcasts_S1x64_S1024x64)) sin) := rfl

/-- The normalised, weighted block at row `t`, lane `d`. -/
theorem xnF_apply (w : FVec Ideal S1x64 .f32) (x : FVec Ideal S1024x64 .f32) (t : Fin 1024) (d : Fin 64) :
    xnF w x (ix2 t d) = Cert.Spec.rms (fun d' => x (ix2 t d')) (fun d' => w (ix2 (0 : Fin 1) d')) d := by
  unfold xnF
  rw [mulf_apply, mulf_apply, bcol64_apply, brow_apply]
  show x (ix2 t d) * Ideal.rsqrt (Ideal.div
      (shapeCast S1024x1 (multiReduction .add [1] S1024 (mulf x x) 0x00000000#32 reduces_S1024x64_S1024 (.inl rfl) rfl) shapeCasts_S1024_S1024x1 (ix2 t (0 : Fin 1)))
      Cert.Spec.c64 + Cert.Spec.ceps) * w (ix2 (0 : Fin 1) d) = _
  rw [col_apply, rowSum64]
  rfl

/-- A normalised, weighted, rotated block read at row `t`, lane `d`. -/
theorem normRope_apply (cos sin : Vec Ideal S1024x64 .f32) (w : FVec Ideal S1x64 .f32) (x : FVec Ideal S1024x64 .f32)
    (t : Fin 1024) (d : Fin 64) :
    normRope (F := Ideal) cos sin w x (ix2 t d)
      = Cert.Spec.rope (Cert.Spec.rms (fun d' => x (ix2 t d')) (fun d' => w (ix2 (0 : Fin 1) d')))
          (fun d' => cos (ix2 t d')) (fun d' => sin (ix2 t d')) d := by
  rw [normRope_eq, addf_apply, mulf_apply, mulf_apply, mulf_apply, rot_apply, brow_apply, sgn_apply, xnF_apply, xnF_apply]
  unfold Cert.Spec.rope Cert.Spec.rot
  by_cases h : d.val < 32
  · rw [if_pos h, dif_pos h, mul_neg, mul_one]
    have e : (⟨(d.val + 32) % 64, Nat.mod_lt _ (by decide)⟩ : Fin 64) = ⟨d.val + 32, by omega⟩ := Fin.ext (by
      show (d.val + 32) % 64 = d.val + 32
      omega)
    rw [e]
  · rw [if_neg h, dif_neg h, mul_one]
    have e : (⟨(d.val + 32) % 64, Nat.mod_lt _ (by decide)⟩ : Fin 64) = ⟨d.val - 32, by omega⟩ := Fin.ext (by
      show (d.val + 32) % 64 = d.val - 32
      have := d.isLt
      omega)
    rw [e]

/-! ### Scores, soft-max, values -/

/-- The masked, scaled scores as a block. -/
def smF (msk : IVec S1024x1024 1) (qn kn : FVec Ideal S1024x64 .f32) : FVec Ideal S1024x1024 .f32 :=
  select msk (broadcast S1024x1024 (Scalar.ofBits .f32 0xFF800000#32))
    (mulf (matmul dot_S1024x64_S1024x64_S1024x1024_1_1_0_0_n_n none (truncf .bf16 qn bitsLt_bf16_f32) (truncf .bf16 kn bitsLt_bf16_f32) (constant S1024x1024 .f32 0x00000000#32))
      (broadcast S1024x1024 (Scalar.ofBits .f32 0x3E000000#32)))

/-- The exponentials of a block's rows, each shifted by its maximum. -/
def exF (sm : FVec Ideal S1024x1024 .f32) : FVec Ideal S1024x1024 .f32 :=
  exp (subf sm (broadcastTo S1024x1024
    (shapeCast S1024x1 (multiReduction .maximumf [1] S1024 sm 0xFF800000#32 reduces_S1024x1024_S1024 (.inl rfl) rfl) shapeCasts_S1024_S1024x1)
    broadcasts_S1024x1_S1024x1024))

theorem probs_eq (msk : IVec S1024x1024 1) (qn kn : FVec Ideal S1024x64 .f32) :
    probs (F := Ideal) msk qn kn
      = divf (exF (smF msk qn kn)) (broadcastTo S1024x1024
          (shapeCast S1024x1 (multiReduction .add [1] S1024 (exF (smF msk qn kn)) 0x00000000#32 reduces_S1024x1024_S1024 (.inl rfl) rfl) shapeCasts_S1024_S1024x1)
          broadcasts_S1024x1_S1024x1024) := rfl

/-- The masked, scaled score at `(t, s)`. -/
theorem smF_apply (msk : IVec S1024x1024 1) (qn kn : FVec Ideal S1024x64 .f32) (t s : Fin 1024) :
    smF msk qn kn (ix2 t s)
      = Cert.Spec.score (fun t' d' => qn (ix2 t' d')) (fun t' d' => kn (ix2 t' d')) (fun t' s' => msk (ix2 t' s')) t s := by
  unfold smF
  rw [select_apply, mulf_apply, qk_apply]
  rfl

/-- A shifted exponential at `(t, s)`. -/
theorem exF_apply (sm : FVec Ideal S1024x1024 .f32) (t s : Fin 1024) :
    exF sm (ix2 t s)
      = Ideal.exp (sm (ix2 t s) - (Finset.univ : Finset (Fin 1024)).fold max Cert.Spec.cNegInf (fun s' => sm (ix2 t s'))) := by
  unfold exF
  show Ideal.exp (subf sm _ (ix2 t s)) = _
  rw [subf_apply, bcol1024_apply, col_apply, rowMax1024]

/-- The soft-maxed masked scores at `(t, s)`. -/
theorem probs_apply (msk : IVec S1024x1024 1) (qn kn : FVec Ideal S1024x64 .f32) (t s : Fin 1024) :
    probs (F := Ideal) msk qn kn (ix2 t s)
      = Cert.Spec.smax (Cert.Spec.score (fun t' d' => qn (ix2 t' d')) (fun t' d' => kn (ix2 t' d'))
          (fun t' s' => msk (ix2 t' s')) t) s := by
  have hrow : (fun s' : Fin 1024 => smF msk qn kn (ix2 t s'))
      = Cert.Spec.score (fun t' d' => qn (ix2 t' d')) (fun t' d' => kn (ix2 t' d')) (fun t' s' => msk (ix2 t' s')) t :=
    funext fun s' => smF_apply msk qn kn t s'
  rw [probs_eq, divf_apply, bcol1024_apply, col_apply, rowSum1024]
  simp only [exF_apply]
  rw [hrow]
  simp only [smF_apply]
  rfl

/-- One head read at row `t`, lane `d`: the soft-maxed masked scores of row `t` applied to column `d` of the values. -/
theorem headF_apply (msk : IVec S1024x1024 1) (qn kn v : FVec Ideal S1024x64 .f32) (t : Fin 1024) (d : Fin 64) :
    headF (F := Ideal) msk qn kn v (ix2 t d)
      = ∑ s : Fin 1024, Cert.Spec.smax (Cert.Spec.score (fun t' d' => qn (ix2 t' d')) (fun t' d' => kn (ix2 t' d'))
          (fun t' s' => msk (ix2 t' s')) t) s * v (ix2 s d) := by
  unfold headF
  rw [pv_apply]
  refine Finset.sum_congr rfl fun s _ => ?_
  rw [truncf_apply, truncf_apply, probs_apply]

/-! ### A head from the loaded slices -/

theorem zeroOff : (![0, 0] : Fin 2 → Nat) = fun _ => 0 := funext fun a => by fin_cases a <;> rfl

/-- A head from the loaded slices is the specification's head of the slices, the tables, the mask bits and the weights. -/
theorem headOfSlices_apply (x3 x4 : Vec Ideal S1024x64 .f32) (x5 : Vec Ideal S1024x1024 .i32) (x6 x7 : Vec Ideal S1x64 .f32)
    (q k v : Vec Ideal S1024x64 .f32) (t : Fin 1024) (d : Fin 64) :
    headOfSlices (F := Ideal) x3 x4 x5 x6 x7 q k v (ix2 t d)
      = Cert.Spec.head (fun t' d' => q (ix2 t' d')) (fun t' d' => k (ix2 t' d')) (fun t' d' => v (ix2 t' d'))
          (fun t' d' => x3 (ix2 t' d')) (fun t' d' => x4 (ix2 t' d'))
          (fun t' s => k1_pay2 (F := Ideal) x5 (ix2 t' s))
          (fun d' => x6 (ix2 (0 : Fin 1) d')) (fun d' => x7 (ix2 (0 : Fin 1) d')) t d := by
  have e3 : View.ld x3 rcs = x3 := View.ld_unit_zero zeroOff inb_S1024x64_S1024x64_0_0 x3
  have e4 : View.ld x4 rcs = x4 := View.ld_unit_zero zeroOff inb_S1024x64_S1024x64_0_0 x4
  have e5 : View.ld x5 rmk = x5 := View.ld_unit_zero zeroOff inb_S1024x1024_S1024x1024_0_0 x5
  have e6 : shapeCast S1x64 (View.ld x6 rw) shapeCasts_S1x64_S1x64 = x6 :=
    (shapeCast_self _ _).trans (View.ld_unit_zero zeroOff inb_S1x64_S1x64_0_0 x6)
  have e7 : shapeCast S1x64 (View.ld x7 rw) shapeCasts_S1x64_S1x64 = x7 :=
    (shapeCast_self _ _).trans (View.ld_unit_zero zeroOff inb_S1x64_S1x64_0_0 x7)
  unfold headOfSlices
  rw [e3, e4, e5, e6, e7, shapeCast_self, shapeCast_self, shapeCast_self, headF_apply]
  have hq : (fun (t' : Fin 1024) (d' : Fin 64) => normRope (F := Ideal) x3 x4 x6 q (ix2 t' d'))
      = Cert.Spec.normed (fun t' d' => q (ix2 t' d')) (fun t' d' => x3 (ix2 t' d')) (fun t' d' => x4 (ix2 t' d'))
          (fun d' => x6 (ix2 (0 : Fin 1) d')) :=
    funext fun t' => funext fun d' => normRope_apply x3 x4 x6 q t' d'
  have hk : (fun (t' : Fin 1024) (d' : Fin 64) => normRope (F := Ideal) x3 x4 x7 k (ix2 t' d'))
      = Cert.Spec.normed (fun t' d' => k (ix2 t' d')) (fun t' d' => x3 (ix2 t' d')) (fun t' d' => x4 (ix2 t' d'))
          (fun d' => x7 (ix2 (0 : Fin 1) d')) :=
    funext fun t' => funext fun d' => normRope_apply x3 x4 x7 k t' d'
  rw [hq, hk]
  rfl

end Cert.KernelIdeal.HeadValue

end
-- ==== Proof.KernelLayer.lean ====
/-
  The kernel's result is the layer of the specification.  The first call's array is the input times the transposed
  stacked weights, so its three column ranges are the query, key and value projections; grid point i of the second call
  holds query heads 8 i … 8 i + 7 (the 64-column slices of its query block) and key / value heads 2 i, 2 i + 1 (the halves
  of its key / value blocks), and column 512 i + 64 j + d of its result is head 8 i + j at lane d, read against key / value
  head 2 i + j / 4 = (8 i + j) / 4; the third call multiplies by the transposed output weights.
-/
import proofs.«411685_j48395691491520_3_alg».proof.Proof.HostRead
import proofs.«411685_j48395691491520_3_alg».proof.Proof.Spec
import proofs.«411685_j48395691491520_3_alg».proof.Proof.FinalProj
import proofs.«411685_j48395691491520_3_alg».proof.Proof.FinalAttn
import proofs.«411685_j48395691491520_3_alg».proof.Proof.AttnConcat
import proofs.«411685_j48395691491520_3_alg».proof.Proof.HeadValue
import Idealize.ShloMosaic.Lib.ValueIdx
import Idealize.ShloMosaic.Lib.Pipeline.Value

set_option maxRecDepth 16384

noncomputable section

namespace Cert.KernelIdeal.Layer

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (mat vec)

variable (m : (ℓ : Loc nD τ sig) → Buf (Elt Ideal) ℓ) (ρ : Dev nD → PrngReg) (c : Dev nD)

/-- A projection depends on its weights through the one row it reads, and on its left operand through the one row it reads. -/
theorem proj_row_congr {M N N' K : ℕ} (x : Fin M → Fin K → EReal) (W : Fin N → Fin K → EReal) (W' : Fin N' → Fin K → EReal)
    (t : Fin M) (n : Fin N) (n' : Fin N') (h : ∀ k, W n k = W' n' k) : Cert.Spec.proj x W t n = Cert.Spec.proj x W' t n' := by
  unfold Cert.Spec.proj
  exact Finset.sum_congr rfl fun k _ => by rw [h k]
theorem proj_left_congr {M N K : ℕ} (x x' : Fin M → Fin K → EReal) (W : Fin N → Fin K → EReal)
    (t : Fin M) (n : Fin N) (h : ∀ k, x t k = x' t k) : Cert.Spec.proj x W t n = Cert.Spec.proj x' W t n := by
  unfold Cert.Spec.proj
  exact Finset.sum_congr rfl fun k _ => by rw [h k]

/-- The three weight matrices, in the order they are stacked. -/
abbrev pieces : List ((s : Shape) × (s.Idx → EReal)) :=
  [⟨S2048x2048, m ((c : Thread nD τ).loc main_arg7)⟩, ⟨S512x2048, m ((c : Thread nD τ).loc main_arg8)⟩, ⟨S512x2048, m ((c : Thread nD τ).loc main_arg9)⟩]

/-- The stacked weights row by row: rows below 2048 are the query weights, the next 512 the key weights, the last 512
    the value weights. -/
theorem stack_q (n : Fin 2048) (k : Fin 2048) :
    (V1 m ρ c main_v0 : S3072x2048.Idx → EReal) (ix2 (⟨n.val, by have := n.isLt; omega⟩ : Fin 3072) k)
      = (m ((c : Thread nD τ).loc main_arg7) : S2048x2048.Idx → EReal) (ix2 n k) := by
  rw [V1_v0]
  refine concatenate_apply_piece (t := S3072x2048) (0 : Fin 2) (pieces m c) Facts₀.concatenates_S2048x2048_S512x2048_S512x2048_S3072x2048_d0 (ix2 (⟨n.val, by have := n.isLt; omega⟩ : Fin 3072) k) 0 (by show (0 : ℕ) < 3; omega) S2048x2048 _ rfl rfl 0 rfl (ix2 n k) (fun b hb => ?_) (by simp)
  match b with
  | ⟨0, _⟩ => exact absurd rfl hb
  | ⟨1, _⟩ => rfl
theorem stack_k (n : Fin 512) (k : Fin 2048) :
    (V1 m ρ c main_v0 : S3072x2048.Idx → EReal) (ix2 (⟨2048 + n.val, by have := n.isLt; omega⟩ : Fin 3072) k)
      = (m ((c : Thread nD τ).loc main_arg8) : S512x2048.Idx → EReal) (ix2 n k) := by
  rw [V1_v0]
  refine concatenate_apply_piece (t := S3072x2048) (0 : Fin 2) (pieces m c) Facts₀.concatenates_S2048x2048_S512x2048_S512x2048_S3072x2048_d0 (ix2 (⟨2048 + n.val, by have := n.isLt; omega⟩ : Fin 3072) k) 1 (by show (1 : ℕ) < 3; omega) S512x2048 _ rfl rfl 2048 rfl (ix2 n k) (fun b hb => ?_) rfl
  match b with
  | ⟨0, _⟩ => exact absurd rfl hb
  | ⟨1, _⟩ => rfl
theorem stack_v (n : Fin 512) (k : Fin 2048) :
    (V1 m ρ c main_v0 : S3072x2048.Idx → EReal) (ix2 (⟨2560 + n.val, by have := n.isLt; omega⟩ : Fin 3072) k)
      = (m ((c : Thread nD τ).loc main_arg9) : S512x2048.Idx → EReal) (ix2 n k) := by
  rw [V1_v0]
  refine concatenate_apply_piece (t := S3072x2048) (0 : Fin 2) (pieces m c) Facts₀.concatenates_S2048x2048_S512x2048_S512x2048_S3072x2048_d0 (ix2 (⟨2560 + n.val, by have := n.isLt; omega⟩ : Fin 3072) k) 2 (by show (2 : ℕ) < 3; omega) S512x2048 _ rfl rfl 2560 rfl (ix2 n k) (fun b hb => ?_) rfl
  match b with
  | ⟨0, _⟩ => exact absurd rfl hb
  | ⟨1, _⟩ => rfl

/-- The first call's result: the input times the transposed stacked weights. -/
theorem qkv_apply (t : Fin 1024) (n : Fin 3072) :
    ((dat0 (V1 m ρ) c).arrAt 2 cfg0.N : S1024x3072.Idx → EReal) (ix2 t n)
      = Cert.Spec.proj (mat (m ((c : Thread nD τ).loc main_arg0) : S1024x2048.Idx → EReal)) (mat (V1 m ρ c main_v0 : S3072x2048.Idx → EReal)) t n := by
  rw [Cert.KernelIdeal.FinalProj.final0 (V1 m ρ) c t n, V1_arg0]

/-- The three projections the second call reads. -/
theorem q_proj (t : Fin 1024) (cq : Fin 2048) :
    (V3 m ρ c main_v2 : S1024x2048.Idx → EReal) (ix2 t cq)
      = Cert.Spec.proj (mat (m ((c : Thread nD τ).loc main_arg0) : S1024x2048.Idx → EReal)) (mat (m ((c : Thread nD τ).loc main_arg7) : S2048x2048.Idx → EReal)) t cq := by
  rw [V3_v2, extractStridedSlice_apply _ _ _ (ix2 t cq) (ix2 t (⟨cq.val, by have := cq.isLt; omega⟩ : Fin 3072))
    (fun a => by match a with | ⟨0, _⟩ => simp | ⟨1, _⟩ => simp), qkv_apply]
  exact proj_row_congr _ _ _ t _ cq fun k => stack_q m ρ c cq k
theorem k_proj (t : Fin 1024) (ck : Fin 512) :
    (V3 m ρ c main_v3 : S1024x512.Idx → EReal) (ix2 t ck)
      = Cert.Spec.proj (mat (m ((c : Thread nD τ).loc main_arg0) : S1024x2048.Idx → EReal)) (mat (m ((c : Thread nD τ).loc main_arg8) : S512x2048.Idx → EReal)) t ck := by
  rw [V3_v3, extractStridedSlice_apply _ _ _ (ix2 t ck) (ix2 t (⟨2048 + ck.val, by have := ck.isLt; omega⟩ : Fin 3072))
    (fun a => by match a with | ⟨0, _⟩ => simp | ⟨1, _⟩ => simp), qkv_apply]
  exact proj_row_congr _ _ _ t _ ck fun k => stack_k m ρ c ck k
theorem v_proj (t : Fin 1024) (ck : Fin 512) :
    (V3 m ρ c main_v4 : S1024x512.Idx → EReal) (ix2 t ck)
      = Cert.Spec.proj (mat (m ((c : Thread nD τ).loc main_arg0) : S1024x2048.Idx → EReal)) (mat (m ((c : Thread nD τ).loc main_arg9) : S512x2048.Idx → EReal)) t ck := by
  rw [V3_v4, extractStridedSlice_apply _ _ _ (ix2 t ck) (ix2 t (⟨2560 + ck.val, by have := ck.isLt; omega⟩ : Fin 3072))
    (fun a => by match a with | ⟨0, _⟩ => simp | ⟨1, _⟩ => simp), qkv_apply]
  exact proj_row_congr _ _ _ t _ ck fun k => stack_v m ρ c ck k

open Cert.KernelIdeal.AttnConcat (col512 col128 qSlice kSlice qSlice_apply kSlice_apply blockOut_col)
open Cert.KernelIdeal.FinalAttn (pt colQ colK)

/-- Query head `8 i + j`, key / value head `2 i + j / 4`: the heads grid point `i` holds at slice `j`. -/
abbrev qh (i : Fin 4) (j : Fin 8) : Fin 32 := ⟨8 * i.val + j.val, by have := i.isLt; have := j.isLt; omega⟩
abbrev kh (i : Fin 4) (j : Fin 8) : Fin 8 := ⟨2 * i.val + j.val / 4, by have := i.isLt; have := j.isLt; omega⟩

/-- The second call's result at row `t`, column `512 i + 64 j + d`: the specification's head of query head `8 i + j`
    against key / value head `2 i + j / 4`, at row `t`, lane `d`. -/
theorem attn_apply (t : Fin 1024) (i : Fin 4) (j : Fin 8) (d : Fin 64) :
    (V4 m ρ c main_v8 : S1024x2048.Idx → EReal) (ix2 t (colQ i (col512 j d)))
      = Cert.Spec.head
          (Cert.Spec.headOf (H := 32) (Cert.Spec.proj (mat (m ((c : Thread nD τ).loc main_arg0) : S1024x2048.Idx → EReal)) (mat (m ((c : Thread nD τ).loc main_arg7) : S2048x2048.Idx → EReal))) (qh i j))
          (Cert.Spec.headOf (H := 8) (Cert.Spec.proj (mat (m ((c : Thread nD τ).loc main_arg0) : S1024x2048.Idx → EReal)) (mat (m ((c : Thread nD τ).loc main_arg8) : S512x2048.Idx → EReal))) (kh i j))
          (Cert.Spec.headOf (H := 8) (Cert.Spec.proj (mat (m ((c : Thread nD τ).loc main_arg0) : S1024x2048.Idx → EReal)) (mat (m ((c : Thread nD τ).loc main_arg9) : S512x2048.Idx → EReal))) (kh i j))
          (mat (m ((c : Thread nD τ).loc main_arg3) : S1024x64.Idx → EReal)) (mat (m ((c : Thread nD τ).loc main_arg5) : S1024x64.Idx → EReal))
          (mat (m ((c : Thread nD τ).loc main_arg2) : S1024x1024.Idx → BitVec 1))
          (vec (m ((c : Thread nD τ).loc main_arg11) : S64.Idx → EReal)) (vec (m ((c : Thread nD τ).loc main_arg12) : S64.Idx → EReal)) t d := by
  rw [V4_v8, Cert.KernelIdeal.FinalAttn.final1 (V3 m ρ) c i t (col512 j d), blockOut_col, Cert.KernelIdeal.HeadValue.headOfSlices_apply]
  have hq : (fun t' d' => qSlice (iblk1 (V3 m ρ) c 0 (pt i)) j (ix2 t' d'))
      = Cert.Spec.headOf (H := 32) (Cert.Spec.proj (mat (m ((c : Thread nD τ).loc main_arg0) : S1024x2048.Idx → EReal)) (mat (m ((c : Thread nD τ).loc main_arg7) : S2048x2048.Idx → EReal))) (qh i j) := by
    funext t' d'
    rw [qSlice_apply, Cert.KernelIdeal.FinalAttn.iblk1_0_apply, q_proj]
    unfold Cert.Spec.headOf
    congr 1
    exact Fin.ext (by show 512 * i.val + (64 * j.val + d'.val) = (8 * i.val + j.val) * 64 + d'.val; omega)
  have hk : (fun t' d' => kSlice (iblk1 (V3 m ρ) c 1 (pt i)) ⟨j.val / 4, by have := j.isLt; omega⟩ (ix2 t' d'))
      = Cert.Spec.headOf (H := 8) (Cert.Spec.proj (mat (m ((c : Thread nD τ).loc main_arg0) : S1024x2048.Idx → EReal)) (mat (m ((c : Thread nD τ).loc main_arg8) : S512x2048.Idx → EReal))) (kh i j) := by
    funext t' d'
    rw [kSlice_apply, Cert.KernelIdeal.FinalAttn.iblk1_1_apply, k_proj]
    unfold Cert.Spec.headOf
    congr 1
    exact Fin.ext (by show 128 * i.val + (64 * (j.val / 4) + d'.val) = (2 * i.val + j.val / 4) * 64 + d'.val; omega)
  have hv : (fun t' d' => kSlice (iblk1 (V3 m ρ) c 2 (pt i)) ⟨j.val / 4, by have := j.isLt; omega⟩ (ix2 t' d'))
      = Cert.Spec.headOf (H := 8) (Cert.Spec.proj (mat (m ((c : Thread nD τ).loc main_arg0) : S1024x2048.Idx → EReal)) (mat (m ((c : Thread nD τ).loc main_arg9) : S512x2048.Idx → EReal))) (kh i j) := by
    funext t' d'
    rw [kSlice_apply, Cert.KernelIdeal.FinalAttn.iblk1_2_apply, v_proj]
    unfold Cert.Spec.headOf
    congr 1
    exact Fin.ext (by show 128 * i.val + (64 * (j.val / 4) + d'.val) = (2 * i.val + j.val / 4) * 64 + d'.val; omega)
  have hcos : (fun t' d' => (iblk1 (V3 m ρ) c 3 (pt i) : S1024x64.Idx → EReal) (ix2 t' d')) = mat (m ((c : Thread nD τ).loc main_arg3) : S1024x64.Idx → EReal) := by
    rw [Cert.KernelIdeal.FinalAttn.iblk1_3_eq, V3_arg3]
  have hsin : (fun t' d' => (iblk1 (V3 m ρ) c 4 (pt i) : S1024x64.Idx → EReal) (ix2 t' d')) = mat (m ((c : Thread nD τ).loc main_arg5) : S1024x64.Idx → EReal) := by
    rw [Cert.KernelIdeal.FinalAttn.iblk1_4_eq, V3_arg5]
  have hmsk : (fun t' s => k1_pay2 (F := Ideal) (iblk1 (V3 m ρ) c 5 (pt i)) (ix2 t' s)) = mat (m ((c : Thread nD τ).loc main_arg2) : S1024x1024.Idx → BitVec 1) := by
    rw [Cert.KernelIdeal.FinalAttn.iblk1_5_eq, V3_v7]
    funext t' s
    exact k1_pay2_extui _ _
  have hqw : (fun d' => (iblk1 (V3 m ρ) c 6 (pt i) : S1x64.Idx → EReal) (ix2 (0 : Fin 1) d')) = vec (m ((c : Thread nD τ).loc main_arg11) : S64.Idx → EReal) := by
    rw [Cert.KernelIdeal.FinalAttn.iblk1_6_eq, V3_v5]
    funext d'
    exact row_of_vec _ d'
  have hkw : (fun d' => (iblk1 (V3 m ρ) c 7 (pt i) : S1x64.Idx → EReal) (ix2 (0 : Fin 1) d')) = vec (m ((c : Thread nD τ).loc main_arg12) : S64.Idx → EReal) := by
    rw [Cert.KernelIdeal.FinalAttn.iblk1_7_eq, V3_v6]
    funext d'
    exact row_of_vec _ d'
  rw [hq, hk, hv, hcos, hsin, hmsk, hqw, hkw]

/-- The kernel's result at row `t`, column `n` is the specification's layer. -/
theorem kernel_layer (t : Fin 1024) (n : Fin 2048) :
    ((dat2 (V4 m ρ) c).arrAt 2 cfg2.N : S1024x2048.Idx → EReal) (ix2 t n)
      = Cert.Spec.layer (mat (m ((c : Thread nD τ).loc main_arg0) : S1024x2048.Idx → EReal)) (mat (m ((c : Thread nD τ).loc main_arg7) : S2048x2048.Idx → EReal))
          (mat (m ((c : Thread nD τ).loc main_arg8) : S512x2048.Idx → EReal)) (mat (m ((c : Thread nD τ).loc main_arg9) : S512x2048.Idx → EReal))
          (mat (m ((c : Thread nD τ).loc main_arg10) : S2048x2048.Idx → EReal))
          (mat (m ((c : Thread nD τ).loc main_arg3) : S1024x64.Idx → EReal)) (mat (m ((c : Thread nD τ).loc main_arg5) : S1024x64.Idx → EReal))
          (mat (m ((c : Thread nD τ).loc main_arg2) : S1024x1024.Idx → BitVec 1))
          (vec (m ((c : Thread nD τ).loc main_arg11) : S64.Idx → EReal)) (vec (m ((c : Thread nD τ).loc main_arg12) : S64.Idx → EReal)) t n := by
  rw [Cert.KernelIdeal.FinalProj.final2 (V4 m ρ) c t n, V4_arg10]
  unfold Cert.Spec.layer
  refine proj_left_congr _ _ _ t n fun cq => ?_
  -- column cq is slice j of grid point i, lane d
  obtain ⟨i, j, d, rfl⟩ : ∃ (i : Fin 4) (j : Fin 8) (d : Fin 64), cq = colQ i (col512 j d) :=
    ⟨⟨cq.val / 512, by have := cq.isLt; omega⟩, ⟨cq.val % 512 / 64, by omega⟩, ⟨cq.val % 64, by omega⟩, Fin.ext (by show cq.val = 512 * (cq.val / 512) + (64 * (cq.val % 512 / 64) + cq.val % 64); omega)⟩
  show (V4 m ρ c main_v8 : S1024x2048.Idx → EReal) (ix2 t (colQ i (col512 j d))) = _
  rw [attn_apply]
  unfold Cert.Spec.attn
  have h1 : Cert.Spec.hd (H := 32) (colQ i (col512 j d)) = qh i j := Fin.ext (by show (512 * i.val + (64 * j.val + d.val)) / 64 = 8 * i.val + j.val; have := d.isLt; omega)
  have h2 : Cert.Spec.ln (H := 32) (colQ i (col512 j d)) = d := Fin.ext (by show (512 * i.val + (64 * j.val + d.val)) % 64 = d.val; have := d.isLt; omega)
  have h3 : Cert.Spec.kvOf (qh i j) = kh i j := Fin.ext (by show (8 * i.val + j.val) / 4 = 2 * i.val + j.val / 4; omega)
  rw [h1, h2, h3]

end Cert.KernelIdeal.Layer

end
-- ==== Proof.RefQKV.lean ====
/-
  The reference's first sixty stages, read at one head `h`, one token `t` and one lane `d`.

  A projection `x · Wᵀ`, reshaped to (token, head, lane) and transposed to (head, token, lane), reads at (h, t, d) as the
  sum over the shared axis of row `t` of `x` against row `64 h + d` of the weight: the reshape's flat position
  `(32 t + h) · 64 + d` (or `(8 t + g) · 64 + d` for the eight key/value heads) splits back into row `t` and column
  `64 h + d`.  That is all there is to the values.  Queries and keys go on: the 64 squares of a head's lanes are summed from
  zero, divided by 64, shifted by ε and sent through the reciprocal square root; the head times that factor times the
  learned weight is the RMS-normalised head.  Its first and second halves are cut out, the second negated and placed in
  front of the first (lane d < 32 reads -(lane d + 32), lane d ≥ 32 reads lane d - 32); the normalised head times cos
  plus this swapped head times sin is the rotary embedding.  Each stage is read at explicit coordinates and the
  result is the specification's `normed` of the head's projection.  The words of 64 and ε are kept as words; only the
  zero a sum starts from is evaluated.
-/
import proofs.«411685_j48395691491520_3_alg».proof.Proof.Spec
import proofs.«411685_j48395691491520_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefQKV

open Cert.ReferenceIdeal Cert.ReferenceIdeal.Gen Cert.ReferenceIdeal.Read
open Idealize.ShloMosaic Idealize.ShloMosaic.TcCoe Idealize.ShloMosaic.ValueIdx
open Cert.Spec (mat vec)

/-! ### Queries: projection, RMS normalisation, rotary embedding -/

/-- The query projection of head `h`, token `t`, lane `d`: the row of `x` against row `64 h + d` of the weight. -/
theorem v3_at (x0 : S1024x2048.Idx → EReal) (x7 : S2048x2048.Idx → EReal) (h : Fin 32) (t : Fin 1024) (d : Fin 64) :
    val_main_v3 (F := Ideal) x0 x7 (ix3 h t d)
      = ∑ k : Fin 2048, x0 (ix2 t k) * x7 (ix2 (⟨h.val * 64 + d.val, by have := h.isLt; have := d.isLt; omega⟩ : Fin 2048) k) := by
  have e3 : idx_main_v3 (ix3 h t d) = ix3 t h d := funext fun a => Fin.ext (by
    match a with | ⟨0, _⟩ => rfl | ⟨1, _⟩ => rfl | ⟨2, _⟩ => rfl)
  have e2 : idx_main_v2 (ix3 t h d) = ix2 t (⟨h.val * 64 + d.val, by have := h.isLt; have := d.isLt; omega⟩ : Fin 2048) :=
    funext fun a => Fin.ext (by
      have := h.isLt; have := d.isLt; have := t.isLt
      match a with
      | ⟨0, _⟩ => show ((t.val * 32 + h.val) * 64 + d.val) / 2048 = t.val; omega
      | ⟨1, _⟩ => show ((t.val * 32 + h.val) * 64 + d.val) % 2048 = h.val * 64 + d.val; omega)
  rw [val_main_v3_apply, e3, val_main_v2_apply, e2, val_main_v1_apply]
  refine Finset.sum_congr rfl fun k _ => ?_
  have el : lidx_main_v1 (ix2 t (⟨h.val * 64 + d.val, by have := h.isLt; have := d.isLt; omega⟩ : Fin 2048)) k = ix2 t k :=
    funext fun a => Fin.ext (by match a with | ⟨0, _⟩ => rfl | ⟨1, _⟩ => rfl)
  have er : idx_main_v0 (ridx_main_v1 (ix2 t (⟨h.val * 64 + d.val, by have := h.isLt; have := d.isLt; omega⟩ : Fin 2048)) k)
      = ix2 (⟨h.val * 64 + d.val, by have := h.isLt; have := d.isLt; omega⟩ : Fin 2048) k :=
    funext fun a => Fin.ext (by match a with | ⟨0, _⟩ => rfl | ⟨1, _⟩ => rfl)
  rw [val_main_v0_apply, el, er]

/-- The sum of squares of one query head's 64 lanes at one token. -/
theorem v13_at (x0 : S1024x2048.Idx → EReal) (x7 : S2048x2048.Idx → EReal) (h : Fin 32) (t : Fin 1024) :
    val_main_v13 (F := Ideal) x0 x7 (ix2 h t)
      = ∑ j : Fin 64, val_main_v3 (F := Ideal) x0 x7 (ix3 h t j) * val_main_v3 (F := Ideal) x0 x7 (ix3 h t j) := by
  rw [val_main_v13_apply, val_main_cst_apply, Ideal.ofBits_def, Ideal.ofBits_zero_f32, zero_add]
  refine Finset.sum_congr rfl fun k _ => ?_
  have e : idx_main_v13 (ix2 h t) k = ix3 h t k := funext fun a => Fin.ext (by
    match a with | ⟨0, _⟩ => rfl | ⟨1, _⟩ => rfl | ⟨2, _⟩ => rfl)
  rw [e, val_main_v12_apply, Ideal.mulf_def]

/-- The normalising factor of one query head at one token: `rsqrt (mean of squares + ε)`. -/
theorem v19_at (x0 : S1024x2048.Idx → EReal) (x7 : S2048x2048.Idx → EReal) (h : Fin 32) (t : Fin 1024) (z : Fin 1) :
    val_main_v19 (F := Ideal) x0 x7 (ix3 h t z)
      = Ideal.rsqrt (Ideal.div (∑ j : Fin 64, val_main_v3 (F := Ideal) x0 x7 (ix3 h t j) * val_main_v3 (F := Ideal) x0 x7 (ix3 h t j))
          Cert.Spec.c64 + Cert.Spec.ceps) := by
  have e : idx_main_v14 (ix3 h t z) = ix2 h t := funext fun a => Fin.ext (by
    match a with | ⟨0, _⟩ => rfl | ⟨1, _⟩ => rfl)
  rw [val_main_v19_apply, val_main_v18_apply, val_main_v16_apply, val_main_v14_apply, e, v13_at, val_main_v15_apply,
    val_main_v17_apply, val_main_cst_0_apply, val_main_cst_1_apply]
  simp only [Ideal.hostUnary_rsqrt_def, Ideal.addf_def, Ideal.hostDivf_def, Ideal.ofBits_def]

/-- The RMS-normalised, weighted query head. -/
theorem v24_at (x0 : S1024x2048.Idx → EReal) (x7 : S2048x2048.Idx → EReal) (x11 : S64.Idx → EReal)
    (h : Fin 32) (t : Fin 1024) (d : Fin 64) :
    val_main_v24 (F := Ideal) x0 x7 x11 (ix3 h t d)
      = Cert.Spec.rms (fun j => val_main_v3 (F := Ideal) x0 x7 (ix3 h t j)) (vec x11) d := by
  have e20 : idx_main_v20 (ix3 h t d) = ix3 h t (0 : Fin 1) := funext fun a => Fin.ext (by
    match a with | ⟨0, _⟩ => rfl | ⟨1, _⟩ => rfl | ⟨2, _⟩ => rfl)
  have e22 : idx_main_v22 (idx_main_v23 (ix3 h t d)) = ix1 d := funext fun a => Fin.ext (by
    match a with | ⟨0, _⟩ => rfl)
  rw [val_main_v24_apply, val_main_v21_apply, val_main_v20_apply, e20, v19_at, val_main_v23_apply, val_main_v22_apply, e22]
  simp only [Ideal.mulf_def]
  rfl

/-- The half-swapped, half-negated normalised query head. -/
theorem v41_at (x0 : S1024x2048.Idx → EReal) (x7 : S2048x2048.Idx → EReal) (x11 : S64.Idx → EReal)
    (h : Fin 32) (t : Fin 1024) (d : Fin 64) :
    val_main_v41 (F := Ideal) x0 x7 x11 (ix3 h t d)
      = Cert.Spec.rot (fun j => val_main_v24 (F := Ideal) x0 x7 x11 (ix3 h t j)) d := by
  unfold val_main_v41 Cert.Spec.rot
  by_cases hd : d.val < 32
  · rw [dif_pos hd]
    refine (concatenate_pair_apply_left (t := S32x1024x64) (s₁ := S32x1024x32) (s₂ := S32x1024x32) _ _ _ _ (ix3 h t d) rfl (ix3 h t (⟨d.val, hd⟩ : Fin 32)) ?_).trans ?_
    · intro b
      match b with | ⟨0, _⟩ => rfl | ⟨1, _⟩ => rfl | ⟨2, _⟩ => rfl
    · have e : idx_main_v39 (ix3 h t (⟨d.val, hd⟩ : Fin 32)) = ix3 h t (⟨d.val + 32, by omega⟩ : Fin 64) :=
        funext fun a => Fin.ext (by
          match a with | ⟨0, _⟩ => rfl | ⟨1, _⟩ => rfl | ⟨2, _⟩ => exact Nat.add_comm 32 d.val)
      rw [val_main_v40_apply, val_main_v39_apply, e, Ideal.hostNegf_def, Ideal.negf_def]
  · rw [dif_neg hd]
    refine (concatenate_pair_apply_right (t := S32x1024x64) (s₁ := S32x1024x32) (s₂ := S32x1024x32) _ _ _ _ (ix3 h t d) rfl rfl (ix3 h t (⟨d.val - 32, by have := d.isLt; omega⟩ : Fin 32)) ?_ ?_).trans ?_
    · intro b hb
      match b, hb with
      | ⟨0, _⟩, _ => rfl
      | ⟨1, _⟩, _ => rfl
      | ⟨2, _⟩, hb => exact absurd rfl hb
    · show d.val - 32 + 32 = d.val
      omega
    · have e : idx_main_v38 (ix3 h t (⟨d.val - 32, by have := d.isLt; omega⟩ : Fin 32)) = ix3 h t (⟨d.val - 32, by have := d.isLt; omega⟩ : Fin 64) :=
        funext fun a => Fin.ext (by
          match a with | ⟨0, _⟩ => rfl | ⟨1, _⟩ => rfl | ⟨2, _⟩ => rfl)
      rw [val_main_v38_apply, e]

/-- The rotary embedding of the normalised query head: the head times `cos` plus the swapped head times `sin`. -/
theorem v48_at (x0 : S1024x2048.Idx → EReal) (x3 x5 : S1024x64.Idx → EReal) (x7 : S2048x2048.Idx → EReal) (x11 : S64.Idx → EReal)
    (h : Fin 32) (t : Fin 1024) (d : Fin 64) :
    val_main_v48 (F := Ideal) x0 x3 x5 x7 x11 (ix3 h t d)
      = val_main_v24 (F := Ideal) x0 x7 x11 (ix3 h t d) * x3 (ix2 t d)
        + val_main_v41 (F := Ideal) x0 x7 x11 (ix3 h t d) * x5 (ix2 t d) := by
  have e3 : idx_main_v42 (idx_main_v43 (ix3 h t d)) = ix2 t d := funext fun a => Fin.ext (by
    match a with | ⟨0, _⟩ => rfl | ⟨1, _⟩ => rfl)
  have e5 : idx_main_v45 (idx_main_v46 (ix3 h t d)) = ix2 t d := funext fun a => Fin.ext (by
    match a with | ⟨0, _⟩ => rfl | ⟨1, _⟩ => rfl)
  rw [val_main_v48_apply, val_main_v44_apply, val_main_v47_apply, val_main_v43_apply, val_main_v42_apply, e3,
    val_main_v46_apply, val_main_v45_apply, e5]
  simp only [Ideal.addf_def, Ideal.mulf_def]

/-- The reference's rotated, normalised queries: head `h`, token `t`, lane `d`. -/
theorem ref_q (x0 : S1024x2048.Idx → EReal) (x3 x5 : S1024x64.Idx → EReal) (x7 : S2048x2048.Idx → EReal) (x11 : S64.Idx → EReal)
    (h : Fin 32) (t : Fin 1024) (d : Fin 64) :
    val_main_v48 (F := Ideal) x0 x3 x5 x7 x11 (ix3 h t d)
      = Cert.Spec.normed (Cert.Spec.headOf (H := 32) (Cert.Spec.proj (mat x0) (mat x7)) h) (mat x3) (mat x5) (vec x11) t d := by
  have e3 : (fun j => val_main_v3 (F := Ideal) x0 x7 (ix3 h t j))
      = Cert.Spec.headOf (H := 32) (Cert.Spec.proj (mat x0) (mat x7)) h t := funext fun j => by
    rw [v3_at]; rfl
  have e24 : (fun j => val_main_v24 (F := Ideal) x0 x7 x11 (ix3 h t j))
      = Cert.Spec.rms (Cert.Spec.headOf (H := 32) (Cert.Spec.proj (mat x0) (mat x7)) h t) (vec x11) := funext fun j => by
    rw [v24_at, e3]
  rw [v48_at, v41_at, e24, v24_at, e3]
  rfl

/-! ### Keys: projection, RMS normalisation, rotary embedding -/

/-- The key projection of head `g`, token `t`, lane `d`: the row of `x` against row `64 g + d` of the weight. -/
theorem v7_at (x0 : S1024x2048.Idx → EReal) (x8 : S512x2048.Idx → EReal) (g : Fin 8) (t : Fin 1024) (d : Fin 64) :
    val_main_v7 (F := Ideal) x0 x8 (ix3 g t d)
      = ∑ k : Fin 2048, x0 (ix2 t k) * x8 (ix2 (⟨g.val * 64 + d.val, by have := g.isLt; have := d.isLt; omega⟩ : Fin 512) k) := by
  have e7 : idx_main_v7 (ix3 g t d) = ix3 t g d := funext fun a => Fin.ext (by
    match a with | ⟨0, _⟩ => rfl | ⟨1, _⟩ => rfl | ⟨2, _⟩ => rfl)
  have e6 : idx_main_v6 (ix3 t g d) = ix2 t (⟨g.val * 64 + d.val, by have := g.isLt; have := d.isLt; omega⟩ : Fin 512) :=
    funext fun a => Fin.ext (by
      have := g.isLt; have := d.isLt; have := t.isLt
      match a with
      | ⟨0, _⟩ => show ((t.val * 8 + g.val) * 64 + d.val) / 512 = t.val; omega
      | ⟨1, _⟩ => show ((t.val * 8 + g.val) * 64 + d.val) % 512 = g.val * 64 + d.val; omega)
  rw [val_main_v7_apply, e7, val_main_v6_apply, e6, val_main_v5_apply]
  refine Finset.sum_congr rfl fun k _ => ?_
  have el : lidx_main_v5 (ix2 t (⟨g.val * 64 + d.val, by have := g.isLt; have := d.isLt; omega⟩ : Fin 512)) k = ix2 t k :=
    funext fun a => Fin.ext (by match a with | ⟨0, _⟩ => rfl | ⟨1, _⟩ => rfl)
  have er : idx_main_v4 (ridx_main_v5 (ix2 t (⟨g.val * 64 + d.val, by have := g.isLt; have := d.isLt; omega⟩ : Fin 512)) k)
      = ix2 (⟨g.val * 64 + d.val, by have := g.isLt; have := d.isLt; omega⟩ : Fin 512) k :=
    funext fun a => Fin.ext (by match a with | ⟨0, _⟩ => rfl | ⟨1, _⟩ => rfl)
  rw [val_main_v4_apply, el, er]

/-- The sum of squares of one key head's 64 lanes at one token. -/
theorem v26_at (x0 : S1024x2048.Idx → EReal) (x8 : S512x2048.Idx → EReal) (g : Fin 8) (t : Fin 1024) :
    val_main_v26 (F := Ideal) x0 x8 (ix2 g t)
      = ∑ j : Fin 64, val_main_v7 (F := Ideal) x0 x8 (ix3 g t j) * val_main_v7 (F := Ideal) x0 x8 (ix3 g t j) := by
  rw [val_main_v26_apply, val_main_cst_2_apply, Ideal.ofBits_def, Ideal.ofBits_zero_f32, zero_add]
  refine Finset.sum_congr rfl fun k _ => ?_
  have e : idx_main_v26 (ix2 g t) k = ix3 g t k := funext fun a => Fin.ext (by
    match a with | ⟨0, _⟩ => rfl | ⟨1, _⟩ => rfl | ⟨2, _⟩ => rfl)
  rw [e, val_main_v25_apply, Ideal.mulf_def]

/-- The normalising factor of one key head at one token: `rsqrt (mean of squares + ε)`. -/
theorem v32_at (x0 : S1024x2048.Idx → EReal) (x8 : S512x2048.Idx → EReal) (g : Fin 8) (t : Fin 1024) (z : Fin 1) :
    val_main_v32 (F := Ideal) x0 x8 (ix3 g t z)
      = Ideal.rsqrt (Ideal.div (∑ j : Fin 64, val_main_v7 (F := Ideal) x0 x8 (ix3 g t j) * val_main_v7 (F := Ideal) x0 x8 (ix3 g t j))
          Cert.Spec.c64 + Cert.Spec.ceps) := by
  have e : idx_main_v27 (ix3 g t z) = ix2 g t := funext fun a => Fin.ext (by
    match a with | ⟨0, _⟩ => rfl | ⟨1, _⟩ => rfl)
  rw [val_main_v32_apply, val_main_v31_apply, val_main_v29_apply, val_main_v27_apply, e, v26_at, val_main_v28_apply,
    val_main_v30_apply, val_main_cst_3_apply, val_main_cst_4_apply]
  simp only [Ideal.hostUnary_rsqrt_def, Ideal.addf_def, Ideal.hostDivf_def, Ideal.ofBits_def]

/-- The RMS-normalised, weighted key head. -/
theorem v37_at (x0 : S1024x2048.Idx → EReal) (x8 : S512x2048.Idx → EReal) (x12 : S64.Idx → EReal)
    (g : Fin 8) (t : Fin 1024) (d : Fin 64) :
    val_main_v37 (F := Ideal) x0 x8 x12 (ix3 g t d)
      = Cert.Spec.rms (fun j => val_main_v7 (F := Ideal) x0 x8 (ix3 g t j)) (vec x12) d := by
  have e33 : idx_main_v33 (ix3 g t d) = ix3 g t (0 : Fin 1) := funext fun a => Fin.ext (by
    match a with | ⟨0, _⟩ => rfl | ⟨1, _⟩ => rfl | ⟨2, _⟩ => rfl)
  have e35 : idx_main_v35 (idx_main_v36 (ix3 g t d)) = ix1 d := funext fun a => Fin.ext (by
    match a with | ⟨0, _⟩ => rfl)
  rw [val_main_v37_apply, val_main_v34_apply, val_main_v33_apply, e33, v32_at, val_main_v36_apply, val_main_v35_apply, e35]
  simp only [Ideal.mulf_def]
  rfl

/-- The half-swapped, half-negated normalised key head. -/
theorem v52_at (x0 : S1024x2048.Idx → EReal) (x8 : S512x2048.Idx → EReal) (x12 : S64.Idx → EReal)
    (g : Fin 8) (t : Fin 1024) (d : Fin 64) :
    val_main_v52 (F := Ideal) x0 x8 x12 (ix3 g t d)
      = Cert.Spec.rot (fun j => val_main_v37 (F := Ideal) x0 x8 x12 (ix3 g t j)) d := by
  unfold val_main_v52 Cert.Spec.rot
  by_cases hd : d.val < 32
  · rw [dif_pos hd]
    refine (concatenate_pair_apply_left (t := S8x1024x64) (s₁ := S8x1024x32) (s₂ := S8x1024x32) _ _ _ _ (ix3 g t d) rfl
      (ix3 g t (⟨d.val, hd⟩ : Fin 32)) ?_).trans ?_
    · intro b
      match b with | ⟨0, _⟩ => rfl | ⟨1, _⟩ => rfl | ⟨2, _⟩ => rfl
    · have e : idx_main_v50 (ix3 g t (⟨d.val, hd⟩ : Fin 32)) = ix3 g t (⟨d.val + 32, by omega⟩ : Fin 64) :=
        funext fun a => Fin.ext (by
          match a with | ⟨0, _⟩ => rfl | ⟨1, _⟩ => rfl | ⟨2, _⟩ => exact Nat.add_comm 32 d.val)
      rw [val_main_v51_apply, val_main_v50_apply, e, Ideal.hostNegf_def, Ideal.negf_def]
  · rw [dif_neg hd]
    refine (concatenate_pair_apply_right (t := S8x1024x64) (s₁ := S8x1024x32) (s₂ := S8x1024x32) _ _ _ _ (ix3 g t d) rfl rfl
      (ix3 g t (⟨d.val - 32, by have := d.isLt; omega⟩ : Fin 32)) ?_ ?_).trans ?_
    · intro b hb
      match b, hb with
      | ⟨0, _⟩, _ => rfl
      | ⟨1, _⟩, _ => rfl
      | ⟨2, _⟩, hb => exact absurd rfl hb
    · show d.val - 32 + 32 = d.val
      omega
    · have e : idx_main_v49 (ix3 g t (⟨d.val - 32, by have := d.isLt; omega⟩ : Fin 32)) = ix3 g t (⟨d.val - 32, by have := d.isLt; omega⟩ : Fin 64) :=
        funext fun a => Fin.ext (by
          match a with | ⟨0, _⟩ => rfl | ⟨1, _⟩ => rfl | ⟨2, _⟩ => rfl)
      rw [val_main_v49_apply, e]

/-- The rotary embedding of the normalised key head: the head times `cos` plus the swapped head times `sin`. -/
theorem v59_at (x0 : S1024x2048.Idx → EReal) (x3 x5 : S1024x64.Idx → EReal) (x8 : S512x2048.Idx → EReal) (x12 : S64.Idx → EReal)
    (g : Fin 8) (t : Fin 1024) (d : Fin 64) :
    val_main_v59 (F := Ideal) x0 x3 x5 x8 x12 (ix3 g t d)
      = val_main_v37 (F := Ideal) x0 x8 x12 (ix3 g t d) * x3 (ix2 t d)
        + val_main_v52 (F := Ideal) x0 x8 x12 (ix3 g t d) * x5 (ix2 t d) := by
  have e3 : idx_main_v53 (idx_main_v54 (ix3 g t d)) = ix2 t d := funext fun a => Fin.ext (by
    match a with | ⟨0, _⟩ => rfl | ⟨1, _⟩ => rfl)
  have e5 : idx_main_v56 (idx_main_v57 (ix3 g t d)) = ix2 t d := funext fun a => Fin.ext (by
    match a with | ⟨0, _⟩ => rfl | ⟨1, _⟩ => rfl)
  rw [val_main_v59_apply, val_main_v55_apply, val_main_v58_apply, val_main_v54_apply, val_main_v53_apply, e3,
    val_main_v57_apply, val_main_v56_apply, e5]
  simp only [Ideal.addf_def, Ideal.mulf_def]

/-- The reference's rotated, normalised keys: key head `g`. -/
theorem ref_k (x0 : S1024x2048.Idx → EReal) (x3 x5 : S1024x64.Idx → EReal) (x8 : S512x2048.Idx → EReal) (x12 : S64.Idx → EReal)
    (g : Fin 8) (t : Fin 1024) (d : Fin 64) :
    val_main_v59 (F := Ideal) x0 x3 x5 x8 x12 (ix3 g t d)
      = Cert.Spec.normed (Cert.Spec.headOf (H := 8) (Cert.Spec.proj (mat x0) (mat x8)) g) (mat x3) (mat x5) (vec x12) t d := by
  have e7 : (fun j => val_main_v7 (F := Ideal) x0 x8 (ix3 g t j))
      = Cert.Spec.headOf (H := 8) (Cert.Spec.proj (mat x0) (mat x8)) g t := funext fun j => by
    rw [v7_at]; rfl
  have e37 : (fun j => val_main_v37 (F := Ideal) x0 x8 x12 (ix3 g t j))
      = Cert.Spec.rms (Cert.Spec.headOf (H := 8) (Cert.Spec.proj (mat x0) (mat x8)) g t) (vec x12) := funext fun j => by
    rw [v37_at, e7]
  rw [v59_at, v52_at, e37, v37_at, e7]
  rfl

/-! ### Values: the projection only -/

/-- The value projection of head `g`, token `t`, lane `d`: the row of `x` against row `64 g + d` of the weight. -/
theorem v11_at (x0 : S1024x2048.Idx → EReal) (x9 : S512x2048.Idx → EReal) (g : Fin 8) (t : Fin 1024) (d : Fin 64) :
    val_main_v11 (F := Ideal) x0 x9 (ix3 g t d)
      = ∑ k : Fin 2048, x0 (ix2 t k) * x9 (ix2 (⟨g.val * 64 + d.val, by have := g.isLt; have := d.isLt; omega⟩ : Fin 512) k) := by
  have e11 : idx_main_v11 (ix3 g t d) = ix3 t g d := funext fun a => Fin.ext (by
    match a with | ⟨0, _⟩ => rfl | ⟨1, _⟩ => rfl | ⟨2, _⟩ => rfl)
  have e10 : idx_main_v10 (ix3 t g d) = ix2 t (⟨g.val * 64 + d.val, by have := g.isLt; have := d.isLt; omega⟩ : Fin 512) :=
    funext fun a => Fin.ext (by
      have := g.isLt; have := d.isLt; have := t.isLt
      match a with
      | ⟨0, _⟩ => show ((t.val * 8 + g.val) * 64 + d.val) / 512 = t.val; omega
      | ⟨1, _⟩ => show ((t.val * 8 + g.val) * 64 + d.val) % 512 = g.val * 64 + d.val; omega)
  rw [val_main_v11_apply, e11, val_main_v10_apply, e10, val_main_v9_apply]
  refine Finset.sum_congr rfl fun k _ => ?_
  have el : lidx_main_v9 (ix2 t (⟨g.val * 64 + d.val, by have := g.isLt; have := d.isLt; omega⟩ : Fin 512)) k = ix2 t k :=
    funext fun a => Fin.ext (by match a with | ⟨0, _⟩ => rfl | ⟨1, _⟩ => rfl)
  have er : idx_main_v8 (ridx_main_v9 (ix2 t (⟨g.val * 64 + d.val, by have := g.isLt; have := d.isLt; omega⟩ : Fin 512)) k)
      = ix2 (⟨g.val * 64 + d.val, by have := g.isLt; have := d.isLt; omega⟩ : Fin 512) k :=
    funext fun a => Fin.ext (by match a with | ⟨0, _⟩ => rfl | ⟨1, _⟩ => rfl)
  rw [val_main_v8_apply, el, er]

/-- The reference's values: value head `g`. -/
theorem ref_v (x0 : S1024x2048.Idx → EReal) (x9 : S512x2048.Idx → EReal) (g : Fin 8) (t : Fin 1024) (d : Fin 64) :
    val_main_v11 (F := Ideal) x0 x9 (ix3 g t d) = Cert.Spec.headOf (H := 8) (Cert.Spec.proj (mat x0) (mat x9)) g t d := by
  rw [v11_at]
  rfl

end Cert.ReferenceIdeal.RefQKV

end
-- ==== Proof.RefAttn.lean ====
/-
  The reference's attention stages read at an index, from its queries, keys and values by head to its result.

  The keys and values (8 heads) are repeated four times along a new axis and flattened to 32 heads, so query head h
  reads key/value head h / 4. The raw score of (h, t, s) is the inner product of query row t and key row s over the 64
  lanes; dividing it by the word of 8 is multiplying it by the word of 1/8 on every extended real; where the mask is set
  it is replaced by the word of -∞. Each row's maximum is the fold of `max` from -∞ over the row (a second maximum with
  -∞, the least element, changes nothing); the row is shifted by it, exponentiated and divided by the sum of the
  exponentials. The result is applied to the values, the 32 heads are laid side by side (column c is lane c % 64 of
  head c / 64) and the 2048-wide rows are multiplied by the transposed output weights.
-/
import proofs.«411685_j48395691491520_3_alg».proof.Proof.Spec
import proofs.«411685_j48395691491520_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.ReferenceIdeal.RefAttn

open Cert.ReferenceIdeal Cert.ReferenceIdeal.Gen Cert.ReferenceIdeal.Read
open Idealize.ShloMosaic Idealize.ShloMosaic.TcCoe Idealize.ShloMosaic.ValueIdx
open Cert.Spec (mat vec)

/-! ## The words -/

/-- Dividing by the word of 8 is multiplying by the word of 1/8, on every extended real. -/
theorem div_eight (z : EReal) :
    Ideal.div z (Ideal.ofBits .f32 0x41000000#32) = z * Ideal.ofBits .f32 0x3E000000#32 := by
  have h8 : Ideal.ofBits .f32 0x41000000#32 = ((8 : ℝ) : EReal) := by
    simp [Ideal.ofBits, Ideal.ieee, -EReal.coe_mul]; norm_num
  have h18 : Ideal.ofBits .f32 0x3E000000#32 = ((1 / 8 : ℝ) : EReal) := by
    simp [Ideal.ofBits, Ideal.ieee, -EReal.coe_mul]; norm_num
  rw [h8, h18, Ideal.div_coe (by norm_num)]

/-- The word of -∞ is the least extended real, so a maximum with it changes nothing. -/
theorem max_negInf (z : EReal) : max (Ideal.ofBits .f32 0xFF800000#32) z = z := by
  simp [Ideal.ofBits, Ideal.ieee]

/-! ## Index equations -/

/-- Flat index of (h, t, d) in 32 × 1024 × 64 read in 8 × 4 × 1024 × 64 with the repeat axis dropped: key head h / 4. -/
theorem idx_key (h : Fin 32) (t : Fin 1024) (d : Fin 64) :
    idx_main_v60 (idx_main_v61 (ix3 h t d)) = ix3 (Cert.Spec.kvOf h) t d := by
  funext a; apply Fin.ext
  have hh := h.isLt; have ht := t.isLt; have hd := d.isLt
  match a with
  | ⟨0, _⟩ => show ((h.val * 1024 + t.val) * 64 + d.val) / 262144 = h.val / 4; omega
  | ⟨1, _⟩ => show ((h.val * 1024 + t.val) * 64 + d.val) / 64 % 1024 = t.val; omega
  | ⟨2, _⟩ => show ((h.val * 1024 + t.val) * 64 + d.val) % 64 = d.val; omega

theorem idx_val (h : Fin 32) (t : Fin 1024) (d : Fin 64) :
    idx_main_v62 (idx_main_v63 (ix3 h t d)) = ix3 (Cert.Spec.kvOf h) t d := by
  funext a; apply Fin.ext
  have hh := h.isLt; have ht := t.isLt; have hd := d.isLt
  match a with
  | ⟨0, _⟩ => show ((h.val * 1024 + t.val) * 64 + d.val) / 262144 = h.val / 4; omega
  | ⟨1, _⟩ => show ((h.val * 1024 + t.val) * 64 + d.val) / 64 % 1024 = t.val; omega
  | ⟨2, _⟩ => show ((h.val * 1024 + t.val) * 64 + d.val) % 64 = d.val; omega

/-- Column c of row t in 1024 × 2048 read in 1024 × 32 × 64 and transposed: head c / 64, lane c % 64. -/
theorem idx_cat (t : Fin 1024) (c : Fin 2048) :
    idx_main_v81 (idx_main_v82 (ix2 t c)) = ix3 (Cert.Spec.hd (H := 32) c) t (Cert.Spec.ln (H := 32) c) := by
  funext a; apply Fin.ext
  have ht := t.isLt; have hc := c.isLt
  match a with
  | ⟨0, _⟩ => show (t.val * 2048 + c.val) / 64 % 32 = c.val / 64; omega
  | ⟨1, _⟩ => show (t.val * 2048 + c.val) / 2048 = t.val; omega
  | ⟨2, _⟩ => show (t.val * 2048 + c.val) % 64 = c.val % 64; omega

/-! ## The stages -/

section Stages

variable (x0 : S1024x2048.Idx → EReal) (x2 : S1024x1024.Idx → BitVec 1) (x3 x5 : S1024x64.Idx → EReal)
  (x7 : S2048x2048.Idx → EReal) (x8 x9 : S512x2048.Idx → EReal) (x10 : S2048x2048.Idx → EReal) (x11 x12 : S64.Idx → EReal)
  (Q : Fin 32 → Fin 1024 → Fin 64 → EReal) (K V : Fin 8 → Fin 1024 → Fin 64 → EReal)
  (hQ : ∀ h t d, val_main_v48 (F := Ideal) x0 x3 x5 x7 x11 (ix3 h t d) = Q h t d)
  (hK : ∀ g t d, val_main_v59 (F := Ideal) x0 x3 x5 x8 x12 (ix3 g t d) = K g t d)
  (hV : ∀ g t d, val_main_v11 (F := Ideal) x0 x9 (ix3 g t d) = V g t d)

include hK in
/-- The keys repeated four times along a new axis and flattened: query head h reads key head h / 4. -/
theorem keys_rep (h : Fin 32) (t : Fin 1024) (d : Fin 64) :
    val_main_v61 (F := Ideal) x0 x3 x5 x8 x12 (ix3 h t d) = K (Cert.Spec.kvOf h) t d := by
  rw [val_main_v61_apply, val_main_v60_apply, idx_key, hK]

include hV in
/-- The values likewise. -/
theorem vals_rep (h : Fin 32) (t : Fin 1024) (d : Fin 64) :
    val_main_v63 (F := Ideal) x0 x9 (ix3 h t d) = V (Cert.Spec.kvOf h) t d := by
  rw [val_main_v63_apply, val_main_v62_apply, idx_val, hV]

include hQ hK in
/-- The raw scores: the inner product over the 64 lanes. -/
theorem raw_score (h : Fin 32) (t s : Fin 1024) :
    val_main_v64 (F := Ideal) x0 x3 x5 x7 x8 x11 x12 (ix3 h t s) = ∑ d : Fin 64, Q h t d * K (Cert.Spec.kvOf h) s d := by
  rw [val_main_v64_apply]
  refine Finset.sum_congr rfl fun d _ => ?_
  have el : lidx_main_v64 (ix3 h t s) d = ix3 h t d :=
    funext fun a => Fin.ext (by match a with | ⟨0, _⟩ => rfl | ⟨1, _⟩ => rfl | ⟨2, _⟩ => rfl)
  have er : ridx_main_v64 (ix3 h t s) d = ix3 h s d :=
    funext fun a => Fin.ext (by match a with | ⟨0, _⟩ => rfl | ⟨1, _⟩ => rfl | ⟨2, _⟩ => rfl)
  rw [el, er, hQ, keys_rep x0 x3 x5 x8 x12 K hK]

include hQ hK in
/-- The scores divided by 8. -/
theorem scaled_score (h : Fin 32) (t s : Fin 1024) :
    val_main_v66 (F := Ideal) x0 x3 x5 x7 x8 x11 x12 (ix3 h t s)
      = (∑ d : Fin 64, Q h t d * K (Cert.Spec.kvOf h) s d) * Cert.Spec.cEighth := by
  rw [val_main_v66_apply, val_main_v65_apply, val_main_cst_5_apply, raw_score x0 x3 x5 x7 x8 x11 x12 Q K hQ hK]
  simp only [Ideal.hostDivf_def, Ideal.ofBits_def]
  exact div_eight _

include hQ hK in
/-- The masked scores. -/
theorem masked_score (h : Fin 32) (t s : Fin 1024) :
    val_main_v68 (F := Ideal) x0 x2 x3 x5 x7 x8 x11 x12 (ix3 h t s)
      = Cert.Spec.score (Q h) (K (Cert.Spec.kvOf h)) (mat x2) t s := by
  rw [val_main_v68_apply, val_main_call0_v1_apply, val_main_v67_apply, val_main_call0_v2_apply, val_main_call0_v0_apply,
    val_main_cst_6_apply, scaled_score x0 x3 x5 x7 x8 x11 x12 Q K hQ hK]
  have em : idx_main_v67 (idx_main_call0_v1 (ix3 h t s)) = ix2 t s :=
    funext fun a => Fin.ext (by match a with | ⟨0, _⟩ => rfl | ⟨1, _⟩ => rfl)
  rw [em]
  rfl

end Stages

section Softmax

variable (x0 : S1024x2048.Idx → EReal) (x2 : S1024x1024.Idx → BitVec 1) (x3 x5 : S1024x64.Idx → EReal)
  (x7 : S2048x2048.Idx → EReal) (x8 x9 : S512x2048.Idx → EReal) (x10 : S2048x2048.Idx → EReal) (x11 x12 : S64.Idx → EReal)
  (Q : Fin 32 → Fin 1024 → Fin 64 → EReal) (K V : Fin 8 → Fin 1024 → Fin 64 → EReal)
  (hQ : ∀ h t d, val_main_v48 (F := Ideal) x0 x3 x5 x7 x11 (ix3 h t d) = Q h t d)
  (hK : ∀ g t d, val_main_v59 (F := Ideal) x0 x3 x5 x8 x12 (ix3 g t d) = K g t d)
  (hV : ∀ g t d, val_main_v11 (F := Ideal) x0 x9 (ix3 g t d) = V g t d)

/-- A maximum over the last axis of a 32 × 1024 × 1024 array from the word of -∞, at (h, t): the fold of `max` over the row. -/
theorem reduce_max_row (y : S32x1024x1024.Idx → EReal) (h : Fin 32) (t : Fin 1024) :
    Host.reduce (FloatOps.maximumf (F := Ideal) (φ := .f32)) y (val_main_cst_7 (F := Ideal)) reducesTo_S32x1024x1024_S32x1024_d2 h_S_ (ix2 h t)
      = (Finset.univ : Finset (Fin 1024)).fold max Cert.Spec.cNegInf (fun s => y (ix3 h t s)) := by
  have hr : S32x1024x1024.Reduces [2] S32x1024 := by decide
  rw [Host.reduce_eq_fold_single (FloatOps.maximumf (F := Ideal) (φ := .f32)) y _ reducesTo_S32x1024x1024_S32x1024_d2 hr h_S_]
  have hf : (y ∘ hr.lift (ix2 h t)) = fun s : Fin 1024 => y (ix3 h t s) :=
    funext fun s => congrArg y (funext fun a => Fin.ext (by match a with | ⟨0, _⟩ => rfl | ⟨1, _⟩ => rfl | ⟨2, _⟩ => rfl))
  exact congrArg (fun f => Finset.fold max (Ideal.ofBits .f32 0xFF800000#32) f (Finset.univ : Finset (Fin 1024))) hf

include hQ hK in
/-- The row maximum of the masked scores. -/
theorem row_max (h : Fin 32) (t : Fin 1024) :
    val_main_v71 (F := Ideal) x0 x2 x3 x5 x7 x8 x11 x12 (ix2 h t)
      = (Finset.univ : Finset (Fin 1024)).fold max Cert.Spec.cNegInf (Cert.Spec.score (Q h) (K (Cert.Spec.kvOf h)) (mat x2) t) := by
  rw [val_main_v71_apply, val_main_v70_apply, val_main_cst_8_apply]
  simp only [Ideal.maximumf_def, Ideal.ofBits_def]
  rw [max_negInf]
  unfold val_main_v69
  rw [reduce_max_row]
  refine congrArg (fun f => Finset.fold max Cert.Spec.cNegInf f (Finset.univ : Finset (Fin 1024))) ?_
  funext s
  exact masked_score x0 x2 x3 x5 x7 x8 x11 x12 Q K hQ hK h t s

include hQ hK in
/-- The exponential of the shifted scores. -/
theorem exp_shift (h : Fin 32) (t s : Fin 1024) :
    val_main_v75 (F := Ideal) x0 x2 x3 x5 x7 x8 x11 x12 (ix3 h t s)
      = Ideal.exp (Cert.Spec.score (Q h) (K (Cert.Spec.kvOf h)) (mat x2) t s
          - (Finset.univ : Finset (Fin 1024)).fold max Cert.Spec.cNegInf (Cert.Spec.score (Q h) (K (Cert.Spec.kvOf h)) (mat x2) t)) := by
  rw [val_main_v75_apply, val_main_v74_apply, val_main_v73_apply, val_main_v72_apply,
    masked_score x0 x2 x3 x5 x7 x8 x11 x12 Q K hQ hK]
  have em : idx_main_v72 (idx_main_v73 (ix3 h t s)) = ix2 h t :=
    funext fun a => Fin.ext (by match a with | ⟨0, _⟩ => rfl | ⟨1, _⟩ => rfl)
  rw [em, row_max x0 x2 x3 x5 x7 x8 x11 x12 Q K hQ hK]
  rfl

include hQ hK in
/-- The row sum of the exponentials. -/
theorem exp_sum (h : Fin 32) (t : Fin 1024) :
    val_main_v76 (F := Ideal) x0 x2 x3 x5 x7 x8 x11 x12 (ix2 h t)
      = ∑ s' : Fin 1024, Ideal.exp (Cert.Spec.score (Q h) (K (Cert.Spec.kvOf h)) (mat x2) t s'
          - (Finset.univ : Finset (Fin 1024)).fold max Cert.Spec.cNegInf (Cert.Spec.score (Q h) (K (Cert.Spec.kvOf h)) (mat x2) t)) := by
  rw [val_main_v76_apply, val_main_cst_9_apply]
  simp only [Ideal.ofBits_def]
  rw [Ideal.ofBits_zero_f32, zero_add]
  refine Finset.sum_congr rfl fun s' _ => ?_
  have em : idx_main_v76 (ix2 h t) s' = ix3 h t s' :=
    funext fun a => Fin.ext (by match a with | ⟨0, _⟩ => rfl | ⟨1, _⟩ => rfl | ⟨2, _⟩ => rfl)
  rw [em, exp_shift x0 x2 x3 x5 x7 x8 x11 x12 Q K hQ hK]

include hQ hK in
/-- The soft-max of the masked scores' row. -/
theorem probs (h : Fin 32) (t s : Fin 1024) :
    val_main_v79 (F := Ideal) x0 x2 x3 x5 x7 x8 x11 x12 (ix3 h t s)
      = Cert.Spec.smax (Cert.Spec.score (Q h) (K (Cert.Spec.kvOf h)) (mat x2) t) s := by
  rw [val_main_v79_apply, val_main_v78_apply, val_main_v77_apply, exp_shift x0 x2 x3 x5 x7 x8 x11 x12 Q K hQ hK]
  have em : idx_main_v77 (idx_main_v78 (ix3 h t s)) = ix2 h t :=
    funext fun a => Fin.ext (by match a with | ⟨0, _⟩ => rfl | ⟨1, _⟩ => rfl)
  rw [em, exp_sum x0 x2 x3 x5 x7 x8 x11 x12 Q K hQ hK]
  rfl

end Softmax

section Output

variable (x0 : S1024x2048.Idx → EReal) (x2 : S1024x1024.Idx → BitVec 1) (x3 x5 : S1024x64.Idx → EReal)
  (x7 : S2048x2048.Idx → EReal) (x8 x9 : S512x2048.Idx → EReal) (x10 : S2048x2048.Idx → EReal) (x11 x12 : S64.Idx → EReal)
  (Q : Fin 32 → Fin 1024 → Fin 64 → EReal) (K V : Fin 8 → Fin 1024 → Fin 64 → EReal)
  (hQ : ∀ h t d, val_main_v48 (F := Ideal) x0 x3 x5 x7 x11 (ix3 h t d) = Q h t d)
  (hK : ∀ g t d, val_main_v59 (F := Ideal) x0 x3 x5 x8 x12 (ix3 g t d) = K g t d)
  (hV : ∀ g t d, val_main_v11 (F := Ideal) x0 x9 (ix3 g t d) = V g t d)

include hQ hK hV in
/-- One head: the soft-maxed scores applied to the values of its key/value head. -/
theorem head_out (h : Fin 32) (t : Fin 1024) (d : Fin 64) :
    val_main_v80 (F := Ideal) x0 x2 x3 x5 x7 x8 x9 x11 x12 (ix3 h t d)
      = Cert.Spec.headN (Q h) (K (Cert.Spec.kvOf h)) (V (Cert.Spec.kvOf h)) (mat x2) t d := by
  rw [val_main_v80_apply]
  unfold Cert.Spec.headN
  refine Finset.sum_congr rfl fun s _ => ?_
  have el : lidx_main_v80 (ix3 h t d) s = ix3 h t s :=
    funext fun a => Fin.ext (by match a with | ⟨0, _⟩ => rfl | ⟨1, _⟩ => rfl | ⟨2, _⟩ => rfl)
  have er : ridx_main_v80 (ix3 h t d) s = ix3 h s d :=
    funext fun a => Fin.ext (by match a with | ⟨0, _⟩ => rfl | ⟨1, _⟩ => rfl | ⟨2, _⟩ => rfl)
  rw [el, er, probs x0 x2 x3 x5 x7 x8 x11 x12 Q K hQ hK, vals_rep x0 x9 V hV]

include hQ hK hV in
/-- The heads laid side by side: column c is lane c % 64 of head c / 64. -/
theorem heads_cat (t : Fin 1024) (c : Fin 2048) :
    val_main_v82 (F := Ideal) x0 x2 x3 x5 x7 x8 x9 x11 x12 (ix2 t c)
      = Cert.Spec.headN (Q (Cert.Spec.hd (H := 32) c)) (K (Cert.Spec.kvOf (Cert.Spec.hd (H := 32) c)))
          (V (Cert.Spec.kvOf (Cert.Spec.hd (H := 32) c))) (mat x2) t (Cert.Spec.ln (H := 32) c) := by
  rw [val_main_v82_apply, val_main_v81_apply, idx_cat, head_out x0 x2 x3 x5 x7 x8 x9 x11 x12 Q K V hQ hK hV]

end Output

/-- The reference's result from its queries `Q`, keys `K` and values `V` by head: every query head scored against its
    key head (four query heads share one), masked, soft-maxed, applied to the values, the heads laid side by side and
    projected by the output weights. -/
theorem ref_out (x0 : S1024x2048.Idx → EReal) (x2 : S1024x1024.Idx → BitVec 1) (x3 x5 : S1024x64.Idx → EReal)
    (x7 : S2048x2048.Idx → EReal) (x8 x9 : S512x2048.Idx → EReal) (x10 : S2048x2048.Idx → EReal) (x11 x12 : S64.Idx → EReal)
    (Q : Fin 32 → Fin 1024 → Fin 64 → EReal) (K V : Fin 8 → Fin 1024 → Fin 64 → EReal)
    (hQ : ∀ h t d, val_main_v48 (F := Ideal) x0 x3 x5 x7 x11 (ix3 h t d) = Q h t d)
    (hK : ∀ g t d, val_main_v59 (F := Ideal) x0 x3 x5 x8 x12 (ix3 g t d) = K g t d)
    (hV : ∀ g t d, val_main_v11 (F := Ideal) x0 x9 (ix3 g t d) = V g t d) (t : Fin 1024) (n : Fin 2048) :
    val_main_v84 (F := Ideal) x0 x2 x3 x5 x7 x8 x9 x10 x11 x12 (ix2 t n)
      = Cert.Spec.proj (fun t' (c : Fin (32 * 64)) =>
          Cert.Spec.headN (Q (Cert.Spec.hd c)) (K (Cert.Spec.kvOf (Cert.Spec.hd c))) (V (Cert.Spec.kvOf (Cert.Spec.hd c))) (mat x2) t' (Cert.Spec.ln c))
          (mat x10) t n := by
  rw [val_main_v84_apply]
  unfold Cert.Spec.proj
  refine Finset.sum_congr rfl fun c _ => ?_
  have el : lidx_main_v84 (ix2 t n) c = ix2 t c :=
    funext fun a => Fin.ext (by match a with | ⟨0, _⟩ => rfl | ⟨1, _⟩ => rfl)
  have er : idx_main_v83 (ridx_main_v84 (ix2 t n) c) = ix2 n c :=
    funext fun a => Fin.ext (by match a with | ⟨0, _⟩ => rfl | ⟨1, _⟩ => rfl)
  rw [el, val_main_v83_apply, er, heads_cat x0 x2 x3 x5 x7 x8 x9 x11 x12 Q K V hQ hK hV]

end Cert.ReferenceIdeal.RefAttn

end
-- ==== Proof.RefLayer.lean ====
/-
  The reference's result is the layer of the specification: its queries, keys and values by head are the normalised,
  rotated projections, and its attention stages applied to them are the specification's heads laid side by side and
  projected back.
-/
import proofs.«411685_j48395691491520_3_alg».proof.Proof.RefQKV
import proofs.«411685_j48395691491520_3_alg».proof.Proof.RefAttn

noncomputable section

namespace Cert.ReferenceIdeal.RefLayer

open Cert.ReferenceIdeal Cert.ReferenceIdeal.Gen Cert.ReferenceIdeal.Read
open Idealize.ShloMosaic Idealize.ShloMosaic.TcCoe Idealize.ShloMosaic.ValueIdx
open Cert.Spec (mat vec)

/-- The reference's result at row `t`, column `n`. -/
theorem ref_layer (x0 : S1024x2048.Idx → EReal) (x2 : S1024x1024.Idx → BitVec 1) (x3 x5 : S1024x64.Idx → EReal)
    (x7 : S2048x2048.Idx → EReal) (x8 x9 : S512x2048.Idx → EReal) (x10 : S2048x2048.Idx → EReal) (x11 x12 : S64.Idx → EReal)
    (t : Fin 1024) (n : Fin 2048) :
    val_main_v84 (F := Ideal) x0 x2 x3 x5 x7 x8 x9 x10 x11 x12 (ix2 t n)
      = Cert.Spec.layer (mat x0) (mat x7) (mat x8) (mat x9) (mat x10) (mat x3) (mat x5) (mat x2) (vec x11) (vec x12) t n :=
  (Cert.ReferenceIdeal.RefAttn.ref_out x0 x2 x3 x5 x7 x8 x9 x10 x11 x12
    (fun h t d => Cert.Spec.normed (Cert.Spec.headOf (H := 32) (Cert.Spec.proj (mat x0) (mat x7)) h) (mat x3) (mat x5) (vec x11) t d)
    (fun g t d => Cert.Spec.normed (Cert.Spec.headOf (H := 8) (Cert.Spec.proj (mat x0) (mat x8)) g) (mat x3) (mat x5) (vec x12) t d)
    (fun g t d => Cert.Spec.headOf (H := 8) (Cert.Spec.proj (mat x0) (mat x9)) g t d)
    (fun h t d => Cert.ReferenceIdeal.RefQKV.ref_q x0 x3 x5 x7 x11 h t d)
    (fun g t d => Cert.ReferenceIdeal.RefQKV.ref_k x0 x3 x5 x8 x12 g t d)
    (fun g t d => Cert.ReferenceIdeal.RefQKV.ref_v x0 x9 g t d) t n).trans rfl

end Cert.ReferenceIdeal.RefLayer

end
-- ==== Proof.lean ====
/-
  The certificate of a grouped-query attention layer against its plain reference.

  Both programs compute, on 1024 tokens of width 2048: the query, key and value projections (32 query heads, 8 key /
  value heads of width 64); an RMS normalisation and a rotary embedding of every query and key head; the scaled scores
  of each query head against the key head it shares with three others, sent to -∞ where the mask is set; a row-wise
  soft-max; the weighted sum of the values; the heads side by side, projected back to width 2048.

  The kernel does it in three pipelined calls (a fused projection against the three weight matrices stacked, the
  attention itself on pairs of key / value heads, the output projection) among host operations; the reference in one
  line of host operations.  Read on the extended reals both results are, index by index, the one function
  `Cert.Spec.layer` of the arguments: the kernel's by reading each call's write-backs as a whole-array function and the
  body's stored value head by head, the reference's by reading its operations one at a time.  The two sides differ in
  three places only, none of which needs the inputs finite: the quotient by 8 against the product with 1/8 (equal on
  every extended real), a second maximum with -∞ in the reference's soft-max (the least element), and the rotation
  spelt as a lane rotation times a sign vector against a negation and a concatenation.
-/
import proofs.«411685_j48395691491520_3_alg».proof.Defs
import proofs.«411685_j48395691491520_3_alg».proof.Proof.Gen.Kernel
import proofs.«411685_j48395691491520_3_alg».proof.Proof.Gen.KernelIdeal
import proofs.«411685_j48395691491520_3_alg».proof.Proof.Gen.ReferenceIdeal
import proofs.«411685_j48395691491520_3_alg».proof.Proof.Gen.ReferenceIdeal.Run
import proofs.«411685_j48395691491520_3_alg».proof.Proof.Gen.ReferenceIdeal.Read
import proofs.«411685_j48395691491520_3_alg».proof.Proof.Gen.Pre_finite_inputs
import proofs.«411685_j48395691491520_3_alg».proof.Proof.KRun
import proofs.«411685_j48395691491520_3_alg».proof.Proof.IRun
import proofs.«411685_j48395691491520_3_alg».proof.Proof.KernelLayer
import proofs.«411685_j48395691491520_3_alg».proof.Proof.RefLayer
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs to the end and leaves its arguments as launched. -/
theorem frame_k : Cert.frame_Kernel := fun m ρ _ => Cert.Kernel.Hand.frame (F := Bits) m ρ
/-- So does its reading on the extended reals. -/
theorem frame_ki : Cert.frame_KernelIdeal := fun m ρ _ => Cert.KernelIdeal.Hand.frame (F := Ideal) m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's layer of the arguments in their
    result arrays. -/
theorem algebraic : Cert.algebraic_KernelIdeal_ReferenceIdeal := by
  intro m ρ m' ρ' _ hagree
  refine ⟨fun c => (Cert.KernelIdeal.Hand.dat2 (Cert.KernelIdeal.Hand.V4 m ρ) c).arrAt 2 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq]
  obtain ⟨h0, -, h2, h3, -, h5, -, h7, h8, h9, h10, h11, h12⟩ := hagree c
  rw [h0, h2, h3, h5, h7, h8, h9, h10, h11, h12]
  funext i
  obtain ⟨t, n, rfl⟩ : ∃ (t : Fin 1024) (n : Fin 2048), i = ix2 t n := ⟨i 0, i 1, eq_ix2 i⟩
  exact (Cert.ReferenceIdeal.RefLayer.ref_layer _ _ _ _ _ _ _ _ _ _ t n).trans
    (Cert.KernelIdeal.Layer.kernel_layer m ρ c t n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
